-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x101 : Shape := ⟨2, ![50000, 101]⟩
abbrev S2x800000 : Shape := ⟨2, ![2, 800000]⟩
abbrev S800000 : Shape := ⟨1, ![800000]⟩
abbrev S800000x101 : Shape := ⟨2, ![800000, 101]⟩
abbrev S50000 : Shape := ⟨1, ![50000]⟩
abbrev S101x101 : Shape := ⟨2, ![101, 101]⟩
abbrev S101 : Shape := ⟨1, ![101]⟩
abbrev S101x100 : Shape := ⟨2, ![101, 100]⟩
abbrev S100 : Shape := ⟨1, ![100]⟩
abbrev S100x200 : Shape := ⟨2, ![100, 200]⟩
abbrev S200 : Shape := ⟨1, ![200]⟩
abbrev S200x50 : Shape := ⟨2, ![200, 50]⟩
abbrev S50 : Shape := ⟨1, ![50]⟩
abbrev S50x1 : Shape := ⟨2, ![50, 1]⟩
abbrev S1 : Shape := ⟨1, ![1]⟩
abbrev S_ : Shape := ⟨0, ![]⟩
abbrev S1x800000 : Shape := ⟨2, ![1, 800000]⟩

class Facts : Prop where
  bcast_S_S50000x101 : S_.BroadcastsInDim S50000x101 (![] : Fin 0 → Fin S50000x101.rank)
  reducesTo_S50000x101_S_d0_1 : S50000x101.ReducesTo [0, 1] S_
  h_S_ : 0 < S_.numel
  bcast_S_S800000x101 : S_.BroadcastsInDim S800000x101 (![] : Fin 0 → Fin S800000x101.rank)
  reducesTo_S800000x101_S_d0_1 : S800000x101.ReducesTo [0, 1] S_
  bcast_S_S101x101 : S_.BroadcastsInDim S101x101 (![] : Fin 0 → Fin S101x101.rank)
  reducesTo_S101x101_S_d0_1 : S101x101.ReducesTo [0, 1] S_
  bcast_S_S101 : S_.BroadcastsInDim S101 (![] : Fin 0 → Fin S101.rank)
  reducesTo_S101_S_d0 : S101.ReducesTo [0] S_
  bcast_S_S101x100 : S_.BroadcastsInDim S101x100 (![] : Fin 0 → Fin S101x100.rank)
  reducesTo_S101x100_S_d0_1 : S101x100.ReducesTo [0, 1] S_
  bcast_S_S100 : S_.BroadcastsInDim S100 (![] : Fin 0 → Fin S100.rank)
  reducesTo_S100_S_d0 : S100.ReducesTo [0] S_
  bcast_S_S100x200 : S_.BroadcastsInDim S100x200 (![] : Fin 0 → Fin S100x200.rank)
  reducesTo_S100x200_S_d0_1 : S100x200.ReducesTo [0, 1] S_
  bcast_S_S200 : S_.BroadcastsInDim S200 (![] : Fin 0 → Fin S200.rank)
  reducesTo_S200_S_d0 : S200.ReducesTo [0] S_
  bcast_S_S200x50 : S_.BroadcastsInDim S200x50 (![] : Fin 0 → Fin S200x50.rank)
  reducesTo_S200x50_S_d0_1 : S200x50.ReducesTo [0, 1] S_
  bcast_S_S50 : S_.BroadcastsInDim S50 (![] : Fin 0 → Fin S50.rank)
  reducesTo_S50_S_d0 : S50.ReducesTo [0] S_
  bcast_S_S50x1 : S_.BroadcastsInDim S50x1 (![] : Fin 0 → Fin S50x1.rank)
  reducesTo_S50x1_S_d0_1 : S50x1.ReducesTo [0, 1] S_
  bcast_S_S1 : S_.BroadcastsInDim S1 (![] : Fin 0 → Fin S1.rank)
  reducesTo_S1_S_d0 : S1.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part5 {F : FTy → Type} [FloatOps F] (main_arg1 : IVec S2x800000 32) (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  let main_v89 : IVec S1x800000 32 := (extractStridedSlice S1x800000 ![0, 0] · slices_S2x800000_S1x800000_0_0) main_arg1
  let main_v90 : IVec S800000 32 := shapeCast S800000 main_v89 shapeCasts_S1x800000_S800000
  let main_c_34 : IVec S_ 32 := constantI S_ 32 4294917296#32
  let main_v91 : IVec S800000 32 := broadcastInDim S800000 ![] bcast_S_S800000 main_c_34
  let main_v92 : IVec S800000 1 := cmpi .sge main_v90 main_v91
  let main_v93 : IVec S1x800000 32 := (extractStridedSlice S1x800000 ![0, 0] · slices_S2x800000_S1x800000_0_0) main_arg1
  let main_v94 : IVec S800000 32 := shapeCast S800000 main_v93 shapeCasts_S1x800000_S800000
  let main_c_35 : IVec S_ 32 := constantI S_ 32 50000#32
  let main_v95 : IVec S800000 32 := broadcastInDim S800000 ![] bcast_S_S800000 main_c_35
  let main_v96 : IVec S800000 1 := cmpi .slt main_v94 main_v95
  let main_v97 : IVec S800000 1 := andi main_v92 main_v96
  let main_c_36 : IVec S_ 1 := constantI S_ 1 1#1
  let main_v98 : IVec S_ 1 := (fun x v => Host.reduce IntOp.andi x v reducesTo_S800000_S_d0 h_S_) main_v97 main_c_36
  let main_v99 : IVec S_ 1 := andi main_v88 main_v98
  main_v99

def fn_part4 {F : FTy → Type} [FloatOps F] (main_arg1 : IVec S2x800000 32) (main_arg17 : FVec F S200x50 .f32) (main_arg18 : FVec F S50 .f32) (main_arg19 : FVec F S50x1 .f32) (main_arg20 : FVec F S1 .f32) (main_v63 : IVec S_ 1) (main_v67 : IVec S_ 1) : IVec S_ 1 :=
  let main_v68 : IVec S_ 1 := andi main_v63 main_v67
  let main_v69 : FVec F S200x50 .f32 := Host.absf main_arg17
  let main_cst_26 : FVec F S_ .f32 := constant S_ .f32 0x7F800000#32
  let main_v70 : FVec F S200x50 .f32 := broadcastInDim S200x50 ![] bcast_S_S200x50 main_cst_26
  let main_v71 : IVec S200x50 1 := cmpf .olt main_v69 main_v70
  let main_c_27 : IVec S_ 1 := constantI S_ 1 1#1
  let main_v72 : IVec S_ 1 := (fun x v => Host.reduce IntOp.andi x v reducesTo_S200x50_S_d0_1 h_S_) main_v71 main_c_27
  let main_v73 : IVec S_ 1 := andi main_v68 main_v72
  let main_v74 : FVec F S50 .f32 := Host.absf main_arg18
  let main_cst_28 : FVec F S_ .f32 := constant S_ .f32 0x7F800000#32
  let main_v75 : FVec F S50 .f32 := broadcastInDim S50 ![] bcast_S_S50 main_cst_28
  let main_v76 : IVec S50 1 := cmpf .olt main_v74 main_v75
  let main_c_29 : IVec S_ 1 := constantI S_ 1 1#1
  let main_v77 : IVec S_ 1 := (fun x v => Host.reduce IntOp.andi x v reducesTo_S50_S_d0 h_S_) main_v76 main_c_29
  let main_v78 : IVec S_ 1 := andi main_v73 main_v77
  let main_v79 : FVec F S50x1 .f32 := Host.absf main_arg19
  let main_cst_30 : FVec F S_ .f32 := constant S_ .f32 0x7F800000#32
  let main_v80 : FVec F S50x1 .f32 := broadcastInDim S50x1 ![] bcast_S_S50x1 main_cst_30
  let main_v81 : IVec S50x1 1 := cmpf .olt main_v79 main_v80
  let main_c_31 : IVec S_ 1 := constantI S_ 1 1#1
  let main_v82 : IVec S_ 1 := (fun x v => Host.reduce IntOp.andi x v reducesTo_S50x1_S_d0_1 h_S_) main_v81 main_c_31
  let main_v83 : IVec S_ 1 := andi main_v78 main_v82
  let main_v84 : FVec F S1 .f32 := Host.absf main_arg20
  let main_cst_32 : FVec F S_ .f32 := constant S_ .f32 0x7F800000#32
  fn_part5 (F := F) main_arg1 main_v83 main_v84 main_cst_32

def fn_part3 {F : FTy → Type} [FloatOps F] (main_arg1 : IVec S2x800000 32) (main_arg14 : FVec F S100 .f32) (main_arg15 : FVec F S100x200 .f32) (main_arg16 : FVec F S200 .f32) (main_arg17 : FVec F S200x50 .f32) (main_arg18 : FVec F S50 .f32) (main_arg19 : FVec F S50x1 .f32) (main_arg20 : FVec F S1 .f32) (main_v48 : IVec S_ 1) (main_v49 : FVec F S101x100 .f32) (main_v50 : FVec F S101x100 .f32) : IVec S_ 1 :=
  let main_v51 : IVec S101x100 1 := cmpf .olt main_v49 main_v50
  let main_c_19 : IVec S_ 1 := constantI S_ 1 1#1
  let main_v52 : IVec S_ 1 := (fun x v => Host.reduce IntOp.andi x v reducesTo_S101x100_S_d0_1 h_S_) main_v51 main_c_19
  let main_v53 : IVec S_ 1 := andi main_v48 main_v52
  let main_v54 : FVec F S100 .f32 := Host.absf main_arg14
  let main_cst_20 : FVec F S_ .f32 := constant S_ .f32 0x7F800000#32
  let main_v55 : FVec F S100 .f32 := broadcastInDim S100 ![] bcast_S_S100 main_cst_20
  let main_v56 : IVec S100 1 := cmpf .olt main_v54 main_v55
  let main_c_21 : IVec S_ 1 := constantI S_ 1 1#1
  let main_v57 : IVec S_ 1 := (fun x v => Host.reduce IntOp.andi x v reducesTo_S100_S_d0 h_S_) main_v56 main_c_21
  let main_v58 : IVec S_ 1 := andi main_v53 main_v57
  let main_v59 : FVec F S100x200 .f32 := Host.absf main_arg15
  let main_cst_22 : FVec F S_ .f32 := constant S_ .f32 0x7F800000#32
  let main_v60 : FVec F S100x200 .f32 := broadcastInDim S100x200 ![] bcast_S_S100x200 main_cst_22
  let main_v61 : IVec S100x200 1 := cmpf .olt main_v59 main_v60
  let main_c_23 : IVec S_ 1 := constantI S_ 1 1#1
  let main_v62 : IVec S_ 1 := (fun x v => Host.reduce IntOp.andi x v reducesTo_S100x200_S_d0_1 h_S_) main_v61 main_c_23
  let main_v63 : IVec S_ 1 := andi main_v58 main_v62
  let main_v64 : FVec F S200 .f32 := Host.absf main_arg16
  let main_cst_24 : FVec F S_ .f32 := constant S_ .f32 0x7F800000#32
  let main_v65 : FVec F S200 .f32 := broadcastInDim S200 ![] bcast_S_S200 main_cst_24
  let main_v66 : IVec S200 1 := cmpf .olt main_v64 main_v65
  let main_c_25 : IVec S_ 1 := constantI S_ 1 1#1
  let main_v67 : IVec S_ 1 := (fun x v => Host.reduce IntOp.andi x v reducesTo_S200_S_d0 h_S_) main_v66 main_c_25
  fn_part4 (F := F) main_arg1 main_arg17 main_arg18 main_arg19 main_arg20 main_v63 main_v67

def fn_part2 {F : FTy → Type} [FloatOps F] (main_arg1 : IVec S2x800000 32) (main_arg10 : FVec F S101 .f32) (main_arg11 : FVec F S101x101 .f32) (main_arg12 : FVec F S101 .f32) (main_arg13 : FVec F S101x100 .f32) (main_arg14 : FVec F S100 .f32) (main_arg15 : FVec F S100x200 .f32) (main_arg16 : FVec F S200 .f32) (main_arg17 : FVec F S200x50 .f32) (main_arg18 : FVec F S50 .f32) (main_arg19 : FVec F S50x1 .f32) (main_arg20 : FVec F S1 .f32) (main_v33 : IVec S_ 1) : IVec S_ 1 :=
  let main_v34 : FVec F S101 .f32 := Host.absf main_arg10
  let main_cst_12 : FVec F S_ .f32 := constant S_ .f32 0x7F800000#32
  let main_v35 : FVec F S101 .f32 := broadcastInDim S101 ![] bcast_S_S101 main_cst_12
  let main_v36 : IVec S101 1 := cmpf .olt main_v34 main_v35
  let main_c_13 : IVec S_ 1 := constantI S_ 1 1#1
  let main_v37 : IVec S_ 1 := (fun x v => Host.reduce IntOp.andi x v reducesTo_S101_S_d0 h_S_) main_v36 main_c_13
  let main_v38 : IVec S_ 1 := andi main_v33 main_v37
  let main_v39 : FVec F S101x101 .f32 := Host.absf main_arg11
  let main_cst_14 : FVec F S_ .f32 := constant S_ .f32 0x7F800000#32
  let main_v40 : FVec F S101x101 .f32 := broadcastInDim S101x101 ![] bcast_S_S101x101 main_cst_14
  let main_v41 : IVec S101x101 1 := cmpf .olt main_v39 main_v40
  let main_c_15 : IVec S_ 1 := constantI S_ 1 1#1
  let main_v42 : IVec S_ 1 := (fun x v => Host.reduce IntOp.andi x v reducesTo_S101x101_S_d0_1 h_S_) main_v41 main_c_15
  let main_v43 : IVec S_ 1 := andi main_v38 main_v42
  let main_v44 : FVec F S101 .f32 := Host.absf main_arg12
  let main_cst_16 : FVec F S_ .f32 := constant S_ .f32 0x7F800000#32
  let main_v45 : FVec F S101 .f32 := broadcastInDim S101 ![] bcast_S_S101 main_cst_16
  let main_v46 : IVec S101 1 := cmpf .olt main_v44 main_v45
  let main_c_17 : IVec S_ 1 := constantI S_ 1 1#1
  let main_v47 : IVec S_ 1 := (fun x v => Host.reduce IntOp.andi x v reducesTo_S101_S_d0 h_S_) main_v46 main_c_17
  let main_v48 : IVec S_ 1 := andi main_v43 main_v47
  let main_v49 : FVec F S101x100 .f32 := Host.absf main_arg13
  let main_cst_18 : FVec F S_ .f32 := constant S_ .f32 0x7F800000#32
  let main_v50 : FVec F S101x100 .f32 := broadcastInDim S101x100 ![] bcast_S_S101x100 main_cst_18
  fn_part3 (F := F) main_arg1 main_arg14 main_arg15 main_arg16 main_arg17 main_arg18 main_arg19 main_arg20 main_v48 main_v49 main_v50

def fn_part1 {F : FTy → Type} [FloatOps F] (main_arg1 : IVec S2x800000 32) (main_arg7 : FVec F S101x101 .f32) (main_arg8 : FVec F S101 .f32) (main_arg9 : FVec F S101x101 .f32) (main_arg10 : FVec F S101 .f32) (main_arg11 : FVec F S101x101 .f32) (main_arg12 : FVec F S101 .f32) (main_arg13 : FVec F S101x100 .f32) (main_arg14 : FVec F S100 .f32) (main_arg15 : FVec F S100x200 .f32) (main_arg16 : FVec F S200 .f32) (main_arg17 : FVec F S200x50 .f32) (main_arg18 : FVec F S50 .f32) (main_arg19 : FVec F S50x1 .f32) (main_arg20 : FVec F S1 .f32) (main_v13 : IVec S_ 1) (main_v16 : IVec S101 1) : IVec S_ 1 :=
  let main_c_5 : IVec S_ 1 := constantI S_ 1 1#1
  let main_v17 : IVec S_ 1 := (fun x v => Host.reduce IntOp.andi x v reducesTo_S101_S_d0 h_S_) main_v16 main_c_5
  let main_v18 : IVec S_ 1 := andi main_v13 main_v17
  let main_v19 : FVec F S101x101 .f32 := Host.absf main_arg7
  let main_cst_6 : FVec F S_ .f32 := constant S_ .f32 0x7F800000#32
  let main_v20 : FVec F S101x101 .f32 := broadcastInDim S101x101 ![] bcast_S_S101x101 main_cst_6
  let main_v21 : IVec S101x101 1 := cmpf .olt main_v19 main_v20
  let main_c_7 : IVec S_ 1 := constantI S_ 1 1#1
  let main_v22 : IVec S_ 1 := (fun x v => Host.reduce IntOp.andi x v reducesTo_S101x101_S_d0_1 h_S_) main_v21 main_c_7
  let main_v23 : IVec S_ 1 := andi main_v18 main_v22
  let main_v24 : FVec F S101 .f32 := Host.absf main_arg8
  let main_cst_8 : FVec F S_ .f32 := constant S_ .f32 0x7F800000#32
  let main_v25 : FVec F S101 .f32 := broadcastInDim S101 ![] bcast_S_S101 main_cst_8
  let main_v26 : IVec S101 1 := cmpf .olt main_v24 main_v25
  let main_c_9 : IVec S_ 1 := constantI S_ 1 1#1
  let main_v27 : IVec S_ 1 := (fun x v => Host.reduce IntOp.andi x v reducesTo_S101_S_d0 h_S_) main_v26 main_c_9
  let main_v28 : IVec S_ 1 := andi main_v23 main_v27
  let main_v29 : FVec F S101x101 .f32 := Host.absf main_arg9
  let main_cst_10 : FVec F S_ .f32 := constant S_ .f32 0x7F800000#32
  let main_v30 : FVec F S101x101 .f32 := broadcastInDim S101x101 ![] bcast_S_S101x101 main_cst_10
  let main_v31 : IVec S101x101 1 := cmpf .olt main_v29 main_v30
  let main_c_11 : IVec S_ 1 := constantI S_ 1 1#1
  let main_v32 : IVec S_ 1 := (fun x v => Host.reduce IntOp.andi x v reducesTo_S101x101_S_d0_1 h_S_) main_v31 main_c_11
  let main_v33 : IVec S_ 1 := andi main_v28 main_v32
  fn_part2 (F := F) main_arg1 main_arg10 main_arg11 main_arg12 main_arg13 main_arg14 main_arg15 main_arg16 main_arg17 main_arg18 main_arg19 main_arg20 main_v33

def fn {F : FTy → Type} [FloatOps F] (main_arg0 : FVec F S50000x101 .f32) (main_arg1 : IVec S2x800000 32) (main_arg2 : IVec S800000 32) (main_arg3 : FVec F S800000x101 .f32) (main_arg4 : IVec S50000 32) (main_arg5 : FVec F S101x101 .f32) (main_arg6 : FVec F S101 .f32) (main_arg7 : FVec F S101x101 .f32) (main_arg8 : FVec F S101 .f32) (main_arg9 : FVec F S101x101 .f32) (main_arg10 : FVec F S101 .f32) (main_arg11 : FVec F S101x101 .f32) (main_arg12 : FVec F S101 .f32) (main_arg13 : FVec F S101x100 .f32) (main_arg14 : FVec F S100 .f32) (main_arg15 : FVec F S100x200 .f32) (main_arg16 : FVec F S200 .f32) (main_arg17 : FVec F S200x50 .f32) (main_arg18 : FVec F S50 .f32) (main_arg19 : FVec F S50x1 .f32) (main_arg20 : FVec F S1 .f32) : IVec S_ 1 :=
  let main_v0 : FVec F S50000x101 .f32 := Host.absf main_arg0
  let main_cst : FVec F S_ .f32 := constant S_ .f32 0x7F800000#32
  let main_v1 : FVec F S50000x101 .f32 := broadcastInDim S50000x101 ![] bcast_S_S50000x101 main_cst
  let main_v2 : IVec S50000x101 1 := cmpf .olt main_v0 main_v1
  let main_c : IVec S_ 1 := constantI S_ 1 1#1
  let main_v3 : IVec S_ 1 := (fun x v => Host.reduce IntOp.andi x v reducesTo_S50000x101_S_d0_1 h_S_) main_v2 main_c
  let main_v4 : FVec F S800000x101 .f32 := Host.absf main_arg3
  let main_cst_0 : FVec F S_ .f32 := constant S_ .f32 0x7F800000#32
  let main_v5 : FVec F S800000x101 .f32 := broadcastInDim S800000x101 ![] bcast_S_S800000x101 main_cst_0
  let main_v6 : IVec S800000x101 1 := cmpf .olt main_v4 main_v5
  let main_c_1 : IVec S_ 1 := constantI S_ 1 1#1
  let main_v7 : IVec S_ 1 := (fun x v => Host.reduce IntOp.andi x v reducesTo_S800000x101_S_d0_1 h_S_) main_v6 main_c_1
  let main_v8 : IVec S_ 1 := andi main_v3 main_v7
  let main_v9 : FVec F S101x101 .f32 := Host.absf main_arg5
  let main_cst_2 : FVec F S_ .f32 := constant S_ .f32 0x7F800000#32
  let main_v10 : FVec F S101x101 .f32 := broadcastInDim S101x101 ![] bcast_S_S101x101 main_cst_2
  let main_v11 : IVec S101x101 1 := cmpf .olt main_v9 main_v10
  let main_c_3 : IVec S_ 1 := constantI S_ 1 1#1
  let main_v12 : IVec S_ 1 := (fun x v => Host.reduce IntOp.andi x v reducesTo_S101x101_S_d0_1 h_S_) main_v11 main_c_3
  let main_v13 : IVec S_ 1 := andi main_v8 main_v12
  let main_v14 : FVec F S101 .f32 := Host.absf main_arg6
  let main_cst_4 : FVec F S_ .f32 := constant S_ .f32 0x7F800000#32
  let main_v15 : FVec F S101 .f32 := broadcastInDim S101 ![] bcast_S_S101 main_cst_4
  let main_v16 : IVec S101 1 := cmpf .olt main_v14 main_v15
  fn_part1 (F := F) main_arg1 main_arg7 main_arg8 main_arg9 main_arg10 main_arg11 main_arg12 main_arg13 main_arg14 main_arg15 main_arg16 main_arg17 main_arg18 main_arg19 main_arg20 main_v13 main_v16
-- ==== Kernel.lean ====
abbrev S50000x101 : Shape := ⟨2, ![50000, 101]⟩
abbrev S2x800000 : Shape := ⟨2, ![2, 800000]⟩
abbrev S800000 : Shape := ⟨1, ![800000]⟩
abbrev S800000x101 : Shape := ⟨2, ![800000, 101]⟩
abbrev S50000 : Shape := ⟨1, ![50000]⟩
abbrev S101x101 : Shape := ⟨2, ![101, 101]⟩
abbrev S101 : Shape := ⟨1, ![101]⟩
abbrev S101x100 : Shape := ⟨2, ![101, 100]⟩
abbrev S100 : Shape := ⟨1, ![100]⟩
abbrev S100x200 : Shape := ⟨2, ![100, 200]⟩
abbrev S200 : Shape := ⟨1, ![200]⟩
abbrev S200x50 : Shape := ⟨2, ![200, 50]⟩
abbrev S50 : Shape := ⟨1, ![50]⟩
abbrev S50x1 : Shape := ⟨2, ![50, 1]⟩
abbrev S1 : Shape := ⟨1, ![1]⟩
abbrev S1x800000 : Shape := ⟨2, ![1, 800000]⟩
abbrev S_ : Shape := ⟨0, ![]⟩
abbrev S800000x1 : Shape := ⟨2, ![800000, 1]⟩
abbrev S1x1 : Shape := ⟨2, ![1, 1]⟩
abbrev S1x101 : Shape := ⟨2, ![1, 101]⟩
abbrev S6400x101 : Shape := ⟨2, ![6400, 101]⟩
abbrev S2000x101 : Shape := ⟨2, ![2000, 101]⟩
abbrev S1x100 : Shape := ⟨2, ![1, 100]⟩
abbrev S1x200 : Shape := ⟨2, ![1, 200]⟩
abbrev S50000x200 : Shape := ⟨2, ![50000, 200]⟩
abbrev S2000x200 : Shape := ⟨2, ![2000, 200]⟩
abbrev S2000x100 : Shape := ⟨2, ![2000, 100]⟩
abbrev S512x200 : Shape := ⟨2, ![512, 200]⟩
abbrev S50000x1 : Shape := ⟨2, ![50000, 1]⟩
abbrev S1x50 : Shape := ⟨2, ![1, 50]⟩
abbrev S512x1 : Shape := ⟨2, ![512, 1]⟩
abbrev S512x50 : Shape := ⟨2, ![512, 50]⟩

abbrev nBuf : Space → Nat
  | .hbm => 96
  | .vmem => 42
  | .smem => 0
  | _ => 0

abbrev bufTy : (tb : Table) → Fin (tcTables nBuf tb) → BufTy
  | .hbm, ⟨0, _⟩ => ⟨S50000x101, .f32⟩
  | .hbm, ⟨1, _⟩ => ⟨S2x800000, .i32⟩
  | .hbm, ⟨2, _⟩ => ⟨S800000, .i32⟩
  | .hbm, ⟨3, _⟩ => ⟨S800000x101, .f32⟩
  | .hbm, ⟨4, _⟩ => ⟨S50000, .i32⟩
  | .hbm, ⟨5, _⟩ => ⟨S101x101, .f32⟩
  | .hbm, ⟨6, _⟩ => ⟨S101, .f32⟩
  | .hbm, ⟨7, _⟩ => ⟨S101x101, .f32⟩
  | .hbm, ⟨8, _⟩ => ⟨S101, .f32⟩
  | .hbm, ⟨9, _⟩ => ⟨S101x101, .f32⟩
  | .hbm, ⟨10, _⟩ => ⟨S101, .f32⟩
  | .hbm, ⟨11, _⟩ => ⟨S101x101, .f32⟩
  | .hbm, ⟨12, _⟩ => ⟨S101, .f32⟩
  | .hbm, ⟨13, _⟩ => ⟨S101x100, .f32⟩
  | .hbm, ⟨14, _⟩ => ⟨S100, .f32⟩
  | .hbm, ⟨15, _⟩ => ⟨S100x200, .f32⟩
  | .hbm, ⟨16, _⟩ => ⟨S200, .f32⟩
  | .hbm, ⟨17, _⟩ => ⟨S200x50, .f32⟩
  | .hbm, ⟨18, _⟩ => ⟨S50, .f32⟩
  | .hbm, ⟨19, _⟩ => ⟨S50x1, .f32⟩
  | .hbm, ⟨20, _⟩ => ⟨S1, .f32⟩
  | .hbm, ⟨21, _⟩ => ⟨S1x800000, .i32⟩
  | .hbm, ⟨22, _⟩ => ⟨S800000, .i32⟩
  | .hbm, ⟨23, _⟩ => ⟨S1x800000, .i32⟩
  | .hbm, ⟨24, _⟩ => ⟨S800000, .i32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S1, .i32⟩
  | .hbm, ⟨34, _⟩ => ⟨S_, .i32⟩
  | .hbm, ⟨35, _⟩ => ⟨S800000x1, .i32⟩
  | .hbm, ⟨36, _⟩ => ⟨S800000x1, .i1⟩
  | .hbm, ⟨37, _⟩ => ⟨S1x1, .i32⟩
  | .hbm, ⟨38, _⟩ => ⟨S800000x1, .i32⟩
  | .hbm, ⟨39, _⟩ => ⟨S800000x1, .i1⟩
  | .hbm, ⟨40, _⟩ => ⟨S800000x1, .i1⟩
  | .hbm, ⟨41, _⟩ => ⟨S_, .i1⟩
  | .hbm, ⟨42, _⟩ => ⟨S800000, .i1⟩
  | .hbm, ⟨43, _⟩ => ⟨S800000x101, .f32⟩
  | .hbm, ⟨44, _⟩ => ⟨S800000x101, .i1⟩
  | .hbm, ⟨45, _⟩ => ⟨S_, .f32⟩
  | .hbm, ⟨46, _⟩ => ⟨S800000x101, .f32⟩
  | .hbm, ⟨47, _⟩ => ⟨S800000x101, .f32⟩
  | .hbm, ⟨48, _⟩ => ⟨S1x101, .f32⟩
  | .hbm, ⟨49, _⟩ => ⟨S800000x101, .f32⟩
  | .hbm, ⟨50, _⟩ => ⟨S_, .f32⟩
  | .hbm, ⟨51, _⟩ => ⟨S50000x101, .f32⟩
  | .hbm, ⟨52, _⟩ => ⟨S800000x1, .i32⟩
  | .hbm, ⟨53, _⟩ => ⟨S50000x101, .f32⟩
  | .hbm, ⟨54, _⟩ => ⟨S1x101, .f32⟩
  | .hbm, ⟨55, _⟩ => ⟨S1x101, .f32⟩
  | .hbm, ⟨56, _⟩ => ⟨S50000x101, .f32⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S1, .i32⟩
  | .hbm, ⟨66, _⟩ => ⟨S_, .i32⟩
  | .hbm, ⟨67, _⟩ => ⟨S800000x1, .i32⟩
  | .hbm, ⟨68, _⟩ => ⟨S800000x1, .i1⟩
  | .hbm, ⟨69, _⟩ => ⟨S1x1, .i32⟩
  | .hbm, ⟨70, _⟩ => ⟨S800000x1, .i32⟩
  | .hbm, ⟨71, _⟩ => ⟨S800000x1, .i1⟩
  | .hbm, ⟨72, _⟩ => ⟨S800000x1, .i1⟩
  | .hbm, ⟨73, _⟩ => ⟨S_, .i1⟩
  | .hbm, ⟨74, _⟩ => ⟨S800000, .i1⟩
  | .hbm, ⟨75, _⟩ => ⟨S800000x101, .f32⟩
  | .hbm, ⟨76, _⟩ => ⟨S800000x101, .i1⟩
  | .hbm, ⟨77, _⟩ => ⟨S_, .f32⟩
  | .hbm, ⟨78, _⟩ => ⟨S800000x101, .f32⟩
  | .hbm, ⟨79, _⟩ => ⟨S800000x101, .f32⟩
  | .hbm, ⟨80, _⟩ => ⟨S1x101, .f32⟩
  | .hbm, ⟨81, _⟩ => ⟨S800000x101, .f32⟩
  | .hbm, ⟨82, _⟩ => ⟨S_, .f32⟩
  | .hbm, ⟨83, _⟩ => ⟨S50000x101, .f32⟩
  | .hbm, ⟨84, _⟩ => ⟨S800000x1, .i32⟩
  | .hbm, ⟨85, _⟩ => ⟨S50000x101, .f32⟩
  | .hbm, ⟨86, _⟩ => ⟨S1x100, .f32⟩
  | .hbm, ⟨87, _⟩ => ⟨S1x200, .f32⟩
  | .hbm, ⟨88, _⟩ => ⟨S50000x200, .f32⟩
  | .hbm, ⟨89, _⟩ => ⟨S_, .f32⟩
  | .hbm, ⟨90, _⟩ => ⟨S512x200, .f32⟩
  | .hbm, ⟨91, _⟩ => ⟨S50000x1, .i32⟩
  | .hbm, ⟨92, _⟩ => ⟨S512x200, .f32⟩
  | .hbm, ⟨93, _⟩ => ⟨S1x50, .f32⟩
  | .hbm, ⟨94, _⟩ => ⟨S1x1, .f32⟩
  | .hbm, ⟨95, _⟩ => ⟨S512x1, .f32⟩
  | .local _ .vmem, ⟨0, _⟩ => ⟨S6400x101, .f32⟩
  | .local _ .vmem, ⟨1, _⟩ => ⟨S6400x101, .f32⟩
  | .local _ .vmem, ⟨2, _⟩ => ⟨S101x101, .f32⟩
  | .local _ .vmem, ⟨3, _⟩ => ⟨S1x101, .f32⟩
  | .local _ .vmem, ⟨4, _⟩ => ⟨S6400x101, .f32⟩
  | .local _ .vmem, ⟨5, _⟩ => ⟨S6400x101, .f32⟩
  | .local _ .vmem, ⟨6, _⟩ => ⟨S6400x101, .f32⟩
  | .local _ .vmem, ⟨7, _⟩ => ⟨S6400x101, .f32⟩
  | .local _ .vmem, ⟨8, _⟩ => ⟨S2000x101, .f32⟩
  | .local _ .vmem, ⟨9, _⟩ => ⟨S2000x101, .f32⟩
  | .local _ .vmem, ⟨10, _⟩ => ⟨S2000x101, .f32⟩
  | .local _ .vmem, ⟨11, _⟩ => ⟨S2000x101, .f32⟩
  | .local _ .vmem, ⟨12, _⟩ => ⟨S101x101, .f32⟩
  | .local _ .vmem, ⟨13, _⟩ => ⟨S1x101, .f32⟩
  | .local _ .vmem, ⟨14, _⟩ => ⟨S101x101, .f32⟩
  | .local _ .vmem, ⟨15, _⟩ => ⟨S1x101, .f32⟩
  | .local _ .vmem, ⟨16, _⟩ => ⟨S2000x101, .f32⟩
  | .local _ .vmem, ⟨17, _⟩ => ⟨S2000x101, .f32⟩
  | .local _ .vmem, ⟨18, _⟩ => ⟨S6400x101, .f32⟩
  | .local _ .vmem, ⟨19, _⟩ => ⟨S6400x101, .f32⟩
  | .local _ .vmem, ⟨20, _⟩ => ⟨S101x101, .f32⟩
  | .local _ .vmem, ⟨21, _⟩ => ⟨S1x101, .f32⟩
  | .local _ .vmem, ⟨22, _⟩ => ⟨S6400x101, .f32⟩
  | .local _ .vmem, ⟨23, _⟩ => ⟨S6400x101, .f32⟩
  | .local _ .vmem, ⟨24, _⟩ => ⟨S6400x101, .f32⟩
  | .local _ .vmem, ⟨25, _⟩ => ⟨S6400x101, .f32⟩
  | .local _ .vmem, ⟨26, _⟩ => ⟨S2000x101, .f32⟩
  | .local _ .vmem, ⟨27, _⟩ => ⟨S2000x101, .f32⟩
  | .local _ .vmem, ⟨28, _⟩ => ⟨S2000x101, .f32⟩
  | .local _ .vmem, ⟨29, _⟩ => ⟨S2000x101, .f32⟩
  | .local _ .vmem, ⟨30, _⟩ => ⟨S101x100, .f32⟩
  | .local _ .vmem, ⟨31, _⟩ => ⟨S1x100, .f32⟩
  | .local _ .vmem, ⟨32, _⟩ => ⟨S100x200, .f32⟩
  | .local _ .vmem, ⟨33, _⟩ => ⟨S1x200, .f32⟩
  | .local _ .vmem, ⟨34, _⟩ => ⟨S2000x200, .f32⟩
  | .local _ .vmem, ⟨35, _⟩ => ⟨S2000x200, .f32⟩
  | .local _ .vmem, ⟨36, _⟩ => ⟨S512x200, .f32⟩
  | .local _ .vmem, ⟨37, _⟩ => ⟨S200x50, .f32⟩
  | .local _ .vmem, ⟨38, _⟩ => ⟨S1x50, .f32⟩
  | .local _ .vmem, ⟨39, _⟩ => ⟨S50x1, .f32⟩
  | .local _ .vmem, ⟨40, _⟩ => ⟨S1x1, .f32⟩
  | .local _ .vmem, ⟨41, _⟩ => ⟨S512x1, .f32⟩
  | _, _ => ⟨S50000x101, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_cst : Ref sig .tc := ⟨.hbm, 45, rfl⟩
abbrev main_call0_v15 : Ref sig .tc := ⟨.hbm, 46, rfl⟩
abbrev main_v4 : Ref sig .tc := ⟨.hbm, 47, rfl⟩
abbrev main_v5 : Ref sig .tc := ⟨.hbm, 48, rfl⟩
abbrev main_v6 : Ref sig .tc := ⟨.hbm, 49, rfl⟩
abbrev main_cst : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_call1_c : Ref sig .tc := ⟨.hbm, 57, rfl⟩
abbrev main_call1_v0 : Ref sig .tc := ⟨.hbm, 58, rfl⟩
abbrev main_call1_v1 : Ref sig .tc := ⟨.hbm, 59, rfl⟩
abbrev main_call1_c_0 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_c_1 : Ref sig .tc := ⟨.hbm, 65, rfl⟩
abbrev main_call1_c_2 : Ref sig .tc := ⟨.hbm, 66, rfl⟩
abbrev main_call1_v6 : Ref sig .tc := ⟨.hbm, 67, rfl⟩
abbrev main_call1_v7 : Ref sig .tc := ⟨.hbm, 68, rfl⟩
abbrev main_call1_v8 : Ref sig .tc := ⟨.hbm, 69, rfl⟩
abbrev main_call1_v9 : Ref sig .tc := ⟨.hbm, 70, rfl⟩
abbrev main_call1_v10 : Ref sig .tc := ⟨.hbm, 71, rfl⟩
abbrev main_call1_v11 : Ref sig .tc := ⟨.hbm, 72, rfl⟩
abbrev main_call1_c_3 : Ref sig .tc := ⟨.hbm, 73, rfl⟩
abbrev main_call1_v12 : Ref sig .tc := ⟨.hbm, 74, rfl⟩
abbrev main_call1_v13 : Ref sig .tc := ⟨.hbm, 75, rfl⟩
abbrev main_call1_v14 : Ref sig .tc := ⟨.hbm, 76, rfl⟩
abbrev main_call1_cst : Ref sig .tc := ⟨.hbm, 77, rfl⟩
abbrev main_call1_v15 : Ref sig .tc := ⟨.hbm, 78, rfl⟩
abbrev main_v13 : Ref sig .tc := ⟨.hbm, 79, rfl⟩
abbrev main_v14 : Ref sig .tc := ⟨.hbm, 80, rfl⟩
abbrev main_v15 : Ref sig .tc := ⟨.hbm, 81, rfl⟩
abbrev main_cst_0 : Ref sig .tc := ⟨.hbm, 82, rfl⟩
abbrev main_v16 : Ref sig .tc := ⟨.hbm, 83, rfl⟩
abbrev main_v17 : Ref sig .tc := ⟨.hbm, 84, rfl⟩
abbrev main_v18 : Ref sig .tc := ⟨.hbm, 85, rfl⟩
abbrev main_v19 : Ref sig .tc := ⟨.hbm, 86, rfl⟩
abbrev main_v20 : Ref sig .tc := ⟨.hbm, 87, rfl⟩
abbrev main_v21 : Ref sig .tc := ⟨.hbm, 88, rfl⟩
abbrev main_cst_1 : Ref sig .tc := ⟨.hbm, 89, rfl⟩
abbrev main_v22 : Ref sig .tc := ⟨.hbm, 90, rfl⟩
abbrev main_v23 : Ref sig .tc := ⟨.hbm, 91, rfl⟩
abbrev main_v24 : Ref sig .tc := ⟨.hbm, 92, rfl⟩
abbrev main_v25 : Ref sig .tc := ⟨.hbm, 93, rfl⟩
abbrev main_v26 : Ref sig .tc := ⟨.hbm, 94, rfl⟩
abbrev main_v27 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg6_1 : Ref sig .tc := ⟨.vmem, 35, rfl⟩
abbrev cc4_stg0_0 : Ref sig .tc := ⟨.vmem, 36, rfl⟩
abbrev cc4_stg1_0 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg5_0 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23
abbrev cc2_sem4_0 : DmaSem sig := 24
abbrev cc2_sem4_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem6_1 : DmaSem sig := 35
abbrev cc4_sem0_0 : DmaSem sig := 36
abbrev cc4_sem1_0 : DmaSem sig := 37
abbrev cc4_sem2_0 : DmaSem sig := 38
abbrev cc4_sem3_0 : DmaSem sig := 39
abbrev cc4_sem4_0 : DmaSem sig := 40
abbrev cc4_sem5_0 : DmaSem sig := 41

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x101 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S101x101 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x101 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S6400x101 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S6400x101 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x101 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x101 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S101x101 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x101 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S101x101 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x101 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x101 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6400x101 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S101x101 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x101 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S6400x101 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S6400x101 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x101 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x101 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S101x100 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x100 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S100x200 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x200 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x200 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S512x200 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S200x50 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x50 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S50x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S512x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x101_0 : S800000.BroadcastsInDim S800000x101 (![0] : Fin 1 → Fin S800000x101.rank)
  bcast_S_S800000x101 : S_.BroadcastsInDim S800000x101 (![] : Fin 0 → Fin S800000x101.rank)
  shapeCasts_S101_S1x101 : S101.ShapeCasts S1x101
  inb_S6400x101_S6400x101_0_0 : ∀ a, (![0, 0] : Fin 2 → Nat) a + S6400x101.size a ≤ S6400x101.size a
  h_S6400x101 : 0 < S6400x101.numel
  bitsLt_bf16_f32 : FTy.bits .bf16 < FTy.bits .f32
  inb_S101x101_S101x101_0_0 : ∀ a, (![0, 0] : Fin 2 → Nat) a + S101x101.size a ≤ S101x101.size a
  h_S101x101 : 0 < S101x101.numel
  inb_S1x101_S1x101_0_0 : ∀ a, (![0, 0] : Fin 2 → Nat) a + S1x101.size a ≤ S1x101.size a
  h_S1x101 : 0 < S1x101.numel
  shapeCasts_S1x101_S1x101 : S1x101.ShapeCasts S1x101
  broadcasts_S1x101_S6400x101 : S1x101.Broadcasts S6400x101
  shapeCasts_S6400x101_S6400x101 : S6400x101.ShapeCasts S6400x101
  bcast_S_S50000x101 : S_.BroadcastsInDim S50000x101 (![] : Fin 0 → Fin S50000x101.rank)
  inb_S2000x101_S2000x101_0_0 : ∀ a, (![0, 0] : Fin 2 → Nat) a + S2000x101.size a ≤ S2000x101.size a
  h_S2000x101 : 0 < S2000x101.numel
  shapeCasts_S2000x101_S2000x101 : S2000x101.ShapeCasts S2000x101
  broadcasts_S1x101_S2000x101 : S1x101.Broadcasts S2000x101
  shapeCasts_S100_S1x100 : S100.ShapeCasts S1x100
  shapeCasts_S200_S1x200 : S200.ShapeCasts S1x200
  inb_S101x100_S101x100_0_0 : ∀ a, (![0, 0] : Fin 2 → Nat) a + S101x100.size a ≤ S101x100.size a
  h_S101x100 : 0 < S101x100.numel
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S2000x100 : S1x100.Broadcasts S2000x100
  inb_S100x200_S100x200_0_0 : ∀ a, (![0, 0] : Fin 2 → Nat) a + S100x200.size a ≤ S100x200.size a
  h_S100x200 : 0 < S100x200.numel
  inb_S1x200_S1x200_0_0 : ∀ a, (![0, 0] : Fin 2 → Nat) a + S1x200.size a ≤ S1x200.size a
  h_S1x200 : 0 < S1x200.numel
  shapeCasts_S1x200_S1x200 : S1x200.ShapeCasts S1x200
  broadcasts_S1x200_S2000x200 : S1x200.Broadcasts S2000x200
  inb_S2000x200_S2000x200_0_0 : ∀ a, (![0, 0] : Fin 2 → Nat) a + S2000x200.size a ≤ S2000x200.size a
  h_S2000x200 : 0 < S2000x200.numel
  bcast_S_S512x200 : S_.BroadcastsInDim S512x200 (![] : Fin 0 → Fin S512x200.rank)
  bcast_S50000_S50000x1_0 : S50000.BroadcastsInDim S50000x1 (![0] : Fin 1 → Fin S50000x1.rank)
  shapeCasts_S50_S1x50 : S50.ShapeCasts S1x50
  shapeCasts_S1_S1x1 : S1.ShapeCasts S1x1
  inb_S512x200_S512x200_0_0 : ∀ a, (![0, 0] : Fin 2 → Nat) a + S512x200.size a ≤ S512x200.size a
  h_S512x200 : 0 < S512x200.numel
  shapeCasts_S512x200_S512x200 : S512x200.ShapeCasts S512x200
  inb_S200x50_S200x50_0_0 : ∀ a, (![0, 0] : Fin 2 → Nat) a + S200x50.size a ≤ S200x50.size a
  h_S200x50 : 0 < S200x50.numel
  inb_S1x50_S1x50_0_0 : ∀ a, (![0, 0] : Fin 2 → Nat) a + S1x50.size a ≤ S1x50.size a
  h_S1x50 : 0 < S1x50.numel
  shapeCasts_S1x50_S1x50 : S1x50.ShapeCasts S1x50
  broadcasts_S1x50_S512x50 : S1x50.Broadcasts S512x50
  inb_S50x1_S50x1_0_0 : ∀ a, (![0, 0] : Fin 2 → Nat) a + S50x1.size a ≤ S50x1.size a
  h_S50x1 : 0 < S50x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  gather_S50000x101_S800000x1_S800000x101_1_0_n_n_0_1_1101_wf : GatherDims.WF S50000x101 S800000x1 S800000x101 [1] [0] [] [0] [] 1 ![1, 101]
  dot_S6400x101_S101x101_S6400x101_1_0_0_1_n_n_wf : DotDims.WF S6400x101 S101x101 S6400x101 [1] [0] [0] [1] [] []
  scatter_S50000x101_S800000x1_S800000x101_1_0_0_1_wf : ScatterDims.WF S50000x101 S800000x1 S800000x101 [1] [0] [0] 1
  dot_S2000x101_S101x101_S2000x101_1_0_0_1_n_n_wf : DotDims.WF S2000x101 S101x101 S2000x101 [1] [0] [0] [1] [] []
  dot_S2000x101_S101x100_S2000x100_1_0_0_1_n_n_wf : DotDims.WF S2000x101 S101x100 S2000x100 [1] [0] [0] [1] [] []
  dot_S2000x100_S100x200_S2000x200_1_0_0_1_n_n_wf : DotDims.WF S2000x100 S100x200 S2000x200 [1] [0] [0] [1] [] []
  scatter_S512x200_S50000x1_S50000x200_1_0_0_1_wf : ScatterDims.WF S512x200 S50000x1 S50000x200 [1] [0] [0] 1
  dot_S512x200_S200x50_S512x50_1_0_0_1_n_n_wf : DotDims.WF S512x200 S200x50 S512x50 [1] [0] [0] [1] [] []
  dot_S512x50_S50x1_S512x1_1_0_0_1_n_n_wf : DotDims.WF S512x50 S50x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x101.size a ≤ S800000x101.size a
  hwx0_0 : ∀ i : grid0.Coords, EltTy.bits .f32 = 32 ∨ (Rect.block (s := S800000x101) S6400x101.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S101x101.size a ≤ S101x101.size a
  hwx0_1 : ∀ i : grid0.Coords, EltTy.bits .f32 = 32 ∨ (Rect.block (s := S101x101) S101x101.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x101.size a ≤ S1x101.size a
  hwx0_2 : ∀ i : grid0.Coords, EltTy.bits .f32 = 32 ∨ (Rect.block (s := S1x101) S1x101.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S6400x101.size a ≤ S800000x101.size a
  hwx0_3 : ∀ i : grid0.Coords, EltTy.bits .f32 = 32 ∨ (Rect.block (s := S800000x101) S6400x101.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S6400x101.size a ≤ S800000x101.size a
  hwx0_4 : ∀ i : grid0.Coords, EltTy.bits .f32 = 32 ∨ (Rect.block (s := S800000x101) S6400x101.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x101.size a ≤ S50000x101.size a
  hwx1_0 : ∀ i : grid1.Coords, EltTy.bits .f32 = 32 ∨ (Rect.block (s := S50000x101) S2000x101.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x101.size a ≤ S50000x101.size a
  hwx1_1 : ∀ i : grid1.Coords, EltTy.bits .f32 = 32 ∨ (Rect.block (s := S50000x101) S2000x101.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S101x101.size a ≤ S101x101.size a
  hwx1_2 : ∀ i : grid1.Coords, EltTy.bits .f32 = 32 ∨ (Rect.block (s := S101x101) S101x101.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x101.size a ≤ S1x101.size a
  hwx1_3 : ∀ i : grid1.Coords, EltTy.bits .f32 = 32 ∨ (Rect.block (s := S1x101) S1x101.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S101x101.size a ≤ S101x101.size a
  hwx1_4 : ∀ i : grid1.Coords, EltTy.bits .f32 = 32 ∨ (Rect.block (s := S101x101) S101x101.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x101.size a ≤ S1x101.size a
  hwx1_5 : ∀ i : grid1.Coords, EltTy.bits .f32 = 32 ∨ (Rect.block (s := S1x101) S1x101.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x101.size a ≤ S50000x101.size a
  hwx1_6 : ∀ i : grid1.Coords, EltTy.bits .f32 = 32 ∨ (Rect.block (s := S50000x101) S2000x101.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6400x101.size a ≤ S800000x101.size a
  hwx2_0 : ∀ i : grid2.Coords, EltTy.bits .f32 = 32 ∨ (Rect.block (s := S800000x101) S6400x101.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S101x101.size a ≤ S101x101.size a
  hwx2_1 : ∀ i : grid2.Coords, EltTy.bits .f32 = 32 ∨ (Rect.block (s := S101x101) S101x101.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x101.size a ≤ S1x101.size a
  hwx2_2 : ∀ i : grid2.Coords, EltTy.bits .f32 = 32 ∨ (Rect.block (s := S1x101) S1x101.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S6400x101.size a ≤ S800000x101.size a
  hwx2_3 : ∀ i : grid2.Coords, EltTy.bits .f32 = 32 ∨ (Rect.block (s := S800000x101) S6400x101.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S6400x101.size a ≤ S800000x101.size a
  hwx2_4 : ∀ i : grid2.Coords, EltTy.bits .f32 = 32 ∨ (Rect.block (s := S800000x101) S6400x101.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x101.size a ≤ S50000x101.size a
  hwx3_0 : ∀ i : grid3.Coords, EltTy.bits .f32 = 32 ∨ (Rect.block (s := S50000x101) S2000x101.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x101.size a ≤ S50000x101.size a
  hwx3_1 : ∀ i : grid3.Coords, EltTy.bits .f32 = 32 ∨ (Rect.block (s := S50000x101) S2000x101.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S101x100.size a ≤ S101x100.size a
  hwx3_2 : ∀ i : grid3.Coords, EltTy.bits .f32 = 32 ∨ (Rect.block (s := S101x100) S101x100.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x100.size a ≤ S1x100.size a
  hwx3_3 : ∀ i : grid3.Coords, EltTy.bits .f32 = 32 ∨ (Rect.block (s := S1x100) S1x100.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S100x200.size a ≤ S100x200.size a
  hwx3_4 : ∀ i : grid3.Coords, EltTy.bits .f32 = 32 ∨ (Rect.block (s := S100x200) S100x200.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x200.size a ≤ S1x200.size a
  hwx3_5 : ∀ i : grid3.Coords, EltTy.bits .f32 = 32 ∨ (Rect.block (s := S1x200) S1x200.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x200.size a ≤ S50000x200.size a
  hwx3_6 : ∀ i : grid3.Coords, EltTy.bits .f32 = 32 ∨ (Rect.block (s := S50000x200) S2000x200.size (cc3_transform_6 i) (hinb3_6 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S512x200.size a ≤ S512x200.size a
  hwx4_0 : ∀ i : grid4.Coords, EltTy.bits .f32 = 32 ∨ (Rect.block (s := S512x200) S512x200.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S200x50.size a ≤ S200x50.size a
  hwx4_1 : ∀ i : grid4.Coords, EltTy.bits .f32 = 32 ∨ (Rect.block (s := S200x50) S200x50.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x50.size a ≤ S1x50.size a
  hwx4_2 : ∀ i : grid4.Coords, EltTy.bits .f32 = 32 ∨ (Rect.block (s := S1x50) S1x50.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S50x1.size a ≤ S50x1.size a
  hwx4_3 : ∀ i : grid4.Coords, EltTy.bits .f32 = 32 ∨ (Rect.block (s := S50x1) S50x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1.size a ≤ S1x1.size a
  hwx4_4 : ∀ i : grid4.Coords, EltTy.bits .f32 = 32 ∨ (Rect.block (s := S1x1) S1x1.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S512x1.size a ≤ S512x1.size a
  hwx4_5 : ∀ i : grid4.Coords, EltTy.bits .f32 = 32 ∨ (Rect.block (s := S512x1) S512x1.size (cc4_transform_5 i) (hinb4_5 i)).WholeWords (EltTy.packing .f32)

variable [Facts₀]

def gather_S50000x101_S800000x1_S800000x101_1_0_n_n_0_1_1101 : GatherDims S50000x101 S800000x1 S800000x101 where
  offsetDims := [1]
  collapsedSliceDims := [0]
  operandBatchingDims := []
  startIndicesBatchingDims := []
  startIndexMap := [0]
  indexVectorDim := 1
  sliceSizes := ![1, 101]
  wf := gather_S50000x101_S800000x1_S800000x101_1_0_n_n_0_1_1101_wf
def dot_S6400x101_S101x101_S6400x101_1_0_0_1_n_n : DotDims S6400x101 S101x101 S6400x101 where
  lhsContracting := [1]
  rhsContracting := [0]
  lhsNonContracting := [0]
  rhsNonContracting := [1]
  lhsBatch := []
  rhsBatch := []
  wf := dot_S6400x101_S101x101_S6400x101_1_0_0_1_n_n_wf
def scatter_S50000x101_S800000x1_S800000x101_1_0_0_1 : ScatterDims S50000x101 S800000x1 S800000x101 where
  updateWindowDims := [1]
  insertedWindowDims := [0]
  scatterDimsToOperandDims := [0]
  indexVectorDim := 1
  wf := scatter_S50000x101_S800000x1_S800000x101_1_0_0_1_wf
def dot_S2000x101_S101x101_S2000x101_1_0_0_1_n_n : DotDims S2000x101 S101x101 S2000x101 where
  lhsContracting := [1]
  rhsContracting := [0]
  lhsNonContracting := [0]
  rhsNonContracting := [1]
  lhsBatch := []
  rhsBatch := []
  wf := dot_S2000x101_S101x101_S2000x101_1_0_0_1_n_n_wf
def dot_S2000x101_S101x100_S2000x100_1_0_0_1_n_n : DotDims S2000x101 S101x100 S2000x100 where
  lhsContracting := [1]
  rhsContracting := [0]
  lhsNonContracting := [0]
  rhsNonContracting := [1]
  lhsBatch := []
  rhsBatch := []
  wf := dot_S2000x101_S101x100_S2000x100_1_0_0_1_n_n_wf
def dot_S2000x100_S100x200_S2000x200_1_0_0_1_n_n : DotDims S2000x100 S100x200 S2000x200 where
  lhsContracting := [1]
  rhsContracting := [0]
  lhsNonContracting := [0]
  rhsNonContracting := [1]
  lhsBatch := []
  rhsBatch := []
  wf := dot_S2000x100_S100x200_S2000x200_1_0_0_1_n_n_wf
def scatter_S512x200_S50000x1_S50000x200_1_0_0_1 : ScatterDims S512x200 S50000x1 S50000x200 where
  updateWindowDims := [1]
  insertedWindowDims := [0]
  scatterDimsToOperandDims := [0]
  indexVectorDim := 1
  wf := scatter_S512x200_S50000x1_S50000x200_1_0_0_1_wf
def dot_S512x200_S200x50_S512x50_1_0_0_1_n_n : DotDims S512x200 S200x50 S512x50 where
  lhsContracting := [1]
  rhsContracting := [0]
  lhsNonContracting := [0]
  rhsNonContracting := [1]
  lhsBatch := []
  rhsBatch := []
  wf := dot_S512x200_S200x50_S512x50_1_0_0_1_n_n_wf
def dot_S512x50_S50x1_S512x1_1_0_0_1_n_n : DotDims S512x50 S50x1 S512x1 where
  lhsContracting := [1]
  rhsContracting := [0]
  lhsNonContracting := [0]
  rhsNonContracting := [1]
  lhsBatch := []
  rhsBatch := []
  wf := dot_S512x50_S50x1_S512x1_1_0_0_1_n_n_wf

abbrev win0_0 : Pipeline.Window sig grid0 :=
  Pipeline.Window.ofSpec (Memref.whole main_arg3) S6400x101.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S101x101.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x101.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S6400x101.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S6400x101.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S2000x101.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S2000x101.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S101x101.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x101.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S101x101.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S1x101.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v12) S2000x101.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_arg3) S6400x101.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg11) S101x101.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v14) S1x101.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v13) S6400x101.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v15) S6400x101.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v12) S2000x101.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v18) S2000x101.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg13) S101x100.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v19) S1x100.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg15) S100x200.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v20) S1x200.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v21) S2000x200.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v24) S512x200.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg17) S200x50.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v25) S1x50.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg19) S50x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v26) S1x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v27) S512x1.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x101 : Shape := ⟨2, ![50000, 101]⟩
abbrev S2x800000 : Shape := ⟨2, ![2, 800000]⟩
abbrev S800000 : Shape := ⟨1, ![800000]⟩
abbrev S800000x101 : Shape := ⟨2, ![800000, 101]⟩
abbrev S50000 : Shape := ⟨1, ![50000]⟩
abbrev S101x101 : Shape := ⟨2, ![101, 101]⟩
abbrev S101 : Shape := ⟨1, ![101]⟩
abbrev S101x100 : Shape := ⟨2, ![101, 100]⟩
abbrev S100 : Shape := ⟨1, ![100]⟩
abbrev S100x200 : Shape := ⟨2, ![100, 200]⟩
abbrev S200 : Shape := ⟨1, ![200]⟩
abbrev S200x50 : Shape := ⟨2, ![200, 50]⟩
abbrev S50 : Shape := ⟨1, ![50]⟩
abbrev S50x1 : Shape := ⟨2, ![50, 1]⟩
abbrev S1 : Shape := ⟨1, ![1]⟩
abbrev S1x800000 : Shape := ⟨2, ![1, 800000]⟩
abbrev S1x101 : Shape := ⟨2, ![1, 101]⟩
abbrev S_ : Shape := ⟨0, ![]⟩
abbrev S800000x1 : Shape := ⟨2, ![800000, 1]⟩
abbrev S50000x100 : Shape := ⟨2, ![50000, 100]⟩
abbrev S1x100 : Shape := ⟨2, ![1, 100]⟩
abbrev S50000x200 : Shape := ⟨2, ![50000, 200]⟩
abbrev S1x200 : Shape := ⟨2, ![1, 200]⟩
abbrev S512x200 : Shape := ⟨2, ![512, 200]⟩
abbrev S50000x1 : Shape := ⟨2, ![50000, 1]⟩
abbrev S512x50 : Shape := ⟨2, ![512, 50]⟩
abbrev S1x50 : Shape := ⟨2, ![1, 50]⟩
abbrev S512x1 : Shape := ⟨2, ![512, 1]⟩
abbrev S1x1 : Shape := ⟨2, ![1, 1]⟩

abbrev nBuf : Space → Nat
  | .hbm => 113
  | .vmem => 0
  | .smem => 0
  | _ => 0

abbrev bufTy : (tb : Table) → Fin (tcTables nBuf tb) → BufTy
  | .hbm, ⟨0, _⟩ => ⟨S50000x101, .f32⟩
  | .hbm, ⟨1, _⟩ => ⟨S2x800000, .i32⟩
  | .hbm, ⟨2, _⟩ => ⟨S800000, .i32⟩
  | .hbm, ⟨3, _⟩ => ⟨S800000x101, .f32⟩
  | .hbm, ⟨4, _⟩ => ⟨S50000, .i32⟩
  | .hbm, ⟨5, _⟩ => ⟨S101x101, .f32⟩
  | .hbm, ⟨6, _⟩ => ⟨S101, .f32⟩
  | .hbm, ⟨7, _⟩ => ⟨S101x101, .f32⟩
  | .hbm, ⟨8, _⟩ => ⟨S101, .f32⟩
  | .hbm, ⟨9, _⟩ => ⟨S101x101, .f32⟩
  | .hbm, ⟨10, _⟩ => ⟨S101, .f32⟩
  | .hbm, ⟨11, _⟩ => ⟨S101x101, .f32⟩
  | .hbm, ⟨12, _⟩ => ⟨S101, .f32⟩
  | .hbm, ⟨13, _⟩ => ⟨S101x100, .f32⟩
  | .hbm, ⟨14, _⟩ => ⟨S100, .f32⟩
  | .hbm, ⟨15, _⟩ => ⟨S100x200, .f32⟩
  | .hbm, ⟨16, _⟩ => ⟨S200, .f32⟩
  | .hbm, ⟨17, _⟩ => ⟨S200x50, .f32⟩
  | .hbm, ⟨18, _⟩ => ⟨S50, .f32⟩
  | .hbm, ⟨19, _⟩ => ⟨S50x1, .f32⟩
  | .hbm, ⟨20, _⟩ => ⟨S1, .f32⟩
  | .hbm, ⟨21, _⟩ => ⟨S1x800000, .i32⟩
  | .hbm, ⟨22, _⟩ => ⟨S800000, .i32⟩
  | .hbm, ⟨23, _⟩ => ⟨S1x800000, .i32⟩
  | .hbm, ⟨24, _⟩ => ⟨S800000, .i32⟩
  | .hbm, ⟨25, _⟩ => ⟨S800000x101, .f32⟩
  | .hbm, ⟨26, _⟩ => ⟨S1x101, .f32⟩
  | .hbm, ⟨27, _⟩ => ⟨S800000x101, .f32⟩
  | .hbm, ⟨28, _⟩ => ⟨S800000x101, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x101, .f32⟩
  | .hbm, ⟨38, _⟩ => ⟨S800000x101, .f32⟩
  | .hbm, ⟨39, _⟩ => ⟨S_, .f32⟩
  | .hbm, ⟨40, _⟩ => ⟨S800000x101, .f32⟩
  | .hbm, ⟨41, _⟩ => ⟨S800000x101, .f32⟩
  | .hbm, ⟨42, _⟩ => ⟨S_, .f32⟩
  | .hbm, ⟨43, _⟩ => ⟨S50000x101, .f32⟩
  | .hbm, ⟨44, _⟩ => ⟨S800000x1, .i32⟩
  | .hbm, ⟨45, _⟩ => ⟨S50000x101, .f32⟩
  | .hbm, ⟨46, _⟩ => ⟨S50000x101, .f32⟩
  | .hbm, ⟨47, _⟩ => ⟨S50000x101, .f32⟩
  | .hbm, ⟨48, _⟩ => ⟨S1x101, .f32⟩
  | .hbm, ⟨49, _⟩ => ⟨S50000x101, .f32⟩
  | .hbm, ⟨50, _⟩ => ⟨S50000x101, .f32⟩
  | .hbm, ⟨51, _⟩ => ⟨S_, .f32⟩
  | .hbm, ⟨52, _⟩ => ⟨S50000x101, .f32⟩
  | .hbm, ⟨53, _⟩ => ⟨S50000x101, .f32⟩
  | .hbm, ⟨54, _⟩ => ⟨S50000x101, .f32⟩
  | .hbm, ⟨55, _⟩ => ⟨S1x101, .f32⟩
  | .hbm, ⟨56, _⟩ => ⟨S50000x101, .f32⟩
  | .hbm, ⟨57, _⟩ => ⟨S50000x101, .f32⟩
  | .hbm, ⟨58, _⟩ => ⟨S_, .f32⟩
  | .hbm, ⟨59, _⟩ => ⟨S50000x101, .f32⟩
  | .hbm, ⟨60, _⟩ => ⟨S50000x101, .f32⟩
  | .hbm, ⟨61, _⟩ => ⟨S800000x101, .f32⟩
  | .hbm, ⟨62, _⟩ => ⟨S1x101, .f32⟩
  | .hbm, ⟨63, _⟩ => ⟨S800000x101, .f32⟩
  | .hbm, ⟨64, _⟩ => ⟨S800000x101, .f32⟩
  | .hbm, ⟨65, _⟩ => ⟨S_, .i32⟩
  | .hbm, ⟨66, _⟩ => ⟨S800000, .i32⟩
  | .hbm, ⟨67, _⟩ => ⟨S800000, .i1⟩
  | .hbm, ⟨68, _⟩ => ⟨S_, .i32⟩
  | .hbm, ⟨69, _⟩ => ⟨S800000, .i32⟩
  | .hbm, ⟨70, _⟩ => ⟨S800000, .i32⟩
  | .hbm, ⟨71, _⟩ => ⟨S800000, .i32⟩
  | .hbm, ⟨72, _⟩ => ⟨S800000x1, .i32⟩
  | .hbm, ⟨73, _⟩ => ⟨S800000x101, .f32⟩
  | .hbm, ⟨74, _⟩ => ⟨S800000x101, .f32⟩
  | .hbm, ⟨75, _⟩ => ⟨S_, .f32⟩
  | .hbm, ⟨76, _⟩ => ⟨S800000x101, .f32⟩
  | .hbm, ⟨77, _⟩ => ⟨S800000x101, .f32⟩
  | .hbm, ⟨78, _⟩ => ⟨S_, .f32⟩
  | .hbm, ⟨79, _⟩ => ⟨S50000x101, .f32⟩
  | .hbm, ⟨80, _⟩ => ⟨S800000x1, .i32⟩
  | .hbm, ⟨81, _⟩ => ⟨S50000x101, .f32⟩
  | .hbm, ⟨82, _⟩ => ⟨S50000x101, .f32⟩
  | .hbm, ⟨83, _⟩ => ⟨S50000x100, .f32⟩
  | .hbm, ⟨84, _⟩ => ⟨S1x100, .f32⟩
  | .hbm, ⟨85, _⟩ => ⟨S50000x100, .f32⟩
  | .hbm, ⟨86, _⟩ => ⟨S50000x100, .f32⟩
  | .hbm, ⟨87, _⟩ => ⟨S_, .f32⟩
  | .hbm, ⟨88, _⟩ => ⟨S50000x100, .f32⟩
  | .hbm, ⟨89, _⟩ => ⟨S50000x100, .f32⟩
  | .hbm, ⟨90, _⟩ => ⟨S50000x200, .f32⟩
  | .hbm, ⟨91, _⟩ => ⟨S1x200, .f32⟩
  | .hbm, ⟨92, _⟩ => ⟨S50000x200, .f32⟩
  | .hbm, ⟨93, _⟩ => ⟨S50000x200, .f32⟩
  | .hbm, ⟨94, _⟩ => ⟨S_, .f32⟩
  | .hbm, ⟨95, _⟩ => ⟨S50000x200, .f32⟩
  | .hbm, ⟨96, _⟩ => ⟨S50000x200, .f32⟩
  | .hbm, ⟨97, _⟩ => ⟨S_, .f32⟩
  | .hbm, ⟨98, _⟩ => ⟨S512x200, .f32⟩
  | .hbm, ⟨99, _⟩ => ⟨S50000x1, .i32⟩
  | .hbm, ⟨100, _⟩ => ⟨S512x200, .f32⟩
  | .hbm, ⟨101, _⟩ => ⟨S512x50, .f32⟩
  | .hbm, ⟨102, _⟩ => ⟨S1x50, .f32⟩
  | .hbm, ⟨103, _⟩ => ⟨S512x50, .f32⟩
  | .hbm, ⟨104, _⟩ => ⟨S512x50, .f32⟩
  | .hbm, ⟨105, _⟩ => ⟨S_, .f32⟩
  | .hbm, ⟨106, _⟩ => ⟨S512x50, .f32⟩
  | .hbm, ⟨107, _⟩ => ⟨S512x50, .f32⟩
  | .hbm, ⟨108, _⟩ => ⟨S512x1, .f32⟩
  | .hbm, ⟨109, _⟩ => ⟨S1x1, .f32⟩
  | .hbm, ⟨110, _⟩ => ⟨S512x1, .f32⟩
  | .hbm, ⟨111, _⟩ => ⟨S512x1, .f32⟩
  | .hbm, ⟨112, _⟩ => ⟨S512x1, .f32⟩
  | _, _ => ⟨S50000x101, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_c : Ref sig .tc := ⟨.hbm, 29, rfl⟩
abbrev main_v8 : Ref sig .tc := ⟨.hbm, 30, rfl⟩
abbrev main_v9 : Ref sig .tc := ⟨.hbm, 31, rfl⟩
abbrev main_c_0 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_call0_cst : Ref sig .tc := ⟨.hbm, 39, rfl⟩
abbrev main_call0_v0 : Ref sig .tc := ⟨.hbm, 40, rfl⟩
abbrev main_v16 : Ref sig .tc := ⟨.hbm, 41, rfl⟩
abbrev main_cst : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_call1_cst : Ref sig .tc := ⟨.hbm, 51, rfl⟩
abbrev main_call1_v0 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_call2_cst : Ref sig .tc := ⟨.hbm, 58, rfl⟩
abbrev main_call2_v0 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_c_1 : Ref sig .tc := ⟨.hbm, 65, rfl⟩
abbrev main_v35 : Ref sig .tc := ⟨.hbm, 66, rfl⟩
abbrev main_v36 : Ref sig .tc := ⟨.hbm, 67, rfl⟩
abbrev main_c_2 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_call3_cst : Ref sig .tc := ⟨.hbm, 75, rfl⟩
abbrev main_call3_v0 : Ref sig .tc := ⟨.hbm, 76, rfl⟩
abbrev main_v43 : Ref sig .tc := ⟨.hbm, 77, rfl⟩
abbrev main_cst_3 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_call4_cst : Ref sig .tc := ⟨.hbm, 87, rfl⟩
abbrev main_call4_v0 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_call5_cst : Ref sig .tc := ⟨.hbm, 94, rfl⟩
abbrev main_call5_v0 : Ref sig .tc := ⟨.hbm, 95, rfl⟩
abbrev main_v57 : Ref sig .tc := ⟨.hbm, 96, rfl⟩
abbrev main_cst_4 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_call6_cst : Ref sig .tc := ⟨.hbm, 105, rfl⟩
abbrev main_call6_v0 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S101_S1x101_1 : S101.BroadcastsInDim S1x101 (![1] : Fin 1 → Fin S1x101.rank)
  bcast_S1x101_S800000x101_0_1 : S1x101.BroadcastsInDim S800000x101 (![0, 1] : Fin 2 → Fin S800000x101.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x101 : S_.BroadcastsInDim S800000x101 (![] : Fin 0 → Fin S800000x101.rank)
  bcast_S_S50000x101 : S_.BroadcastsInDim S50000x101 (![] : Fin 0 → Fin S50000x101.rank)
  bcast_S1x101_S50000x101_0_1 : S1x101.BroadcastsInDim S50000x101 (![0, 1] : Fin 2 → Fin S50000x101.rank)
  bcast_S100_S1x100_1 : S100.BroadcastsInDim S1x100 (![1] : Fin 1 → Fin S1x100.rank)
  bcast_S1x100_S50000x100_0_1 : S1x100.BroadcastsInDim S50000x100 (![0, 1] : Fin 2 → Fin S50000x100.rank)
  bcast_S_S50000x100 : S_.BroadcastsInDim S50000x100 (![] : Fin 0 → Fin S50000x100.rank)
  bcast_S200_S1x200_1 : S200.BroadcastsInDim S1x200 (![1] : Fin 1 → Fin S1x200.rank)
  bcast_S1x200_S50000x200_0_1 : S1x200.BroadcastsInDim S50000x200 (![0, 1] : Fin 2 → Fin S50000x200.rank)
  bcast_S_S50000x200 : S_.BroadcastsInDim S50000x200 (![] : Fin 0 → Fin S50000x200.rank)
  bcast_S_S512x200 : S_.BroadcastsInDim S512x200 (![] : Fin 0 → Fin S512x200.rank)
  bcast_S50000_S50000x1_0 : S50000.BroadcastsInDim S50000x1 (![0] : Fin 1 → Fin S50000x1.rank)
  bcast_S50_S1x50_1 : S50.BroadcastsInDim S1x50 (![1] : Fin 1 → Fin S1x50.rank)
  bcast_S1x50_S512x50_0_1 : S1x50.BroadcastsInDim S512x50 (![0, 1] : Fin 2 → Fin S512x50.rank)
  bcast_S_S512x50 : S_.BroadcastsInDim S512x50 (![] : Fin 0 → Fin S512x50.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  dot_S800000x101_S101x101_S800000x101_1_0_0_1_n_n_wf : DotDims.WF S800000x101 S101x101 S800000x101 [1] [0] [0] [1] [] []
  gather_S50000x101_S800000x1_S800000x101_1_0_n_n_0_1_1101_wf : GatherDims.WF S50000x101 S800000x1 S800000x101 [1] [0] [] [0] [] 1 ![1, 101]
  scatter_S50000x101_S800000x1_S800000x101_1_0_0_1_wf : ScatterDims.WF S50000x101 S800000x1 S800000x101 [1] [0] [0] 1
  dot_S50000x101_S101x101_S50000x101_1_0_0_1_n_n_wf : DotDims.WF S50000x101 S101x101 S50000x101 [1] [0] [0] [1] [] []
  dot_S50000x101_S101x100_S50000x100_1_0_0_1_n_n_wf : DotDims.WF S50000x101 S101x100 S50000x100 [1] [0] [0] [1] [] []
  dot_S50000x100_S100x200_S50000x200_1_0_0_1_n_n_wf : DotDims.WF S50000x100 S100x200 S50000x200 [1] [0] [0] [1] [] []
  scatter_S512x200_S50000x1_S50000x200_1_0_0_1_wf : ScatterDims.WF S512x200 S50000x1 S50000x200 [1] [0] [0] 1
  dot_S512x200_S200x50_S512x50_1_0_0_1_n_n_wf : DotDims.WF S512x200 S200x50 S512x50 [1] [0] [0] [1] [] []
  dot_S512x50_S50x1_S512x1_1_0_0_1_n_n_wf : DotDims.WF S512x50 S50x1 S512x1 [1] [0] [0] [1] [] []

variable [Facts₀]

def dot_S800000x101_S101x101_S800000x101_1_0_0_1_n_n : DotDims S800000x101 S101x101 S800000x101 where
  lhsContracting := [1]
  rhsContracting := [0]
  lhsNonContracting := [0]
  rhsNonContracting := [1]
  lhsBatch := []
  rhsBatch := []
  wf := dot_S800000x101_S101x101_S800000x101_1_0_0_1_n_n_wf
def gather_S50000x101_S800000x1_S800000x101_1_0_n_n_0_1_1101 : GatherDims S50000x101 S800000x1 S800000x101 where
  offsetDims := [1]
  collapsedSliceDims := [0]
  operandBatchingDims := []
  startIndicesBatchingDims := []
  startIndexMap := [0]
  indexVectorDim := 1
  sliceSizes := ![1, 101]
  wf := gather_S50000x101_S800000x1_S800000x101_1_0_n_n_0_1_1101_wf
def scatter_S50000x101_S800000x1_S800000x101_1_0_0_1 : ScatterDims S50000x101 S800000x1 S800000x101 where
  updateWindowDims := [1]
  insertedWindowDims := [0]
  scatterDimsToOperandDims := [0]
  indexVectorDim := 1
  wf := scatter_S50000x101_S800000x1_S800000x101_1_0_0_1_wf
def dot_S50000x101_S101x101_S50000x101_1_0_0_1_n_n : DotDims S50000x101 S101x101 S50000x101 where
  lhsContracting := [1]
  rhsContracting := [0]
  lhsNonContracting := [0]
  rhsNonContracting := [1]
  lhsBatch := []
  rhsBatch := []
  wf := dot_S50000x101_S101x101_S50000x101_1_0_0_1_n_n_wf
def dot_S50000x101_S101x100_S50000x100_1_0_0_1_n_n : DotDims S50000x101 S101x100 S50000x100 where
  lhsContracting := [1]
  rhsContracting := [0]
  lhsNonContracting := [0]
  rhsNonContracting := [1]
  lhsBatch := []
  rhsBatch := []
  wf := dot_S50000x101_S101x100_S50000x100_1_0_0_1_n_n_wf
def dot_S50000x100_S100x200_S50000x200_1_0_0_1_n_n : DotDims S50000x100 S100x200 S50000x200 where
  lhsContracting := [1]
  rhsContracting := [0]
  lhsNonContracting := [0]
  rhsNonContracting := [1]
  lhsBatch := []
  rhsBatch := []
  wf := dot_S50000x100_S100x200_S50000x200_1_0_0_1_n_n_wf
def scatter_S512x200_S50000x1_S50000x200_1_0_0_1 : ScatterDims S512x200 S50000x1 S50000x200 where
  updateWindowDims := [1]
  insertedWindowDims := [0]
  scatterDimsToOperandDims := [0]
  indexVectorDim := 1
  wf := scatter_S512x200_S50000x1_S50000x200_1_0_0_1_wf
def dot_S512x200_S200x50_S512x50_1_0_0_1_n_n : DotDims S512x200 S200x50 S512x50 where
  lhsContracting := [1]
  rhsContracting := [0]
  lhsNonContracting := [0]
  rhsNonContracting := [1]
  lhsBatch := []
  rhsBatch := []
  wf := dot_S512x200_S200x50_S512x50_1_0_0_1_n_n_wf
def dot_S512x50_S50x1_S512x1_1_0_0_1_n_n : DotDims S512x50 S50x1 S512x1 where
  lhsContracting := [1]
  rhsContracting := [0]
  lhsNonContracting := [0]
  rhsNonContracting := [1]
  lhsBatch := []
  rhsBatch := []
  wf := dot_S512x50_S50x1_S512x1_1_0_0_1_n_n_wf

class Facts : Prop extends Facts₀ where

variable [Facts]
-- ==== Proof.HostMapsK.lean ====
/-
  The three host maps of the network, as this program's own host operations spell them, each a function of the raw
  integer inputs: the row gather at the edges' sources (a negative source counts from the end: `s + 50000`), the sum of
  edge rows into their destination nodes, and the sum of node rows into their graphs. They are carried whole: nothing
  here or downstream looks inside a gather or a scatter.
-/
import proofs.«427209_j57208964382753_2_alg».proof.Proof.Gen.KernelIdeal

noncomputable section

namespace Cert.KernelIdeal.HostMaps

open Cert.KernelIdeal Cert.KernelIdeal.Gen Idealize.ShloMosaic

variable {F : FTy → Type} [FloatOps F]

/-- Row 0 of the edge list: the edges' sources. -/
def srcOf (ei : (⟨S2x800000, .i32⟩ : BufTy).Contents (Elt F)) : (⟨S800000, .i32⟩ : BufTy).Contents (Elt F) :=
  shapeCast S800000 (extractStridedSlice S1x800000 ![0, 0] ei slices_S2x800000_S1x800000_0_0) shapeCasts_S1x800000_S800000

/-- Row 1 of the edge list: the edges' destinations. -/
def dstOf (ei : (⟨S2x800000, .i32⟩ : BufTy).Contents (Elt F)) : (⟨S800000, .i32⟩ : BufTy).Contents (Elt F) :=
  shapeCast S800000 (extractStridedSlice S1x800000 ![1, 0] ei slices_S2x800000_S1x800000_1_0) shapeCasts_S1x800000_S800000

/-- A negative index counts from the end of the 50000 rows. -/
def wrapOf (s : (⟨S800000, .i32⟩ : BufTy).Contents (Elt F)) : (⟨S800000, .i32⟩ : BufTy).Contents (Elt F) :=
  select (cmpi .slt s (broadcastInDim S800000 ![] bcast_S_S800000 (constantI S_ 32 0#32)))
    (addi s (broadcastInDim S800000 ![] bcast_S_S800000 (constantI S_ 32 50000#32))) s

/-- The wrapped sources as a column of row indices. -/
def srcIdx (ei : (⟨S2x800000, .i32⟩ : BufTy).Contents (Elt F)) : (⟨S800000x1, .i32⟩ : BufTy).Contents (Elt F) :=
  broadcastInDim S800000x1 ![0] bcast_S800000_S800000x1_0 (wrapOf (srcOf ei))

/-- The row gather at the edges' sources. -/
def gatherSrc (ei : (⟨S2x800000, .i32⟩ : BufTy).Contents (Elt F))
    (h : (⟨S50000x101, .f32⟩ : BufTy).Contents (Elt F)) : (⟨S800000x101, .f32⟩ : BufTy).Contents (Elt F) :=
  Host.gather gather_S50000x101_S800000x1_S800000x101_1_0_n_n_0_1_1101 h (srcIdx ei)

/-- The sum of edge rows into their destination nodes, from zero. -/
def segDst (ei : (⟨S2x800000, .i32⟩ : BufTy).Contents (Elt F))
    (u : (⟨S800000x101, .f32⟩ : BufTy).Contents (Elt F)) : (⟨S50000x101, .f32⟩ : BufTy).Contents (Elt F) :=
  Host.scatterAdd scatter_S50000x101_S800000x1_S800000x101_1_0_0_1
    (broadcastInDim S50000x101 ![] bcast_S_S50000x101 (constant S_ .f32 0x00000000#32))
    (broadcastInDim S800000x1 ![0] bcast_S800000_S800000x1_0 (dstOf ei)) u

/-- The sum of node rows into their graphs, from zero. -/
def pool (batch : (⟨S50000, .i32⟩ : BufTy).Contents (Elt F))
    (u : (⟨S50000x200, .f32⟩ : BufTy).Contents (Elt F)) : (⟨S512x200, .f32⟩ : BufTy).Contents (Elt F) :=
  Host.scatterAdd scatter_S512x200_S50000x1_S50000x200_1_0_0_1
    (broadcastInDim S512x200 ![] bcast_S_S512x200 (constant S_ .f32 0x00000000#32))
    (broadcastInDim S50000x1 ![0] bcast_S50000_S50000x1_0 batch) u

end Cert.KernelIdeal.HostMaps

end
-- ==== Proof.TakeK.lean ====
/-
  The kernel's row gather is `jnp.take` at its default mode: after a negative source has been counted from the end, a
  source outside `0 … 49999` reads a fill value instead of a row. Under the precondition every source lies in
  `-50000 … 49999`, so every wrapped source lies in `0 … 49999`, the mask is all ones, and the take is the plain row
  gather at the wrapped sources.
-/
import proofs.«427209_j57208964382753_2_alg».proof.Defs
import proofs.«427209_j57208964382753_2_alg».proof.Proof.Gen.KernelIdeal
import proofs.«427209_j57208964382753_2_alg».proof.Proof.Gen.Pre_finite_inputs
import proofs.«427209_j57208964382753_2_alg».proof.Proof.HostMapsK
import Idealize.ShloMosaic.Lib.ValueIdx
import Idealize.ShloMosaic.Lib.ReduceAll
import Idealize.ShloMosaic.Lib.StableHlo.Predicate
import Idealize.ShloMosaic.Lib.Pipeline.Value

noncomputable section

namespace Cert.KernelIdeal.TakeK

open Cert.KernelIdeal Cert.KernelIdeal.Gen Idealize.ShloMosaic Idealize.ShloMosaic.TcCoe Idealize.ShloMosaic.ValueIdx Idealize.SL.Sem

/-- Every edge's source names a node row, counted from either end: `-50000 ≤ s < 50000`. -/
def SrcOk (ei : (⟨S2x800000, .i32⟩ : BufTy).Contents (Elt Ideal)) : Prop :=
  ∀ e : Fin 800000, -50000 ≤ (ei (ix2 (0 : Fin 2) e)).toInt ∧ (ei (ix2 (0 : Fin 2) e)).toInt < 50000

/-- The take as the kernel's host side spells it: the row gather at the wrapped sources where the wrapped source is
    in `0 … 49999`, the fill value elsewhere. -/
def takeSrc (ei : (⟨S2x800000, .i32⟩ : BufTy).Contents (Elt Ideal))
    (x : (⟨S50000x101, .f32⟩ : BufTy).Contents (Elt Ideal)) : (⟨S800000x101, .f32⟩ : BufTy).Contents (Elt Ideal) :=
  select
    (broadcastInDim S800000x101 ![0] bcast_S800000_S800000x101_0
      (Host.reduce IntOp.andi
        (andi (cmpi .sge (HostMaps.srcIdx (F := Ideal) ei) (broadcastInDim S800000x1 ![] bcast_S_S800000x1 (constantI S_ 32 0#32)))
          (cmpi .sle (HostMaps.srcIdx (F := Ideal) ei)
            (broadcastInDim S800000x1 ![0, 1] bcast_S1x1_S800000x1_0_1 (broadcastInDim S1x1 ![1] bcast_S1_S1x1_1 (constantI S1 32 49999#32)))))
        (constantI S_ 1 1#1) reducesTo_S800000x1_S800000_d1 h_S_))
    (Host.gather gather_S50000x101_S800000x1_S800000x101_1_0_n_n_0_1_1101 x (HostMaps.srcIdx (F := Ideal) ei))
    (broadcastInDim S800000x101 ![] bcast_S_S800000x101 (constant (F := Ideal) S_ .f32 0x7FC00000#32))

/-- A left fold by `and` from 1 over words that are all 1 is 1. -/
private theorem foldl_andi_of_all {ι : Type} (f : ι → BitVec 1) :
    ∀ (l : List ι) (init : BitVec 1), init = 1#1 → (∀ n ∈ l, f n = 1#1) →
      l.foldl (fun r n => IntOp.andi r (f n)) init = 1#1
  | [], init, h, _ => h
  | a :: l, init, h, hl => by
    refine foldl_andi_of_all f l _ ?_ (fun n hn => hl n (List.mem_cons_of_mem _ hn))
    exact IntOp.andi_eq_one.2 ⟨h, hl a List.mem_cons_self⟩

/-- A reduce by `and` from 1 of an array that is 1 everywhere is 1 everywhere. -/
private theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl]
  exact foldl_andi_of_all x _ _ hinit (fun n _ => hx n)

/-- A broadcast of an array that is `c` everywhere is `c` everywhere. -/
private theorem broadcastInDim_const {s t : Shape} {α : Type} (dims : Fin s.rank → Fin t.rank) (h : s.BroadcastsInDim t dims)
    (x : s.Idx → α) (c : α) (hx : ∀ k, x k = c) (j : t.Idx) : broadcastInDim t dims h x j = c := by
  unfold broadcastInDim
  exact hx _

/-- A source counted from the end: `s + 50000` where `s` is negative, `s` otherwise. -/
private def wrapWord (s : BitVec 32) : BitVec 32 :=
  Scalar.select (IntOp.cmpi .slt s 0#32) (IntOp.addi s 50000#32) s

/-- The wrapped source of a source in `-50000 … 49999` lies in `0 … 49999`. -/
private theorem wrap_in_range (s : BitVec 32) (h1 : -50000 ≤ s.toInt) (h2 : s.toInt < 50000) :
    IntOp.andi (IntOp.cmpi .sge (wrapWord s) 0#32) (IntOp.cmpi .sle (wrapWord s) 49999#32) = 1#1 := by
  have e0 : (0#32 : BitVec 32).toInt = 0 := by decide
  have e1 : (49999#32 : BitVec 32).toInt = 49999 := by decide
  have e2 : (50000#32 : BitVec 32).toInt = 50000 := by decide
  unfold wrapWord
  rw [IntOp.andi_eq_one, IntOp.cmpi_sge, IntOp.cmpi_sle, e0, e1]
  by_cases hc : IntOp.cmpi .slt s 0#32 = 1#1
  · have hneg : s.toInt < 0 := by rw [IntOp.cmpi_slt, e0] at hc; exact hc
    have hadd : (IntOp.addi s 50000#32).toInt = s.toInt + 50000 := by
      rw [IntOp.addi, BitVec.toInt_add, e2]
      exact Int.bmod_eq_of_le (by omega) (by omega)
    rw [hc, select_one, hadd]
    omega
  · have hpos : 0 ≤ s.toInt := by
      rw [IntOp.cmpi_slt, e0] at hc; omega
    rw [eq_zero_of_ne_one hc, select_zero]
    omega

/-- Row 0 of a two-row array, as a vector: entry `j` is the array at `(0, j)`. -/
private theorem row0_apply {α : Type} {n : Nat} (x : (⟨2, ![2, n]⟩ : Shape).Idx → α)
    (hs : (⟨2, ![2, n]⟩ : Shape).Slices ![0, 0] ⟨2, ![1, n]⟩) (hc : (⟨2, ![1, n]⟩ : Shape).ShapeCasts ⟨1, ![n]⟩)
    (j : (⟨1, ![n]⟩ : Shape).Idx) :
    shapeCast ⟨1, ![n]⟩ (extractStridedSlice ⟨2, ![1, n]⟩ ![0, 0] x hs) hc j = x (ix2 (0 : Fin 2) (j 0)) := by
  refine (shapeCast_apply _ hc j (ix2 (0 : Fin 1) (j 0)) ?_).trans (extractStridedSlice_apply _ x hs _ _ fun a => ?_)
  · rw [Shape.rowMajor_val_two, Shape.rowMajor_val_one]
    show 0 * _ + (j 0).val = (j 0).val
    omega
  · match a with
    | ⟨0, _⟩ => rfl
    | ⟨1, _⟩ => show (j 0).val = 0 + (j 0).val; omega

/-- The sources at an index: the edge list's row 0. -/
private theorem srcOf_apply (ei : (⟨S2x800000, .i32⟩ : BufTy).Contents (Elt Ideal)) (k : S800000.Idx) :
    HostMaps.srcOf (F := Ideal) ei k = ei (ix2 (0 : Fin 2) (k 0)) :=
  row0_apply (n := 800000) ei slices_S2x800000_S1x800000_0_0 shapeCasts_S1x800000_S800000 k

/-- Every entry of the column of wrapped sources is the wrap of some edge's source. -/
private theorem srcIdx_apply (ei : (⟨S2x800000, .i32⟩ : BufTy).Contents (Elt Ideal)) (p : S800000x1.Idx) :
    ∃ e : Fin 800000, HostMaps.srcIdx (F := Ideal) ei p = wrapWord (ei (ix2 (0 : Fin 2) e)) := by
  unfold HostMaps.srcIdx broadcastInDim
  exact ⟨_, congrArg wrapWord (srcOf_apply ei _)⟩

/-- With every source in range, the mask of in-range wrapped sources is 1 at every edge. -/
private theorem mask_one (ei : (⟨S2x800000, .i32⟩ : BufTy).Contents (Elt Ideal)) (hok : SrcOk ei) (k : S800000.Idx) :
    Host.reduce IntOp.andi
      (andi (cmpi .sge (HostMaps.srcIdx (F := Ideal) ei) (broadcastInDim S800000x1 ![] bcast_S_S800000x1 (constantI S_ 32 0#32)))
        (cmpi .sle (HostMaps.srcIdx (F := Ideal) ei)
          (broadcastInDim S800000x1 ![0, 1] bcast_S1x1_S800000x1_0_1 (broadcastInDim S1x1 ![1] bcast_S1_S1x1_1 (constantI S1 32 49999#32)))))
      (constantI S_ 1 1#1) reducesTo_S800000x1_S800000_d1 h_S_ k = 1#1 := by
  refine reduce_andi_of_all _ _ _ _ rfl (fun p => ?_) k
  obtain ⟨e, he⟩ := srcIdx_apply ei p
  show IntOp.andi (IntOp.cmpi .sge (HostMaps.srcIdx (F := Ideal) ei p) 0#32)
    (IntOp.cmpi .sle (HostMaps.srcIdx (F := Ideal) ei p) 49999#32) = 1#1
  rw [he]
  exact wrap_in_range _ (hok e).1 (hok e).2

/-- The printed range check read back: where the `and` over all edges of the two compares of row 0 against `-50000` and
    `50000` is 1, every source lies in `-50000 … 49999`. -/
private theorem range_of_all (ei : (⟨2, ![2, 800000]⟩ : Shape).Idx → BitVec 32)
    (hs : (⟨2, ![2, 800000]⟩ : Shape).Slices ![0, 0] ⟨2, ![1, 800000]⟩)
    (hc : (⟨2, ![1, 800000]⟩ : Shape).ShapeCasts ⟨1, ![800000]⟩)
    (hb : (⟨0, ![]⟩ : Shape).BroadcastsInDim ⟨1, ![800000]⟩ (![] : Fin 0 → Fin 1))
    (hr : (⟨1, ![800000]⟩ : Shape).ReducesTo [0] ⟨0, ![]⟩) (hu : 0 < (⟨0, ![]⟩ : Shape).numel)
    (h : Host.reduce IntOp.andi
        (andi
          (cmpi .sge (shapeCast ⟨1, ![800000]⟩ (extractStridedSlice ⟨2, ![1, 800000]⟩ ![0, 0] ei hs) hc)
            (broadcastInDim ⟨1, ![800000]⟩ ![] hb (constantI ⟨0, ![]⟩ 32 4294917296#32)))
          (cmpi .slt (shapeCast ⟨1, ![800000]⟩ (extractStridedSlice ⟨2, ![1, 800000]⟩ ![0, 0] ei hs) hc)
            (broadcastInDim ⟨1, ![800000]⟩ ![] hb (constantI ⟨0, ![]⟩ 32 50000#32))))
        (constantI ⟨0, ![]⟩ 1 1#1) hr hu ix0 = 1#1) (e : Fin 800000) :
    -50000 ≤ (ei (ix2 (0 : Fin 2) e)).toInt ∧ (ei (ix2 (0 : Fin 2) e)).toInt < 50000 := by
  haveI : Subsingleton (⟨0, ![]⟩ : Shape).Idx := ⟨fun a b => funext fun d => d.elim0⟩
  have h3 := Host.reduce_andi_all _ _ hr hu ix0 h (ix1 e)
  obtain ⟨h4, h5⟩ := IntOp.andi_eq_one.1 h3
  have e1 : (4294917296#32 : BitVec 32).toInt = -50000 := by decide
  have e2 : (50000#32 : BitVec 32).toInt = 50000 := by decide
  have h4' : (4294917296#32 : BitVec 32).toInt ≤ (ei (ix2 (0 : Fin 2) e)).toInt := by
    have := IntOp.cmpi_sge.1 h4
    rw [row0_apply] at this
    exact this
  have h5' : (ei (ix2 (0 : Fin 2) e)).toInt < (50000#32 : BitVec 32).toInt := by
    have := IntOp.cmpi_slt.1 h5
    rw [row0_apply] at this
    exact this
  rw [e1] at h4'
  rw [e2] at h5'
  exact ⟨h4', h5'⟩

/-- The precondition gives the range of every source. -/
theorem srcOk_of_pre (m : (ℓ : Loc nD τ sig) → Buf (Elt Ideal) ℓ)
    (hpre : Cert.Pre_KernelIdeal (hPre_finite_inputs := Cert.Pre_finite_inputs.Gen.facts) m) (c : Dev nD) :
    SrcOk (m ((c.tc : Thread nD τ).loc main_arg1)) := by
  intro e
  have h := congrFun (hpre c) ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5] at h
  exact range_of_all _ _ _ _ _ _ (IntOp.andi_eq_one.1 h).2 e

/-- With every source in range the mask is all ones: the take is the row gather at the wrapped sources. -/
theorem take_eq_gather (ei : (⟨S2x800000, .i32⟩ : BufTy).Contents (Elt Ideal)) (hok : SrcOk ei)
    (x : (⟨S50000x101, .f32⟩ : BufTy).Contents (Elt Ideal)) :
    takeSrc ei x = HostMaps.gatherSrc (F := Ideal) ei x := by
  funext i
  unfold takeSrc
  rw [select_apply, broadcastInDim_const _ _ _ 1#1 (mask_one ei hok) i, select_one]
  rfl

end Cert.KernelIdeal.TakeK

end
-- ==== Proof.Spec.lean ====
/-
  The mathematics both programs compute, stated once over the extended reals and over literal index types.

  A dense layer is `(x · W)[i, j] + b[j]`, the product a plain sum over the contracted axis. An edge message is
  `max (xg[e, j] + ((ea · We)[e, j] + be[j])) 0`: the gathered node row plus the projected edge attribute, rectified.
  A node update is two dense layers on `x + agg`, each rectified. The head is a rectified dense layer, one more dense
  layer, and an absolute value (`max a (-a)`). The network composes them through three maps that both programs
  take from the same host operations and that are never opened here: the row gather at the edges' sources (`G`),
  the sum of edge rows into their destination nodes (`A`), and the sum of node rows into their graphs (`P`).
-/
import Idealize.ShloMosaic.PureOps.Ideal
import Idealize.ShloMosaic.Lib.ValueIdx

noncomputable section

namespace Cert.Spec

open Idealize.ShloMosaic Idealize.ShloMosaic.ValueIdx

/-- A bias kept as a one-row matrix, read as a vector: entry `j` is the row's entry `j`. -/
def row0 {p : Nat} (b : FVec Ideal ⟨2, ![1, p]⟩ .f32) : FVec Ideal ⟨1, ![p]⟩ .f32 :=
  fun j => b (ix2 (0 : Fin 1) (j 0 : Fin p))

/-- `(x · W)[i, j] + b[j]`: the contracted axis summed as a plain finite sum. -/
def dense {n k p : Nat} (x : FVec Ideal ⟨2, ![n, k]⟩ .f32) (W : FVec Ideal ⟨2, ![k, p]⟩ .f32)
    (b : FVec Ideal ⟨1, ![p]⟩ .f32) : FVec Ideal ⟨2, ![n, p]⟩ .f32 :=
  fun i => (∑ q : Fin k, x (ix2 (i 0 : Fin n) q) * W (ix2 q (i 1 : Fin p))) + b (ix1 (i 1 : Fin p))

/-- `max y 0`, entry by entry. -/
def relu {s : Shape} (y : FVec Ideal s .f32) : FVec Ideal s .f32 := fun i => max (y i) 0

/-- The message of edge `e`: the gathered source row plus the projected edge attribute, rectified. -/
def edgeMsg {n k p : Nat} (ea : FVec Ideal ⟨2, ![n, k]⟩ .f32) (We : FVec Ideal ⟨2, ![k, p]⟩ .f32)
    (be : FVec Ideal ⟨1, ![p]⟩ .f32) (xg : FVec Ideal ⟨2, ![n, p]⟩ .f32) : FVec Ideal ⟨2, ![n, p]⟩ .f32 :=
  fun i => max (xg i + dense ea We be i) 0

/-- The node update: two rectified dense layers on `x + agg`. -/
def nodeMlp {n k h p : Nat} (x agg : FVec Ideal ⟨2, ![n, k]⟩ .f32) (Wa : FVec Ideal ⟨2, ![k, h]⟩ .f32)
    (ba : FVec Ideal ⟨1, ![h]⟩ .f32) (Wb : FVec Ideal ⟨2, ![h, p]⟩ .f32) (bb : FVec Ideal ⟨1, ![p]⟩ .f32) :
    FVec Ideal ⟨2, ![n, p]⟩ .f32 :=
  relu (dense (relu (dense (fun i => x i + agg i) Wa ba)) Wb bb)

/-- The graph head: a rectified dense layer, a dense layer, and the absolute value. -/
def headMlp {n k h p : Nat} (g : FVec Ideal ⟨2, ![n, k]⟩ .f32) (Wl : FVec Ideal ⟨2, ![k, h]⟩ .f32)
    (bl : FVec Ideal ⟨1, ![h]⟩ .f32) (Wl2 : FVec Ideal ⟨2, ![h, p]⟩ .f32) (bl2 : FVec Ideal ⟨1, ![p]⟩ .f32) :
    FVec Ideal ⟨2, ![n, p]⟩ .f32 :=
  fun i => max (dense (relu (dense g Wl bl)) Wl2 bl2 i) (-(dense (relu (dense g Wl bl)) Wl2 bl2 i))

/-- The whole network over three host maps: `G` gathers node rows at the edges' sources, `A` sums edge rows into
    their destination nodes, `P` sums node rows into their graphs. Two rounds of message passing, then the head. -/
def model
    (G : FVec Ideal ⟨2, ![50000, 101]⟩ .f32 → FVec Ideal ⟨2, ![800000, 101]⟩ .f32)
    (A : FVec Ideal ⟨2, ![800000, 101]⟩ .f32 → FVec Ideal ⟨2, ![50000, 101]⟩ .f32)
    (P : FVec Ideal ⟨2, ![50000, 200]⟩ .f32 → FVec Ideal ⟨2, ![512, 200]⟩ .f32)
    (x : FVec Ideal ⟨2, ![50000, 101]⟩ .f32) (ea : FVec Ideal ⟨2, ![800000, 101]⟩ .f32)
    (We1 : FVec Ideal ⟨2, ![101, 101]⟩ .f32) (be1 : FVec Ideal ⟨1, ![101]⟩ .f32)
    (W1a : FVec Ideal ⟨2, ![101, 101]⟩ .f32) (b1a : FVec Ideal ⟨1, ![101]⟩ .f32)
    (W1b : FVec Ideal ⟨2, ![101, 101]⟩ .f32) (b1b : FVec Ideal ⟨1, ![101]⟩ .f32)
    (We2 : FVec Ideal ⟨2, ![101, 101]⟩ .f32) (be2 : FVec Ideal ⟨1, ![101]⟩ .f32)
    (W2a : FVec Ideal ⟨2, ![101, 100]⟩ .f32) (b2a : FVec Ideal ⟨1, ![100]⟩ .f32)
    (W2b : FVec Ideal ⟨2, ![100, 200]⟩ .f32) (b2b : FVec Ideal ⟨1, ![200]⟩ .f32)
    (Wl : FVec Ideal ⟨2, ![200, 50]⟩ .f32) (bl : FVec Ideal ⟨1, ![50]⟩ .f32)
    (Wl2 : FVec Ideal ⟨2, ![50, 1]⟩ .f32) (bl2 : FVec Ideal ⟨1, ![1]⟩ .f32) :
    FVec Ideal ⟨2, ![512, 1]⟩ .f32 :=
  let h1 := nodeMlp x (A (edgeMsg ea We1 be1 (G x))) W1a b1a W1b b1b
  let h2 := nodeMlp h1 (A (edgeMsg ea We2 be2 (G h1))) W2a b2a W2b b2b
  headMlp (P h2) Wl bl Wl2 bl2

end Cert.Spec

end
-- ==== Proof.EdgeK.lean ====
/-
  The edge-message regions (the first and the third launch): after the grid has run, the output array is the edge
  message `Cert.Spec.edgeMsg` of the arrays the region was entered with. Point `t` of 125 stages rows
  `6400 t … 6400 t + 6399` of the edge attributes and of the gathered node rows, the whole weight matrix and the bias
  row; its body is one matrix product into a zero accumulator plus the bias row, added to the gathered rows and
  rectified; the 125 row blocks tile the 800000 rows.
-/
import proofs.«427209_j57208964382753_2_alg».proof.Proof.Gen.KernelIdeal.Frame
import proofs.«427209_j57208964382753_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.EdgeK

open Cert.KernelIdeal Cert.KernelIdeal.Gen
open Idealize.ShloMosaic Idealize.ShloMosaic.TcCoe Idealize.ShloMosaic.ValueIdx Idealize.SL.Sem
open Idealize.ShloMosaic.Pipeline (Dat)

/-! ## The body's value at an index -/

/-- The product's left operand is read at the output's row … -/
private theorem lhs_mm_0 (i : S6400x101.Idx) (q : dot_S6400x101_S101x101_S6400x101_1_0_0_1_n_n.contr.Idx) :
    (dot_S6400x101_S101x101_S6400x101_1_0_0_1_n_n.lhsIdx i q 0).val = (i 0).val := by
  unfold DotDims.lhsIdx
  rw [dif_neg (show ¬(0 : Fin S6400x101.rank) ∈ dot_S6400x101_S101x101_S6400x101_1_0_0_1_n_n.lhsBatch by decide), dif_pos (show (0 : Fin S6400x101.rank) ∈ dot_S6400x101_S101x101_S6400x101_1_0_0_1_n_n.lhsNonContracting by decide)]
  rfl
/-- … and the contracted column; -/
private theorem lhs_mm_1 (i : S6400x101.Idx) (q : dot_S6400x101_S101x101_S6400x101_1_0_0_1_n_n.contr.Idx) :
    (dot_S6400x101_S101x101_S6400x101_1_0_0_1_n_n.lhsIdx i q 1).val = (q ⟨0, by decide⟩).val :=
  dot_S6400x101_S101x101_S6400x101_1_0_0_1_n_n.lhsIdx_val_of_single rfl i q
/-- the right operand at the contracted row … -/
private theorem rhs_mm_0 (i : S6400x101.Idx) (q : dot_S6400x101_S101x101_S6400x101_1_0_0_1_n_n.contr.Idx) :
    (dot_S6400x101_S101x101_S6400x101_1_0_0_1_n_n.rhsIdx i q 0).val = (q ⟨0, by decide⟩).val :=
  dot_S6400x101_S101x101_S6400x101_1_0_0_1_n_n.rhsIdx_val_of_single rfl i q
/-- … and the output's column. -/
private theorem rhs_mm_1 (i : S6400x101.Idx) (q : dot_S6400x101_S101x101_S6400x101_1_0_0_1_n_n.contr.Idx) :
    (dot_S6400x101_S101x101_S6400x101_1_0_0_1_n_n.rhsIdx i q 1).val = (i 1).val := by
  unfold DotDims.rhsIdx
  rw [dif_neg (show ¬(1 : Fin S101x101.rank) ∈ dot_S6400x101_S101x101_S6400x101_1_0_0_1_n_n.rhsBatch by decide), dif_pos (show (1 : Fin S101x101.rank) ∈ dot_S6400x101_S101x101_S6400x101_1_0_0_1_n_n.rhsNonContracting by decide)]
  rfl

/-- The matrix product into the zero accumulator, at row `r` and column `j`: the plain sum over the contracted axis. -/
private theorem mm_apply (a : FVec Ideal S6400x101 .bf16) (w : FVec Ideal S101x101 .bf16) (r : Fin 6400) (j : Fin 101) :
    matmul dot_S6400x101_S101x101_S6400x101_1_0_0_1_n_n none a w (constant (F := Ideal) S6400x101 .f32 0x00000000#32) (ix2 r j)
      = ∑ q : Fin 101, a (ix2 r q) * w (ix2 q j) := by
  simp only [matmul]
  rw [Ideal.matmul_constant_zero_apply, ← Equiv.sum_comp (ValueIdx.contrEquiv1 dot_S6400x101_S101x101_S6400x101_1_0_0_1_n_n 101 rfl rfl).symm]
  refine Finset.sum_congr rfl fun k _ => ?_
  have hk := ValueIdx.contrEquiv1_symm_val dot_S6400x101_S101x101_S6400x101_1_0_0_1_n_n 101 rfl rfl k
  have el : dot_S6400x101_S101x101_S6400x101_1_0_0_1_n_n.lhsIdx (ix2 r j) ((ValueIdx.contrEquiv1 dot_S6400x101_S101x101_S6400x101_1_0_0_1_n_n 101 rfl rfl).symm k) = ix2 r k := funext fun a => Fin.ext (by
    match a with
    | ⟨0, _⟩ => exact lhs_mm_0 _ _
    | ⟨1, _⟩ => exact (lhs_mm_1 _ _).trans hk)
  have er : dot_S6400x101_S101x101_S6400x101_1_0_0_1_n_n.rhsIdx (ix2 r j) ((ValueIdx.contrEquiv1 dot_S6400x101_S101x101_S6400x101_1_0_0_1_n_n 101 rfl rfl).symm k) = ix2 k j := funext fun a => Fin.ext (by
    match a with
    | ⟨0, _⟩ => exact (rhs_mm_0 _ _).trans hk
    | ⟨1, _⟩ => exact rhs_mm_1 _ _)
  rw [el, er]

/-- The bias row broadcast down the rows reads the row's entry of the column. -/
private theorem bias_apply (b : FVec Ideal S1x101 .f32) (r : Fin 6400) (j : Fin 101) :
    broadcastTo S6400x101 b broadcasts_S1x101_S6400x101 (ix2 r j) = b (ix2 (0 : Fin 1) j) := by
  refine broadcastTo_apply b broadcasts_S1x101_S6400x101 (ix2 r j) (ix2 (0 : Fin 1) j) fun a => ?_
  match a with
  | ⟨0, _⟩ => rfl
  | ⟨1, _⟩ => rfl

/-- The body's value at row `r` and column `j` of its blocks: the product's sum plus the bias entry, added to the
    gathered entry and rectified. -/
private theorem pay_apply (x0 : Vec Ideal S6400x101 .f32) (x1 : Vec Ideal S101x101 .f32) (x2 : Vec Ideal S1x101 .f32)
    (x3 : Vec Ideal S6400x101 .f32) (r : Fin 6400) (j : Fin 101) :
    k0_pay1 (F := Ideal) x0 x1 x2 x3 (ix2 r j)
      = max (x3 (ix2 r j) + ((∑ q : Fin 101, x0 (ix2 r q) * x1 (ix2 q j)) + x2 (ix2 (0 : Fin 1) j))) 0 := by
  unfold k0_pay1
  rw [maximumf_apply, addf_apply, addf_apply, shapeCast_self, shapeCast_self, broadcast_apply, bias_apply, mm_apply]
  simp only [truncf_apply]
  show max _ (Ideal.ofBits .f32 0x00000000#32) = _
  rw [Ideal.ofBits_zero_f32]

/-- The body's value on blocks that are rows `R - r … ` of the edge attributes and of the gathered rows, the whole weight
    matrix and the bias row, at row `r` of the block, is the edge message at row `R` of the arrays. -/
private theorem pay_blk (ea xg : FVec Ideal S800000x101 .f32) (We : FVec Ideal S101x101 .f32) (b : FVec Ideal S1x101 .f32)
    (x0 x3 : Vec Ideal S6400x101 .f32) (x1 : Vec Ideal S101x101 .f32) (x2 : Vec Ideal S1x101 .f32)
    (r : Fin 6400) (j : Fin 101) (R : Fin 800000)
    (h0 : ∀ q : Fin 101, x0 (ix2 r q) = ea (ix2 R q))
    (h1 : ∀ q : Fin 101, x1 (ix2 q j) = We (ix2 q j))
    (h2 : x2 (ix2 (0 : Fin 1) j) = b (ix2 (0 : Fin 1) j))
    (h3 : x3 (ix2 r j) = xg (ix2 R j)) :
    k0_pay1 (F := Ideal) x0 x1 x2 x3 (ix2 r j) = Cert.Spec.edgeMsg ea We (Cert.Spec.row0 b) xg (ix2 R j) := by
  rw [pay_apply, h3, h2]
  simp only [h0, h1]
  rfl

/-- The whole-block rectangle's offsets are zero. -/
private theorem hz : (![0, 0] : Fin 2 → Nat) = fun _ => 0 := funext fun a => by fin_cases a <;> rfl

-- the TensorCore's buffer contents when the region is entered: every statement below holds at any such contents
variable (V : (c : Dev nD) → (b : Ref sig .tc) → Buf (Elt Ideal) ((c : Thread nD τ).loc b))

/-! ## Launch 0: from the blocks to the array -/

/-- The printed index maps, decided over the grid: the row-blocked windows sit at block row `t`, the weight matrix and
    the bias row at their one block. -/
private theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row `r` of point `t`'s block of the edge attributes is row `6400 t + r` of the array. -/
private theorem blk0_0_apply (c : Dev nD) (t : Fin cfg0.N) (r : Fin 6400) (q : Fin 101) (h : 6400 * t.val + r.val < 800000) :
    (iblk0 V c 0 t : Vec Ideal S6400x101 .f32) (ix2 r q)
      = (V c (Pipeline.arrRef spec0 0) : FVec Ideal S800000x101 .f32) (ix2 (⟨6400 * t.val + r.val, h⟩ : Fin 800000) q) := by
  obtain ⟨e00, e01, e10, e11, e20, e21, e30, e31, e40, e41⟩ := idx_facts0 t
  show V c (Pipeline.arrRef spec0 0) (((cfg0.win 0).blk t).view.emb (ix2 r q)) = _
  refine congrArg _ (funext fun a => Fin.ext ?_)
  match a with
  | ⟨0, _⟩ => show win0_0.index t (0 : Fin 2) * 6400 + 1 * r.val = 6400 * t.val + r.val; omega
  | ⟨1, _⟩ => show win0_0.index t (1 : Fin 2) * 101 + 1 * q.val = q.val; omega

/-- Every point's block of the weight matrix is the matrix. -/
private theorem blk0_1_apply (c : Dev nD) (t : Fin cfg0.N) (q j : Fin 101) :
    (iblk0 V c 1 t : Vec Ideal S101x101 .f32) (ix2 q j)
      = (V c (Pipeline.arrRef spec0 1) : FVec Ideal S101x101 .f32) (ix2 q j) := by
  obtain ⟨e00, e01, e10, e11, e20, e21, e30, e31, e40, e41⟩ := idx_facts0 t
  show V c (Pipeline.arrRef spec0 1) (((cfg0.win 1).blk t).view.emb (ix2 q j)) = _
  refine congrArg _ (funext fun a => Fin.ext ?_)
  match a with
  | ⟨0, _⟩ => show win0_1.index t (0 : Fin 2) * 101 + 1 * q.val = q.val; omega
  | ⟨1, _⟩ => show win0_1.index t (1 : Fin 2) * 101 + 1 * j.val = j.val; omega

/-- Every point's block of the bias row is the row. -/
private theorem blk0_2_apply (c : Dev nD) (t : Fin cfg0.N) (j : Fin 101) :
    (iblk0 V c 2 t : Vec Ideal S1x101 .f32) (ix2 (0 : Fin 1) j)
      = (V c (Pipeline.arrRef spec0 2) : FVec Ideal S1x101 .f32) (ix2 (0 : Fin 1) j) := by
  obtain ⟨e00, e01, e10, e11, e20, e21, e30, e31, e40, e41⟩ := idx_facts0 t
  show V c (Pipeline.arrRef spec0 2) (((cfg0.win 2).blk t).view.emb (ix2 (0 : Fin 1) j)) = _
  refine congrArg _ (funext fun a => Fin.ext ?_)
  match a with
  | ⟨0, _⟩ => show win0_2.index t (0 : Fin 2) * 1 + 1 * 0 = 0; omega
  | ⟨1, _⟩ => show win0_2.index t (1 : Fin 2) * 101 + 1 * j.val = j.val; omega

/-- Row `r` of point `t`'s block of the gathered rows is row `6400 t + r` of the array. -/
private theorem blk0_3_apply (c : Dev nD) (t : Fin cfg0.N) (r : Fin 6400) (q : Fin 101) (h : 6400 * t.val + r.val < 800000) :
    (iblk0 V c 3 t : Vec Ideal S6400x101 .f32) (ix2 r q)
      = (V c (Pipeline.arrRef spec0 3) : FVec Ideal S800000x101 .f32) (ix2 (⟨6400 * t.val + r.val, h⟩ : Fin 800000) q) := by
  obtain ⟨e00, e01, e10, e11, e20, e21, e30, e31, e40, e41⟩ := idx_facts0 t
  show V c (Pipeline.arrRef spec0 3) (((cfg0.win 3).blk t).view.emb (ix2 r q)) = _
  refine congrArg _ (funext fun a => Fin.ext ?_)
  match a with
  | ⟨0, _⟩ => show win0_3.index t (0 : Fin 2) * 6400 + 1 * r.val = 6400 * t.val + r.val; omega
  | ⟨1, _⟩ => show win0_3.index t (1 : Fin 2) * 101 + 1 * q.val = q.val; omega

/-- What point `t` writes back is block `t` of the edge message of the entry arrays. -/
private theorem flushed0_eq (c : Dev nD) (t : Fin cfg0.N) :
    (dat0 (F := Ideal) V c).flushed 4 t = ((cfg0.win 4).blk t).view.read (Elt Ideal)
      (Cert.Spec.edgeMsg (V c (Pipeline.arrRef spec0 0)) (V c (Pipeline.arrRef spec0 1))
        (Cert.Spec.row0 (V c (Pipeline.arrRef spec0 2))) (V c (Pipeline.arrRef spec0 3))) := by
  show (cfg0.win 4).cut (grid0.coords t) ((dat0 V c).after 4 t) = _
  rw [after0_4]
  unfold out0_4
  rw [View.canon_unit_zero hz]
  simp only [View.ld_unit_zero (S := S6400x101) hz, View.ld_unit_zero (S := S101x101) hz, View.ld_unit_zero (S := S1x101) hz]
  obtain ⟨e00, e01, e10, e11, e20, e21, e30, e31, e40, e41⟩ := idx_facts0 t
  have ht : t.val < 125 := lt_of_lt_of_eq t.isLt N_0
  funext y
  obtain ⟨r, j, rfl⟩ : ∃ (r : Fin 6400) (j : Fin 101), y = ix2 r j := ⟨y 0, y 1, eq_ix2 y⟩
  have hR : 6400 * t.val + r.val < 800000 := by have := r.isLt; omega
  show k0_pay1 (iblk0 V c 0 t) (iblk0 V c 1 t) (iblk0 V c 2 t) (iblk0 V c 3 t) (ix2 r j)
    = Cert.Spec.edgeMsg _ _ _ _ (((cfg0.win 4).blk t).view.emb (ix2 r j))
  have hemb : ((cfg0.win 4).blk t).view.emb (ix2 r j) = ix2 (⟨6400 * t.val + r.val, hR⟩ : Fin 800000) j := by
    funext a; apply Fin.ext
    match a with
    | ⟨0, _⟩ => show win0_4.index t (0 : Fin 2) * 6400 + 1 * r.val = 6400 * t.val + r.val; omega
    | ⟨1, _⟩ => show win0_4.index t (1 : Fin 2) * 101 + 1 * j.val = j.val; omega
  rw [hemb]
  exact pay_blk _ _ _ _ _ _ _ _ r j _ (fun q => blk0_0_apply V c t r q hR) (fun q => blk0_1_apply V c t q j)
    (blk0_2_apply V c t j) (blk0_3_apply V c t r j hR)

/-- An index of the array is in point `t`'s block iff each coordinate is in the block's range on its axis. -/
private theorem mem_blk0 (t : Fin cfg0.N) (i : S800000x101.Idx) :
    i ∈ ((cfg0.win 4).blk t).view.set ↔ ∀ a : Fin 2, win0_4.index t a * S6400x101.size a ≤ (i a).val
      ∧ (i a).val < win0_4.index t a * S6400x101.size a + S6400x101.size a := by
  show i ∈ ((View.whole main_v6).slice (win0_4.rect t)).set ↔ _
  rw [View.set_slice_whole, Rect.mem_set_unit]
  exact Iff.rfl

/-- The 125 row blocks tile the rows: row `i` is in the block of point `i / 6400`. -/
private theorem cover0 (i : S800000x101.Idx) :
    ∃ t : Fin cfg0.N, (cfg0.win 4).flush t = true ∧ i ∈ ((cfg0.win 4).blk t).view.set := by
  have hi0 : (i 0).val < 800000 := (i 0).isLt
  have hi1 : (i 1).val < 101 := (i 1).isLt
  have hN : (i 0).val / 6400 < cfg0.N := lt_of_lt_of_eq (by omega : (i 0).val / 6400 < 125) N_0.symm
  refine ⟨⟨(i 0).val / 6400, hN⟩, flush0_4 _, ?_⟩
  obtain ⟨e00, e01, e10, e11, e20, e21, e30, e31, e40, e41⟩ := idx_facts0 ⟨(i 0).val / 6400, hN⟩
  rw [mem_blk0]
  intro a
  match a with
  | ⟨0, _⟩ =>
    show win0_4.index ⟨(i 0).val / 6400, hN⟩ (0 : Fin 2) * 6400 ≤ (i 0).val
      ∧ (i 0).val < win0_4.index ⟨(i 0).val / 6400, hN⟩ (0 : Fin 2) * 6400 + 6400
    rw [e40]; show (i 0).val / 6400 * 6400 ≤ (i 0).val ∧ (i 0).val < (i 0).val / 6400 * 6400 + 6400; omega
  | ⟨1, _⟩ =>
    show win0_4.index ⟨(i 0).val / 6400, hN⟩ (1 : Fin 2) * 101 ≤ (i 1).val
      ∧ (i 1).val < win0_4.index ⟨(i 0).val / 6400, hN⟩ (1 : Fin 2) * 101 + 101
    rw [e41]; omega

/-- Launch 0: the message array is the edge message of the entry arrays (edge attributes, weights, bias row, gathered rows). -/
theorem final0 (c : Dev nD) :
    (dat0 (F := Ideal) V c).arrAt 4 cfg0.N =
      Cert.Spec.edgeMsg (V c (Pipeline.arrRef spec0 0)) (V c (Pipeline.arrRef spec0 1))
        (Cert.Spec.row0 (V c (Pipeline.arrRef spec0 2))) (V c (Pipeline.arrRef spec0 3)) :=
  (dat0 (F := Ideal) V c).arrAt_eq_of_cover 4 _ (fun t _ => flushed0_eq V c t) cover0

/-! ## Launch 2: the same kernel function at the same shapes -/

/-- The third launch's body is the first's, term for term. -/
private theorem pay2_eq (x0 : Vec Ideal S6400x101 .f32) (x1 : Vec Ideal S101x101 .f32) (x2 : Vec Ideal S1x101 .f32)
    (x3 : Vec Ideal S6400x101 .f32) : k2_pay1 (F := Ideal) x0 x1 x2 x3 = k0_pay1 x0 x1 x2 x3 := rfl

/-! ## Launch 2: from the blocks to the array -/

/-- The printed index maps, decided over the grid: the row-blocked windows sit at block row `t`, the weight matrix and
    the bias row at their one block. -/
private theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- Row `r` of point `t`'s block of the edge attributes is row `6400 t + r` of the array. -/
private theorem blk2_0_apply (c : Dev nD) (t : Fin cfg2.N) (r : Fin 6400) (q : Fin 101) (h : 6400 * t.val + r.val < 800000) :
    (iblk2 V c 0 t : Vec Ideal S6400x101 .f32) (ix2 r q)
      = (V c (Pipeline.arrRef spec2 0) : FVec Ideal S800000x101 .f32) (ix2 (⟨6400 * t.val + r.val, h⟩ : Fin 800000) q) := by
  obtain ⟨e00, e01, e10, e11, e20, e21, e30, e31, e40, e41⟩ := idx_facts2 t
  show V c (Pipeline.arrRef spec2 0) (((cfg2.win 0).blk t).view.emb (ix2 r q)) = _
  refine congrArg _ (funext fun a => Fin.ext ?_)
  match a with
  | ⟨0, _⟩ => show win2_0.index t (0 : Fin 2) * 6400 + 1 * r.val = 6400 * t.val + r.val; omega
  | ⟨1, _⟩ => show win2_0.index t (1 : Fin 2) * 101 + 1 * q.val = q.val; omega

/-- Every point's block of the weight matrix is the matrix. -/
private theorem blk2_1_apply (c : Dev nD) (t : Fin cfg2.N) (q j : Fin 101) :
    (iblk2 V c 1 t : Vec Ideal S101x101 .f32) (ix2 q j)
      = (V c (Pipeline.arrRef spec2 1) : FVec Ideal S101x101 .f32) (ix2 q j) := by
  obtain ⟨e00, e01, e10, e11, e20, e21, e30, e31, e40, e41⟩ := idx_facts2 t
  show V c (Pipeline.arrRef spec2 1) (((cfg2.win 1).blk t).view.emb (ix2 q j)) = _
  refine congrArg _ (funext fun a => Fin.ext ?_)
  match a with
  | ⟨0, _⟩ => show win2_1.index t (0 : Fin 2) * 101 + 1 * q.val = q.val; omega
  | ⟨1, _⟩ => show win2_1.index t (1 : Fin 2) * 101 + 1 * j.val = j.val; omega

/-- Every point's block of the bias row is the row. -/
private theorem blk2_2_apply (c : Dev nD) (t : Fin cfg2.N) (j : Fin 101) :
    (iblk2 V c 2 t : Vec Ideal S1x101 .f32) (ix2 (0 : Fin 1) j)
      = (V c (Pipeline.arrRef spec2 2) : FVec Ideal S1x101 .f32) (ix2 (0 : Fin 1) j) := by
  obtain ⟨e00, e01, e10, e11, e20, e21, e30, e31, e40, e41⟩ := idx_facts2 t
  show V c (Pipeline.arrRef spec2 2) (((cfg2.win 2).blk t).view.emb (ix2 (0 : Fin 1) j)) = _
  refine congrArg _ (funext fun a => Fin.ext ?_)
  match a with
  | ⟨0, _⟩ => show win2_2.index t (0 : Fin 2) * 1 + 1 * 0 = 0; omega
  | ⟨1, _⟩ => show win2_2.index t (1 : Fin 2) * 101 + 1 * j.val = j.val; omega

/-- Row `r` of point `t`'s block of the gathered rows is row `6400 t + r` of the array. -/
private theorem blk2_3_apply (c : Dev nD) (t : Fin cfg2.N) (r : Fin 6400) (q : Fin 101) (h : 6400 * t.val + r.val < 800000) :
    (iblk2 V c 3 t : Vec Ideal S6400x101 .f32) (ix2 r q)
      = (V c (Pipeline.arrRef spec2 3) : FVec Ideal S800000x101 .f32) (ix2 (⟨6400 * t.val + r.val, h⟩ : Fin 800000) q) := by
  obtain ⟨e00, e01, e10, e11, e20, e21, e30, e31, e40, e41⟩ := idx_facts2 t
  show V c (Pipeline.arrRef spec2 3) (((cfg2.win 3).blk t).view.emb (ix2 r q)) = _
  refine congrArg _ (funext fun a => Fin.ext ?_)
  match a with
  | ⟨0, _⟩ => show win2_3.index t (0 : Fin 2) * 6400 + 1 * r.val = 6400 * t.val + r.val; omega
  | ⟨1, _⟩ => show win2_3.index t (1 : Fin 2) * 101 + 1 * q.val = q.val; omega

/-- What point `t` writes back is block `t` of the edge message of the entry arrays. -/
private theorem flushed2_eq (c : Dev nD) (t : Fin cfg2.N) :
    (dat2 (F := Ideal) V c).flushed 4 t = ((cfg2.win 4).blk t).view.read (Elt Ideal)
      (Cert.Spec.edgeMsg (V c (Pipeline.arrRef spec2 0)) (V c (Pipeline.arrRef spec2 1))
        (Cert.Spec.row0 (V c (Pipeline.arrRef spec2 2))) (V c (Pipeline.arrRef spec2 3))) := by
  show (cfg2.win 4).cut (grid2.coords t) ((dat2 V c).after 4 t) = _
  rw [after2_4]
  unfold out2_4
  rw [View.canon_unit_zero hz]
  simp only [View.ld_unit_zero (S := S6400x101) hz, View.ld_unit_zero (S := S101x101) hz, View.ld_unit_zero (S := S1x101) hz]
  obtain ⟨e00, e01, e10, e11, e20, e21, e30, e31, e40, e41⟩ := idx_facts2 t
  have ht : t.val < 125 := lt_of_lt_of_eq t.isLt N_2
  funext y
  obtain ⟨r, j, rfl⟩ : ∃ (r : Fin 6400) (j : Fin 101), y = ix2 r j := ⟨y 0, y 1, eq_ix2 y⟩
  have hR : 6400 * t.val + r.val < 800000 := by have := r.isLt; omega
  show k2_pay1 (iblk2 V c 0 t) (iblk2 V c 1 t) (iblk2 V c 2 t) (iblk2 V c 3 t) (ix2 r j)
    = Cert.Spec.edgeMsg _ _ _ _ (((cfg2.win 4).blk t).view.emb (ix2 r j))
  have hemb : ((cfg2.win 4).blk t).view.emb (ix2 r j) = ix2 (⟨6400 * t.val + r.val, hR⟩ : Fin 800000) j := by
    funext a; apply Fin.ext
    match a with
    | ⟨0, _⟩ => show win2_4.index t (0 : Fin 2) * 6400 + 1 * r.val = 6400 * t.val + r.val; omega
    | ⟨1, _⟩ => show win2_4.index t (1 : Fin 2) * 101 + 1 * j.val = j.val; omega
  rw [hemb, pay2_eq]
  exact pay_blk _ _ _ _ _ _ _ _ r j _ (fun q => blk2_0_apply V c t r q hR) (fun q => blk2_1_apply V c t q j)
    (blk2_2_apply V c t j) (blk2_3_apply V c t r j hR)

/-- An index of the array is in point `t`'s block iff each coordinate is in the block's range on its axis. -/
private theorem mem_blk2 (t : Fin cfg2.N) (i : S800000x101.Idx) :
    i ∈ ((cfg2.win 4).blk t).view.set ↔ ∀ a : Fin 2, win2_4.index t a * S6400x101.size a ≤ (i a).val
      ∧ (i a).val < win2_4.index t a * S6400x101.size a + S6400x101.size a := by
  show i ∈ ((View.whole main_v15).slice (win2_4.rect t)).set ↔ _
  rw [View.set_slice_whole, Rect.mem_set_unit]
  exact Iff.rfl

/-- The 125 row blocks tile the rows: row `i` is in the block of point `i / 6400`. -/
private theorem cover2 (i : S800000x101.Idx) :
    ∃ t : Fin cfg2.N, (cfg2.win 4).flush t = true ∧ i ∈ ((cfg2.win 4).blk t).view.set := by
  have hi0 : (i 0).val < 800000 := (i 0).isLt
  have hi1 : (i 1).val < 101 := (i 1).isLt
  have hN : (i 0).val / 6400 < cfg2.N := lt_of_lt_of_eq (by omega : (i 0).val / 6400 < 125) N_2.symm
  refine ⟨⟨(i 0).val / 6400, hN⟩, flush2_4 _, ?_⟩
  obtain ⟨e00, e01, e10, e11, e20, e21, e30, e31, e40, e41⟩ := idx_facts2 ⟨(i 0).val / 6400, hN⟩
  rw [mem_blk2]
  intro a
  match a with
  | ⟨0, _⟩ =>
    show win2_4.index ⟨(i 0).val / 6400, hN⟩ (0 : Fin 2) * 6400 ≤ (i 0).val
      ∧ (i 0).val < win2_4.index ⟨(i 0).val / 6400, hN⟩ (0 : Fin 2) * 6400 + 6400
    rw [e40]; show (i 0).val / 6400 * 6400 ≤ (i 0).val ∧ (i 0).val < (i 0).val / 6400 * 6400 + 6400; omega
  | ⟨1, _⟩ =>
    show win2_4.index ⟨(i 0).val / 6400, hN⟩ (1 : Fin 2) * 101 ≤ (i 1).val
      ∧ (i 1).val < win2_4.index ⟨(i 0).val / 6400, hN⟩ (1 : Fin 2) * 101 + 101
    rw [e41]; omega

/-- Launch 2: the same kernel at the second layer's arrays. -/
theorem final2 (c : Dev nD) :
    (dat2 (F := Ideal) V c).arrAt 4 cfg2.N =
      Cert.Spec.edgeMsg (V c (Pipeline.arrRef spec2 0)) (V c (Pipeline.arrRef spec2 1))
        (Cert.Spec.row0 (V c (Pipeline.arrRef spec2 2))) (V c (Pipeline.arrRef spec2 3)) :=
  (dat2 (F := Ideal) V c).arrAt_eq_of_cover 4 _ (fun t _ => flushed2_eq V c t) cover2

end Cert.KernelIdeal.EdgeK

end
-- ==== Proof.NodeK1.lean ====
/-
  The first node-update region (the second launch): after the grid has run, the output array is the node update
  `Cert.Spec.nodeMlp` of the arrays the region was entered with. Point `t` of 25 stages rows `2000 t … 2000 t + 1999`
  of the node features and of the aggregated messages, both weight matrices and both bias rows whole; the 25 row
  blocks tile the 50000 rows.
-/
import proofs.«427209_j57208964382753_2_alg».proof.Proof.Gen.KernelIdeal.Frame
import proofs.«427209_j57208964382753_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.NodeK1

open Cert.KernelIdeal Cert.KernelIdeal.Gen
open Idealize.ShloMosaic Idealize.ShloMosaic.TcCoe Idealize.ShloMosaic.ValueIdx Idealize.SL.Sem
open Idealize.ShloMosaic.Pipeline (Dat)

-- the TensorCore's buffer contents when the region is entered: every statement below holds at any such contents
variable (V : (c : Dev nD) → (b : Ref sig .tc) → Buf (Elt Ideal) ((c : Thread nD τ).loc b))

/-! ## The body's arithmetic at an entry -/

/-- Operand index of the left factor, row axis: the output's row. -/
theorem lhs_mm_0 (i : S2000x101.Idx) (q : dot_S2000x101_S101x101_S2000x101_1_0_0_1_n_n.contr.Idx) :
    (dot_S2000x101_S101x101_S2000x101_1_0_0_1_n_n.lhsIdx i q 0).val = (i 0).val := by
  unfold DotDims.lhsIdx
  rw [dif_neg (show ¬(0 : Fin S2000x101.rank) ∈ dot_S2000x101_S101x101_S2000x101_1_0_0_1_n_n.lhsBatch by decide), dif_pos (show (0 : Fin S2000x101.rank) ∈ dot_S2000x101_S101x101_S2000x101_1_0_0_1_n_n.lhsNonContracting by decide)]
  rfl
theorem lhs_mm_1 (i : S2000x101.Idx) (q : dot_S2000x101_S101x101_S2000x101_1_0_0_1_n_n.contr.Idx) :
    (dot_S2000x101_S101x101_S2000x101_1_0_0_1_n_n.lhsIdx i q 1).val = (q ⟨0, by decide⟩).val :=
  dot_S2000x101_S101x101_S2000x101_1_0_0_1_n_n.lhsIdx_val_of_single rfl i q
theorem rhs_mm_0 (i : S2000x101.Idx) (q : dot_S2000x101_S101x101_S2000x101_1_0_0_1_n_n.contr.Idx) :
    (dot_S2000x101_S101x101_S2000x101_1_0_0_1_n_n.rhsIdx i q 0).val = (q ⟨0, by decide⟩).val :=
  dot_S2000x101_S101x101_S2000x101_1_0_0_1_n_n.rhsIdx_val_of_single rfl i q
theorem rhs_mm_1 (i : S2000x101.Idx) (q : dot_S2000x101_S101x101_S2000x101_1_0_0_1_n_n.contr.Idx) :
    (dot_S2000x101_S101x101_S2000x101_1_0_0_1_n_n.rhsIdx i q 1).val = (i 1).val := by
  unfold DotDims.rhsIdx
  rw [dif_neg (show ¬(1 : Fin S101x101.rank) ∈ dot_S2000x101_S101x101_S2000x101_1_0_0_1_n_n.rhsBatch by decide), dif_pos (show (1 : Fin S101x101.rank) ∈ dot_S2000x101_S101x101_S2000x101_1_0_0_1_n_n.rhsNonContracting by decide)]
  rfl

/-- The product into the zero accumulator, entry by entry: row of the left factor times column of the right. -/
theorem matmul_at {φ₁ φ₂ : FTy} (a : FVec Ideal S2000x101 φ₁) (w : FVec Ideal S101x101 φ₂) (r : Fin 2000) (j : Fin 101) :
    matmul dot_S2000x101_S101x101_S2000x101_1_0_0_1_n_n none a w (constant (F := Ideal) S2000x101 .f32 0x00000000#32) (ix2 r j)
      = ∑ k : Fin 101, a (ix2 r k) * w (ix2 k j) := by
  refine (Ideal.matmul_constant_zero_apply dot_S2000x101_S101x101_S2000x101_1_0_0_1_n_n none a w (ix2 r j)).trans ?_
  rw [← Equiv.sum_comp (ValueIdx.contrEquiv1 dot_S2000x101_S101x101_S2000x101_1_0_0_1_n_n 101 rfl rfl).symm]
  refine Finset.sum_congr rfl fun k _ => ?_
  have hk := ValueIdx.contrEquiv1_symm_val dot_S2000x101_S101x101_S2000x101_1_0_0_1_n_n 101 rfl rfl k
  have el : dot_S2000x101_S101x101_S2000x101_1_0_0_1_n_n.lhsIdx (ix2 r j) ((ValueIdx.contrEquiv1 dot_S2000x101_S101x101_S2000x101_1_0_0_1_n_n 101 rfl rfl).symm k) = ix2 r k := funext fun a => Fin.ext (by
    match a with
    | ⟨0, _⟩ => exact lhs_mm_0 _ _
    | ⟨1, _⟩ => exact (lhs_mm_1 _ _).trans hk)
  have er : dot_S2000x101_S101x101_S2000x101_1_0_0_1_n_n.rhsIdx (ix2 r j) ((ValueIdx.contrEquiv1 dot_S2000x101_S101x101_S2000x101_1_0_0_1_n_n 101 rfl rfl).symm k) = ix2 k j := funext fun a => Fin.ext (by
    match a with
    | ⟨0, _⟩ => exact (rhs_mm_0 _ _).trans hk
    | ⟨1, _⟩ => exact rhs_mm_1 _ _)
  rw [el, er]

/-- A bias row broadcast down the rows reads the row's entry of the same column. -/
theorem bias_at (b : FVec Ideal S1x101 .f32) (r : Fin 2000) (j : Fin 101) :
    broadcastTo S2000x101 b broadcasts_S1x101_S2000x101 (ix2 r j) = b (ix2 (0 : Fin 1) j) := by
  refine broadcastTo_apply b broadcasts_S1x101_S2000x101 (ix2 r j) (ix2 (0 : Fin 1) j) (fun a => ?_)
  match a with
  | ⟨0, _⟩ => rfl
  | ⟨1, _⟩ => rfl

/-- The body's arithmetic at an entry: two dense layers on the sum of the two row blocks, each rectified. -/
theorem pay_at (x0 x1 : Vec Ideal S2000x101 .f32) (wa : Vec Ideal S101x101 .f32) (ba : Vec Ideal S1x101 .f32)
    (wb : Vec Ideal S101x101 .f32) (bb : Vec Ideal S1x101 .f32) (r : Fin 2000) (j : Fin 101) :
    k1_pay1 (F := Ideal) x0 x1 wa ba wb bb (ix2 r j)
      = max ((∑ q : Fin 101, max ((∑ k : Fin 101, (x0 (ix2 r k) + x1 (ix2 r k)) * wa (ix2 k q)) + ba (ix2 (0 : Fin 1) q)) 0
              * wb (ix2 q j)) + bb (ix2 (0 : Fin 1) j)) 0 := by
  unfold k1_pay1
  simp only [maximumf_apply, addf_apply, broadcast_apply, truncf_apply, matmul_at, bias_at, shapeCast_self, Ideal.ofBits_def,
    Ideal.ofBits_zero_f32]

/-- The block's arithmetic, entry by entry, is the node update of the whole arrays at the row the block's row sits at:
    whenever row `r` of the two row blocks is row `R` of the whole arrays and the weights and bias rows are the whole ones. -/
theorem block_eq (x agg : FVec Ideal S50000x101 .f32) (wa : FVec Ideal S101x101 .f32) (ba : FVec Ideal S1x101 .f32)
    (wb : FVec Ideal S101x101 .f32) (bb : FVec Ideal S1x101 .f32)
    (x0 x1 : Vec Ideal S2000x101 .f32) (w2 : Vec Ideal S101x101 .f32) (w3 : Vec Ideal S1x101 .f32)
    (w4 : Vec Ideal S101x101 .f32) (w5 : Vec Ideal S1x101 .f32) (r : Fin 2000) (j : Fin 101) (R : Fin 50000)
    (h0 : ∀ k : Fin 101, x0 (ix2 r k) = x (ix2 R k)) (h1 : ∀ k : Fin 101, x1 (ix2 r k) = agg (ix2 R k))
    (h2 : ∀ k q : Fin 101, w2 (ix2 k q) = wa (ix2 k q)) (h3 : ∀ q : Fin 101, w3 (ix2 (0 : Fin 1) q) = ba (ix2 (0 : Fin 1) q))
    (h4 : ∀ k q : Fin 101, w4 (ix2 k q) = wb (ix2 k q)) (h5 : ∀ q : Fin 101, w5 (ix2 (0 : Fin 1) q) = bb (ix2 (0 : Fin 1) q)) :
    k1_pay1 (F := Ideal) x0 x1 w2 w3 w4 w5 (ix2 r j)
      = Cert.Spec.nodeMlp x agg wa (Cert.Spec.row0 ba) wb (Cert.Spec.row0 bb) (ix2 R j) := by
  rw [pay_at]
  simp only [h0, h1, h2, h3, h4, h5]
  rfl

/-! ## From the blocks to the array -/

theorem hz : (![0, 0] : Fin 2 → Nat) = fun _ => 0 := funext fun a => by fin_cases a <;> rfl

/-- The index maps over the grid: the three row-blocked windows sit at block row `t`, block column 0; the weights and the
    bias rows are staged whole, at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row `r` of point `t`'s block of the node features is row `2000 t + r` of the array. -/
theorem blk0_at (c : Dev nD) (t : Fin cfg1.N) (r : Fin 2000) (k : Fin 101) (R : Fin 50000) (hR : R.val = 2000 * t.val + r.val) :
    iblk1 V c 0 t (ix2 r k) = V c (Pipeline.arrRef spec1 0) (ix2 R k) := by
  obtain ⟨e0, e1, -⟩ := idx_facts t
  show V c (Pipeline.arrRef spec1 0) (((cfg1.win 0).blk t).view.emb (ix2 r k)) = V c (Pipeline.arrRef spec1 0) (ix2 R k)
  have h : ((cfg1.win 0).blk t).view.emb (ix2 r k) = ix2 R k := by
    funext a; apply Fin.ext
    match a with
    | ⟨0, _⟩ => show win1_0.index t (0 : Fin 2) * 2000 + 1 * r.val = R.val; omega
    | ⟨1, _⟩ => show win1_0.index t (1 : Fin 2) * 101 + 1 * k.val = k.val; omega
  rw [h]

/-- Row `r` of point `t`'s block of the aggregate is row `2000 t + r` of the array. -/
theorem blk1_at (c : Dev nD) (t : Fin cfg1.N) (r : Fin 2000) (k : Fin 101) (R : Fin 50000) (hR : R.val = 2000 * t.val + r.val) :
    iblk1 V c 1 t (ix2 r k) = V c (Pipeline.arrRef spec1 1) (ix2 R k) := by
  obtain ⟨-, -, e0, e1, -⟩ := idx_facts t
  show V c (Pipeline.arrRef spec1 1) (((cfg1.win 1).blk t).view.emb (ix2 r k)) = V c (Pipeline.arrRef spec1 1) (ix2 R k)
  have h : ((cfg1.win 1).blk t).view.emb (ix2 r k) = ix2 R k := by
    funext a; apply Fin.ext
    match a with
    | ⟨0, _⟩ => show win1_1.index t (0 : Fin 2) * 2000 + 1 * r.val = R.val; omega
    | ⟨1, _⟩ => show win1_1.index t (1 : Fin 2) * 101 + 1 * k.val = k.val; omega
  rw [h]

/-- The first weight matrix is staged whole. -/
theorem blk2_at (c : Dev nD) (t : Fin cfg1.N) (k q : Fin 101) :
    iblk1 V c 2 t (ix2 k q) = V c (Pipeline.arrRef spec1 2) (ix2 k q) := by
  obtain ⟨-, -, -, -, e0, e1, -⟩ := idx_facts t
  show V c (Pipeline.arrRef spec1 2) (((cfg1.win 2).blk t).view.emb (ix2 k q)) = V c (Pipeline.arrRef spec1 2) (ix2 k q)
  have h : ((cfg1.win 2).blk t).view.emb (ix2 k q) = ix2 k q := by
    funext a; apply Fin.ext
    match a with
    | ⟨0, _⟩ => show win1_2.index t (0 : Fin 2) * 101 + 1 * k.val = k.val; omega
    | ⟨1, _⟩ => show win1_2.index t (1 : Fin 2) * 101 + 1 * q.val = q.val; omega
  rw [h]

/-- The first bias row is staged whole. -/
theorem blk3_at (c : Dev nD) (t : Fin cfg1.N) (q : Fin 101) :
    iblk1 V c 3 t (ix2 (0 : Fin 1) q) = V c (Pipeline.arrRef spec1 3) (ix2 (0 : Fin 1) q) := by
  obtain ⟨-, -, -, -, -, -, e0, e1, -⟩ := idx_facts t
  show V c (Pipeline.arrRef spec1 3) (((cfg1.win 3).blk t).view.emb (ix2 (0 : Fin 1) q)) = V c (Pipeline.arrRef spec1 3) (ix2 (0 : Fin 1) q)
  have h : ((cfg1.win 3).blk t).view.emb (ix2 (0 : Fin 1) q) = ix2 (0 : Fin 1) q := by
    funext a; apply Fin.ext
    match a with
    | ⟨0, _⟩ => show win1_3.index t (0 : Fin 2) * 1 + 1 * 0 = 0; omega
    | ⟨1, _⟩ => show win1_3.index t (1 : Fin 2) * 101 + 1 * q.val = q.val; omega
  rw [h]

/-- The second weight matrix is staged whole. -/
theorem blk4_at (c : Dev nD) (t : Fin cfg1.N) (k q : Fin 101) :
    iblk1 V c 4 t (ix2 k q) = V c (Pipeline.arrRef spec1 4) (ix2 k q) := by
  obtain ⟨-, -, -, -, -, -, -, -, e0, e1, -⟩ := idx_facts t
  show V c (Pipeline.arrRef spec1 4) (((cfg1.win 4).blk t).view.emb (ix2 k q)) = V c (Pipeline.arrRef spec1 4) (ix2 k q)
  have h : ((cfg1.win 4).blk t).view.emb (ix2 k q) = ix2 k q := by
    funext a; apply Fin.ext
    match a with
    | ⟨0, _⟩ => show win1_4.index t (0 : Fin 2) * 101 + 1 * k.val = k.val; omega
    | ⟨1, _⟩ => show win1_4.index t (1 : Fin 2) * 101 + 1 * q.val = q.val; omega
  rw [h]

/-- The second bias row is staged whole. -/
theorem blk5_at (c : Dev nD) (t : Fin cfg1.N) (q : Fin 101) :
    iblk1 V c 5 t (ix2 (0 : Fin 1) q) = V c (Pipeline.arrRef spec1 5) (ix2 (0 : Fin 1) q) := by
  obtain ⟨-, -, -, -, -, -, -, -, -, -, e0, e1, -⟩ := idx_facts t
  show V c (Pipeline.arrRef spec1 5) (((cfg1.win 5).blk t).view.emb (ix2 (0 : Fin 1) q)) = V c (Pipeline.arrRef spec1 5) (ix2 (0 : Fin 1) q)
  have h : ((cfg1.win 5).blk t).view.emb (ix2 (0 : Fin 1) q) = ix2 (0 : Fin 1) q := by
    funext a; apply Fin.ext
    match a with
    | ⟨0, _⟩ => show win1_5.index t (0 : Fin 2) * 1 + 1 * 0 = 0; omega
    | ⟨1, _⟩ => show win1_5.index t (1 : Fin 2) * 101 + 1 * q.val = q.val; omega
  rw [h]

/-- What point `t` writes back is block `t` of the node update of the entry arrays. -/
theorem flushed_eq (c : Dev nD) (t : Fin cfg1.N) :
    (dat1 (F := Ideal) V c).flushed 6 t = ((cfg1.win 6).blk t).view.read (Elt Ideal)
      (Cert.Spec.nodeMlp (V c (Pipeline.arrRef spec1 0)) (V c (Pipeline.arrRef spec1 1))
        (V c (Pipeline.arrRef spec1 2)) (Cert.Spec.row0 (V c (Pipeline.arrRef spec1 3)))
        (V c (Pipeline.arrRef spec1 4)) (Cert.Spec.row0 (V c (Pipeline.arrRef spec1 5)))) := by
  show (cfg1.win 6).cut (grid1.coords t) ((dat1 (F := Ideal) V c).after 6 t) = _
  rw [after1_6]
  unfold out1_6
  rw [View.canon_unit_zero hz]
  simp only [View.ld_unit_zero (S := S2000x101) hz, View.ld_unit_zero (S := S101x101) hz, View.ld_unit_zero (S := S1x101) hz]
  funext y
  obtain ⟨r, j, rfl⟩ : ∃ (r : Fin 2000) (j : Fin 101), y = ix2 r j := ⟨y 0, y 1, eq_ix2 y⟩
  have hN : cfg1.N = 25 := N_1
  have hlt : 2000 * t.val + r.val < 50000 := by have := t.isLt; have := r.isLt; omega
  obtain ⟨-, -, -, -, -, -, -, -, -, -, -, -, e0, e1⟩ := idx_facts t
  have h6 : ((cfg1.win 6).blk t).view.emb (ix2 r j) = ix2 (⟨2000 * t.val + r.val, hlt⟩ : Fin 50000) j := by
    funext a; apply Fin.ext
    match a with
    | ⟨0, _⟩ => show win1_6.index t (0 : Fin 2) * 2000 + 1 * r.val = 2000 * t.val + r.val; omega
    | ⟨1, _⟩ => show win1_6.index t (1 : Fin 2) * 101 + 1 * j.val = j.val; omega
  show k1_pay1 (F := Ideal) (iblk1 V c 0 t) (iblk1 V c 1 t) (iblk1 V c 2 t) (iblk1 V c 3 t) (iblk1 V c 4 t) (iblk1 V c 5 t) (ix2 r j)
    = Cert.Spec.nodeMlp (V c (Pipeline.arrRef spec1 0)) (V c (Pipeline.arrRef spec1 1))
        (V c (Pipeline.arrRef spec1 2)) (Cert.Spec.row0 (V c (Pipeline.arrRef spec1 3)))
        (V c (Pipeline.arrRef spec1 4)) (Cert.Spec.row0 (V c (Pipeline.arrRef spec1 5))) (((cfg1.win 6).blk t).view.emb (ix2 r j))
  rw [h6]
  exact block_eq (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5))
    (iblk1 V c 0 t) (iblk1 V c 1 t) (iblk1 V c 2 t) (iblk1 V c 3 t) (iblk1 V c 4 t) (iblk1 V c 5 t) r j ⟨2000 * t.val + r.val, hlt⟩
    (fun k => blk0_at V c t r k _ rfl) (fun k => blk1_at V c t r k _ rfl) (fun k q => blk2_at V c t k q) (fun q => blk3_at V c t q)
    (fun k q => blk4_at V c t k q) (fun q => blk5_at V c t q)

/-- An index of the output array is in point `t`'s block iff each coordinate is in the block's range on its axis. -/
theorem mem_blk (t : Fin cfg1.N) (i : S50000x101.Idx) :
    i ∈ ((cfg1.win 6).blk t).view.set ↔ ∀ a : Fin 2, win1_6.index t a * S2000x101.size a ≤ (i a).val ∧ (i a).val < win1_6.index t a * S2000x101.size a + S2000x101.size a := by
  show i ∈ ((View.whole main_v12).slice (win1_6.rect t)).set ↔ _
  rw [View.set_slice_whole, Rect.mem_set_unit]
  exact Iff.rfl

/-- The 25 row blocks tile the 50000 rows: row `i` is in the block of point `i / 2000`. -/
theorem cover (i : S50000x101.Idx) : ∃ t : Fin cfg1.N, (cfg1.win 6).flush t = true ∧ i ∈ ((cfg1.win 6).blk t).view.set := by
  have hi0 : (i 0).val < 50000 := (i 0).isLt
  have hi1 : (i 1).val < 101 := (i 1).isLt
  have hN : cfg1.N = 25 := N_1
  obtain ⟨t, ht⟩ : ∃ t : Fin cfg1.N, t.val = (i 0).val / 2000 := ⟨⟨(i 0).val / 2000, by omega⟩, rfl⟩
  obtain ⟨-, -, -, -, -, -, -, -, -, -, -, -, e0, e1⟩ := idx_facts t
  refine ⟨t, flush1_6 t, ?_⟩
  rw [mem_blk]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 101 ≤ (i 1).val ∧ (i 1).val < win1_6.index t (1 : Fin 2) * 101 + 101; omega

/-- Launch 1: the output array is the node update of the entry arrays (features, aggregate, W_a, b_a row, W_b, b_b row). -/
theorem final1 (c : Dev nD) :
    (dat1 (F := Ideal) V c).arrAt 6 cfg1.N =
      Cert.Spec.nodeMlp (V c (Pipeline.arrRef spec1 0)) (V c (Pipeline.arrRef spec1 1))
        (V c (Pipeline.arrRef spec1 2)) (Cert.Spec.row0 (V c (Pipeline.arrRef spec1 3)))
        (V c (Pipeline.arrRef spec1 4)) (Cert.Spec.row0 (V c (Pipeline.arrRef spec1 5))) := by
  exact (dat1 (F := Ideal) V c).arrAt_eq_of_cover 6 _ (fun t _ => flushed_eq V c t) cover

end Cert.KernelIdeal.NodeK1

end
-- ==== Proof.FoldArgs.lean ====
/-
  Buffers that nothing rewrites read back through the segment boundaries. An argument of the program is written by no
  host operation and by no region (a region reads it through an input window or not at all), so at every boundary it
  holds the launch memory's contents. The edges' sources and destinations are written once, by the first host stretch
  (row 0 and row 1 of the edge list, reshaped), and the first layer's node features once, by the second launch; later
  boundaries hold them unchanged.
-/
import proofs.«427209_j57208964382753_2_alg».proof.Proof.Gen.KernelIdeal.Frame
import proofs.«427209_j57208964382753_2_alg».proof.Proof.HostMapsK
import Idealize.ShloMosaic.Lib.StableHlo.Run

set_option maxRecDepth 16384

noncomputable section

namespace Cert.KernelIdeal.FoldArgs

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-! ## What each host stretch writes, and one step of the fold at a buffer it does not write -/

/-- The buffers `hostOps0` writes. -/
private abbrev wr0 : List (Ref sig .tc) :=
  [main_v0, main_v1, main_v2, main_v3]
/-- The buffers `hostOps0_1` writes. -/
private abbrev wr0_1 : List (Ref sig .tc) :=
  [main_call0_c, main_call0_v0, main_call0_v1, main_call0_c_0, main_call0_v2, main_call0_v3, main_call0_v4,
   main_call0_v5, main_call0_c_1, main_call0_c_2, main_call0_v6, main_call0_v7, main_call0_v8, main_call0_v9,
   main_call0_v10, main_call0_v11, main_call0_c_3, main_call0_v12, main_call0_v13, main_call0_v14, main_call0_cst,
   main_call0_v15, main_v4]
/-- The buffers `hostOps0_2` writes. -/
private abbrev wr0_2 : List (Ref sig .tc) :=
  [main_v5]
/-- The buffers `hostOps1` writes. -/
private abbrev wr1 : List (Ref sig .tc) :=
  [main_cst, main_v7, main_v8, main_v9, main_v10, main_v11]
/-- The buffers `hostOps2` writes. -/
private abbrev wr2 : List (Ref sig .tc) :=
  [main_call1_c, main_call1_v0, main_call1_v1, main_call1_c_0, main_call1_v2, main_call1_v3, main_call1_v4,
   main_call1_v5, main_call1_c_1, main_call1_c_2, main_call1_v6, main_call1_v7, main_call1_v8, main_call1_v9,
   main_call1_v10, main_call1_v11, main_call1_c_3, main_call1_v12, main_call1_v13, main_call1_v14, main_call1_cst,
   main_call1_v15, main_v13]
/-- The buffers `hostOps2_1` writes. -/
private abbrev wr2_1 : List (Ref sig .tc) :=
  [main_v14]
/-- The buffers `hostOps3` writes. -/
private abbrev wr3 : List (Ref sig .tc) :=
  [main_cst_0, main_v16, main_v17, main_v18, main_v19, main_v20]
/-- The buffers `hostOps4` writes. -/
private abbrev wr4 : List (Ref sig .tc) :=
  [main_cst_1, main_v22, main_v23, main_v24, main_v25, main_v26]

/-- A host stretch leaves alone every buffer that is not the result of one of its operations. -/
local macro "host_keeps " s:ident hb:ident : tactic => `(tactic|
  exact StableHlo.after_of_forall_not_mem _ _ (List.forall_iff_forall_mem.mp (by
    simp only [$s:ident, List.flatten_cons, List.flatten_nil, List.append_nil, List.cons_append, List.nil_append,
      List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (fun e => $hb (by rw [e]; decide)))))

private theorem s1 (c : Dev nD) (b : Ref sig .tc) (hb : b ∉ wr0) :
    W1 m ρ c (Proc.devRef .tc b) = W0 m ρ c (Proc.devRef .tc b) := by
  host_keeps hostOps0 hb
private theorem s2 (c : Dev nD) (b : Ref sig .tc) (hb : b ∉ wr0_1) :
    W2 m ρ c (Proc.devRef .tc b) = W1 m ρ c (Proc.devRef .tc b) := by
  host_keeps hostOps0_1 hb
private theorem s3 (c : Dev nD) (b : Ref sig .tc) (hb : b ∉ wr0_2) :
    W3 m ρ c (Proc.devRef .tc b) = W2 m ρ c (Proc.devRef .tc b) := by
  host_keeps hostOps0_2 hb
private theorem s5 (c : Dev nD) (b : Ref sig .tc) (hb : b ∉ wr1) :
    W5 m ρ c (Proc.devRef .tc b) = W4 m ρ c (Proc.devRef .tc b) := by
  host_keeps hostOps1 hb
private theorem s7 (c : Dev nD) (b : Ref sig .tc) (hb : b ∉ wr2) :
    W7 m ρ c (Proc.devRef .tc b) = W6 m ρ c (Proc.devRef .tc b) := by
  host_keeps hostOps2 hb
private theorem s8 (c : Dev nD) (b : Ref sig .tc) (hb : b ∉ wr2_1) :
    W8 m ρ c (Proc.devRef .tc b) = W7 m ρ c (Proc.devRef .tc b) := by
  host_keeps hostOps2_1 hb
private theorem s10 (c : Dev nD) (b : Ref sig .tc) (hb : b ∉ wr3) :
    W10 m ρ c (Proc.devRef .tc b) = W9 m ρ c (Proc.devRef .tc b) := by
  host_keeps hostOps3 hb
private theorem s12 (c : Dev nD) (b : Ref sig .tc) (hb : b ∉ wr4) :
    W12 m ρ c (Proc.devRef .tc b) = W11 m ρ c (Proc.devRef .tc b) := by
  host_keeps hostOps4 hb

/-! ## A buffer that no stretch writes and no region has among its arrays holds the launch memory's contents -/

private theorem d1 (c : Dev nD) (b : Ref sig .tc) (h1 : b ∉ wr0) :
    W1 m ρ c (Proc.devRef .tc b) = m ((c : Thread nD τ).loc b) :=
  s1 m ρ c b h1
private theorem d2 (c : Dev nD) (b : Ref sig .tc) (h1 : b ∉ wr0) (h2 : b ∉ wr0_1) :
    W2 m ρ c (Proc.devRef .tc b) = m ((c : Thread nD τ).loc b) :=
  (s2 m ρ c b h2).trans (d1 m ρ c b h1)
private theorem d3 (c : Dev nD) (b : Ref sig .tc) (h1 : b ∉ wr0) (h2 : b ∉ wr0_1) (h3 : b ∉ wr0_2) :
    W3 m ρ c (Proc.devRef .tc b) = m ((c : Thread nD τ).loc b) :=
  (s3 m ρ c b h3).trans (d2 m ρ c b h1 h2)
private theorem d4 (c : Dev nD) (b : Ref sig .tc) (h1 : b ∉ wr0) (h2 : b ∉ wr0_1) (h3 : b ∉ wr0_2) (h4 : ∀ w, Pipeline.arrRef spec0 w ≠ b) :
    W4 m ρ c (Proc.devRef .tc b) = m ((c : Thread nD τ).loc b) :=
  (W4_of_ne m ρ c b h4).trans (d3 m ρ c b h1 h2 h3)
private theorem d5 (c : Dev nD) (b : Ref sig .tc) (h1 : b ∉ wr0) (h2 : b ∉ wr0_1) (h3 : b ∉ wr0_2) (h4 : ∀ w, Pipeline.arrRef spec0 w ≠ b) (h5 : b ∉ wr1) :
    W5 m ρ c (Proc.devRef .tc b) = m ((c : Thread nD τ).loc b) :=
  (s5 m ρ c b h5).trans (d4 m ρ c b h1 h2 h3 h4)
private theorem d6 (c : Dev nD) (b : Ref sig .tc) (h1 : b ∉ wr0) (h2 : b ∉ wr0_1) (h3 : b ∉ wr0_2) (h4 : ∀ w, Pipeline.arrRef spec0 w ≠ b) (h5 : b ∉ wr1) (h6 : ∀ w, Pipeline.arrRef spec1 w ≠ b) :
    W6 m ρ c (Proc.devRef .tc b) = m ((c : Thread nD τ).loc b) :=
  (W6_of_ne m ρ c b h6).trans (d5 m ρ c b h1 h2 h3 h4 h5)
private theorem d7 (c : Dev nD) (b : Ref sig .tc) (h1 : b ∉ wr0) (h2 : b ∉ wr0_1) (h3 : b ∉ wr0_2) (h4 : ∀ w, Pipeline.arrRef spec0 w ≠ b) (h5 : b ∉ wr1) (h6 : ∀ w, Pipeline.arrRef spec1 w ≠ b) (h7 : b ∉ wr2) :
    W7 m ρ c (Proc.devRef .tc b) = m ((c : Thread nD τ).loc b) :=
  (s7 m ρ c b h7).trans (d6 m ρ c b h1 h2 h3 h4 h5 h6)
private theorem d8 (c : Dev nD) (b : Ref sig .tc) (h1 : b ∉ wr0) (h2 : b ∉ wr0_1) (h3 : b ∉ wr0_2) (h4 : ∀ w, Pipeline.arrRef spec0 w ≠ b) (h5 : b ∉ wr1) (h6 : ∀ w, Pipeline.arrRef spec1 w ≠ b) (h7 : b ∉ wr2) (h8 : b ∉ wr2_1) :
    W8 m ρ c (Proc.devRef .tc b) = m ((c : Thread nD τ).loc b) :=
  (s8 m ρ c b h8).trans (d7 m ρ c b h1 h2 h3 h4 h5 h6 h7)
private theorem d9 (c : Dev nD) (b : Ref sig .tc) (h1 : b ∉ wr0) (h2 : b ∉ wr0_1) (h3 : b ∉ wr0_2) (h4 : ∀ w, Pipeline.arrRef spec0 w ≠ b) (h5 : b ∉ wr1) (h6 : ∀ w, Pipeline.arrRef spec1 w ≠ b) (h7 : b ∉ wr2) (h8 : b ∉ wr2_1) (h9 : ∀ w, Pipeline.arrRef spec2 w ≠ b) :
    W9 m ρ c (Proc.devRef .tc b) = m ((c : Thread nD τ).loc b) :=
  (W9_of_ne m ρ c b h9).trans (d8 m ρ c b h1 h2 h3 h4 h5 h6 h7 h8)
private theorem d10 (c : Dev nD) (b : Ref sig .tc) (h1 : b ∉ wr0) (h2 : b ∉ wr0_1) (h3 : b ∉ wr0_2) (h4 : ∀ w, Pipeline.arrRef spec0 w ≠ b) (h5 : b ∉ wr1) (h6 : ∀ w, Pipeline.arrRef spec1 w ≠ b) (h7 : b ∉ wr2) (h8 : b ∉ wr2_1) (h9 : ∀ w, Pipeline.arrRef spec2 w ≠ b) (h10 : b ∉ wr3) :
    W10 m ρ c (Proc.devRef .tc b) = m ((c : Thread nD τ).loc b) :=
  (s10 m ρ c b h10).trans (d9 m ρ c b h1 h2 h3 h4 h5 h6 h7 h8 h9)
private theorem d11 (c : Dev nD) (b : Ref sig .tc) (h1 : b ∉ wr0) (h2 : b ∉ wr0_1) (h3 : b ∉ wr0_2) (h4 : ∀ w, Pipeline.arrRef spec0 w ≠ b) (h5 : b ∉ wr1) (h6 : ∀ w, Pipeline.arrRef spec1 w ≠ b) (h7 : b ∉ wr2) (h8 : b ∉ wr2_1) (h9 : ∀ w, Pipeline.arrRef spec2 w ≠ b) (h10 : b ∉ wr3) (h11 : ∀ w, Pipeline.arrRef spec3 w ≠ b) :
    W11 m ρ c (Proc.devRef .tc b) = m ((c : Thread nD τ).loc b) :=
  (W11_of_ne m ρ c b h11).trans (d10 m ρ c b h1 h2 h3 h4 h5 h6 h7 h8 h9 h10)
private theorem d12 (c : Dev nD) (b : Ref sig .tc) (h1 : b ∉ wr0) (h2 : b ∉ wr0_1) (h3 : b ∉ wr0_2) (h4 : ∀ w, Pipeline.arrRef spec0 w ≠ b) (h5 : b ∉ wr1) (h6 : ∀ w, Pipeline.arrRef spec1 w ≠ b) (h7 : b ∉ wr2) (h8 : b ∉ wr2_1) (h9 : ∀ w, Pipeline.arrRef spec2 w ≠ b) (h10 : b ∉ wr3) (h11 : ∀ w, Pipeline.arrRef spec3 w ≠ b) (h12 : b ∉ wr4) :
    W12 m ρ c (Proc.devRef .tc b) = m ((c : Thread nD τ).loc b) :=
  (s12 m ρ c b h12).trans (d11 m ρ c b h1 h2 h3 h4 h5 h6 h7 h8 h9 h10 h11)

/-! ## The arguments, at the boundaries where something reads them -/

theorem W1_arg0 (c : Dev nD) : W1 m ρ c (Proc.devRef .tc main_arg0) = m ((c : Thread nD τ).loc main_arg0) :=
  d1 m ρ c main_arg0 (by decide)
theorem W2_arg6 (c : Dev nD) : W2 m ρ c (Proc.devRef .tc main_arg6) = m ((c : Thread nD τ).loc main_arg6) :=
  d2 m ρ c main_arg6 (by decide) (by decide)
theorem W3_arg3 (c : Dev nD) : W3 m ρ c (Proc.devRef .tc main_arg3) = m ((c : Thread nD τ).loc main_arg3) :=
  d3 m ρ c main_arg3 (by decide) (by decide) (by decide)
theorem W3_arg5 (c : Dev nD) : W3 m ρ c (Proc.devRef .tc main_arg5) = m ((c : Thread nD τ).loc main_arg5) :=
  d3 m ρ c main_arg5 (by decide) (by decide) (by decide)
theorem W4_arg8 (c : Dev nD) : W4 m ρ c (Proc.devRef .tc main_arg8) = m ((c : Thread nD τ).loc main_arg8) :=
  d4 m ρ c main_arg8 (by decide) (by decide) (by decide) (by decide)
theorem W4_arg10 (c : Dev nD) : W4 m ρ c (Proc.devRef .tc main_arg10) = m ((c : Thread nD τ).loc main_arg10) :=
  d4 m ρ c main_arg10 (by decide) (by decide) (by decide) (by decide)
theorem W5_arg0 (c : Dev nD) : W5 m ρ c (Proc.devRef .tc main_arg0) = m ((c : Thread nD τ).loc main_arg0) :=
  d5 m ρ c main_arg0 (by decide) (by decide) (by decide) (by decide) (by decide)
theorem W5_arg7 (c : Dev nD) : W5 m ρ c (Proc.devRef .tc main_arg7) = m ((c : Thread nD τ).loc main_arg7) :=
  d5 m ρ c main_arg7 (by decide) (by decide) (by decide) (by decide) (by decide)
theorem W5_arg9 (c : Dev nD) : W5 m ρ c (Proc.devRef .tc main_arg9) = m ((c : Thread nD τ).loc main_arg9) :=
  d5 m ρ c main_arg9 (by decide) (by decide) (by decide) (by decide) (by decide)
theorem W7_arg12 (c : Dev nD) : W7 m ρ c (Proc.devRef .tc main_arg12) = m ((c : Thread nD τ).loc main_arg12) :=
  d7 m ρ c main_arg12 (by decide) (by decide) (by decide) (by decide) (by decide) (by decide) (by decide)
/-- The edge attributes are the first launch's input window 0: that region leaves an input as it entered. -/
theorem W8_arg3 (c : Dev nD) : W8 m ρ c (Proc.devRef .tc main_arg3) = m ((c : Thread nD τ).loc main_arg3) :=
  calc W8 m ρ c (Proc.devRef .tc main_arg3)
    _ = W7 m ρ c (Proc.devRef .tc main_arg3) := s8 m ρ c main_arg3 (by decide)
    _ = W6 m ρ c (Proc.devRef .tc main_arg3) := s7 m ρ c main_arg3 (by decide)
    _ = W5 m ρ c (Proc.devRef .tc main_arg3) := W6_of_ne m ρ c main_arg3 (by decide)
    _ = W4 m ρ c (Proc.devRef .tc main_arg3) := s5 m ρ c main_arg3 (by decide)
    _ = W3 m ρ c (Proc.devRef .tc main_arg3) :=
      (W4_arr m ρ c 0).trans (((dat0 (V3 m ρ) c).arrAt_in 0 rfl _).trans (A_eq0 (V3 m ρ) c 0))
    _ = m ((c : Thread nD τ).loc main_arg3) := d3 m ρ c main_arg3 (by decide) (by decide) (by decide)
theorem W8_arg11 (c : Dev nD) : W8 m ρ c (Proc.devRef .tc main_arg11) = m ((c : Thread nD τ).loc main_arg11) :=
  d8 m ρ c main_arg11 (by decide) (by decide) (by decide) (by decide) (by decide) (by decide) (by decide) (by decide)
theorem W9_arg14 (c : Dev nD) : W9 m ρ c (Proc.devRef .tc main_arg14) = m ((c : Thread nD τ).loc main_arg14) :=
  d9 m ρ c main_arg14 (by decide) (by decide) (by decide) (by decide) (by decide) (by decide) (by decide) (by decide) (by decide)
theorem W9_arg16 (c : Dev nD) : W9 m ρ c (Proc.devRef .tc main_arg16) = m ((c : Thread nD τ).loc main_arg16) :=
  d9 m ρ c main_arg16 (by decide) (by decide) (by decide) (by decide) (by decide) (by decide) (by decide) (by decide) (by decide)
theorem W10_arg13 (c : Dev nD) : W10 m ρ c (Proc.devRef .tc main_arg13) = m ((c : Thread nD τ).loc main_arg13) :=
  d10 m ρ c main_arg13 (by decide) (by decide) (by decide) (by decide) (by decide) (by decide) (by decide) (by decide) (by decide) (by decide)
theorem W10_arg15 (c : Dev nD) : W10 m ρ c (Proc.devRef .tc main_arg15) = m ((c : Thread nD τ).loc main_arg15) :=
  d10 m ρ c main_arg15 (by decide) (by decide) (by decide) (by decide) (by decide) (by decide) (by decide) (by decide) (by decide) (by decide)
theorem W11_arg4 (c : Dev nD) : W11 m ρ c (Proc.devRef .tc main_arg4) = m ((c : Thread nD τ).loc main_arg4) :=
  d11 m ρ c main_arg4 (by decide) (by decide) (by decide) (by decide) (by decide) (by decide) (by decide) (by decide) (by decide) (by decide) (by decide)
theorem W11_arg18 (c : Dev nD) : W11 m ρ c (Proc.devRef .tc main_arg18) = m ((c : Thread nD τ).loc main_arg18) :=
  d11 m ρ c main_arg18 (by decide) (by decide) (by decide) (by decide) (by decide) (by decide) (by decide) (by decide) (by decide) (by decide) (by decide)
theorem W11_arg20 (c : Dev nD) : W11 m ρ c (Proc.devRef .tc main_arg20) = m ((c : Thread nD τ).loc main_arg20) :=
  d11 m ρ c main_arg20 (by decide) (by decide) (by decide) (by decide) (by decide) (by decide) (by decide) (by decide) (by decide) (by decide) (by decide)
theorem W12_arg17 (c : Dev nD) : W12 m ρ c (Proc.devRef .tc main_arg17) = m ((c : Thread nD τ).loc main_arg17) :=
  d12 m ρ c main_arg17 (by decide) (by decide) (by decide) (by decide) (by decide) (by decide) (by decide) (by decide) (by decide) (by decide) (by decide) (by decide)
theorem W12_arg19 (c : Dev nD) : W12 m ρ c (Proc.devRef .tc main_arg19) = m ((c : Thread nD τ).loc main_arg19) :=
  d12 m ρ c main_arg19 (by decide) (by decide) (by decide) (by decide) (by decide) (by decide) (by decide) (by decide) (by decide) (by decide) (by decide) (by decide)

/-! ## The sources, the destinations and the first layer's features -/

/-- After the first host stretch `main_v1` holds the edges' sources. -/
theorem W1_v1 (c : Dev nD) : W1 m ρ c (Proc.devRef .tc main_v1) = HostMaps.srcOf (m ((c : Thread nD τ).loc main_arg1)) := by
  show StableHlo.after hostOps0 (W0 m ρ c) (Proc.devRef .tc main_v1) = _
  after_results
  rfl
/-- After the first host stretch `main_v3` holds the edges' destinations. -/
theorem W1_v3 (c : Dev nD) : W1 m ρ c (Proc.devRef .tc main_v3) = HostMaps.dstOf (m ((c : Thread nD τ).loc main_arg1)) := by
  show StableHlo.after hostOps0 (W0 m ρ c) (Proc.devRef .tc main_v3) = _
  after_results
  rfl
/-- The destinations are still there when the first segment sum reads them. -/
theorem W4_v3 (c : Dev nD) : W4 m ρ c (Proc.devRef .tc main_v3) = HostMaps.dstOf (m ((c : Thread nD τ).loc main_arg1)) :=
  calc W4 m ρ c (Proc.devRef .tc main_v3)
    _ = W3 m ρ c (Proc.devRef .tc main_v3) := W4_of_ne m ρ c main_v3 (by decide)
    _ = W2 m ρ c (Proc.devRef .tc main_v3) := s3 m ρ c main_v3 (by decide)
    _ = W1 m ρ c (Proc.devRef .tc main_v3) := s2 m ρ c main_v3 (by decide)
    _ = HostMaps.dstOf (m ((c : Thread nD τ).loc main_arg1)) := W1_v3 m ρ c
/-- … and when the second segment sum reads them. -/
theorem W9_v3 (c : Dev nD) : W9 m ρ c (Proc.devRef .tc main_v3) = HostMaps.dstOf (m ((c : Thread nD τ).loc main_arg1)) :=
  calc W9 m ρ c (Proc.devRef .tc main_v3)
    _ = W8 m ρ c (Proc.devRef .tc main_v3) := W9_of_ne m ρ c main_v3 (by decide)
    _ = W7 m ρ c (Proc.devRef .tc main_v3) := s8 m ρ c main_v3 (by decide)
    _ = W6 m ρ c (Proc.devRef .tc main_v3) := s7 m ρ c main_v3 (by decide)
    _ = W5 m ρ c (Proc.devRef .tc main_v3) := W6_of_ne m ρ c main_v3 (by decide)
    _ = W4 m ρ c (Proc.devRef .tc main_v3) := s5 m ρ c main_v3 (by decide)
    _ = HostMaps.dstOf (m ((c : Thread nD τ).loc main_arg1)) := W4_v3 m ρ c
/-- The sources are still there when the second gather reads them. -/
theorem W6_v1 (c : Dev nD) : W6 m ρ c (Proc.devRef .tc main_v1) = HostMaps.srcOf (m ((c : Thread nD τ).loc main_arg1)) :=
  calc W6 m ρ c (Proc.devRef .tc main_v1)
    _ = W5 m ρ c (Proc.devRef .tc main_v1) := W6_of_ne m ρ c main_v1 (by decide)
    _ = W4 m ρ c (Proc.devRef .tc main_v1) := s5 m ρ c main_v1 (by decide)
    _ = W3 m ρ c (Proc.devRef .tc main_v1) := W4_of_ne m ρ c main_v1 (by decide)
    _ = W2 m ρ c (Proc.devRef .tc main_v1) := s3 m ρ c main_v1 (by decide)
    _ = W1 m ρ c (Proc.devRef .tc main_v1) := s2 m ρ c main_v1 (by decide)
    _ = HostMaps.srcOf (m ((c : Thread nD τ).loc main_arg1)) := W1_v1 m ρ c
/-- The first layer's node features, left by the second launch, are unchanged when the fourth launch reads them. -/
theorem W10_v12 (c : Dev nD) : W10 m ρ c (Proc.devRef .tc main_v12) = W6 m ρ c (Proc.devRef .tc main_v12) :=
  calc W10 m ρ c (Proc.devRef .tc main_v12)
    _ = W9 m ρ c (Proc.devRef .tc main_v12) := s10 m ρ c main_v12 (by decide)
    _ = W8 m ρ c (Proc.devRef .tc main_v12) := W9_of_ne m ρ c main_v12 (by decide)
    _ = W7 m ρ c (Proc.devRef .tc main_v12) := s8 m ρ c main_v12 (by decide)
    _ = W6 m ρ c (Proc.devRef .tc main_v12) := s7 m ρ c main_v12 (by decide)

end Cert.KernelIdeal.FoldArgs

end
-- ==== Proof.FoldTake.lean ====
/-
  The two row gathers, read off the boundaries: the host stretch that takes node rows at the edges' sources leaves,
  in its result buffer, the take `TakeK.takeSrc` of the rows it was given — the launch's node features at the first
  layer, the first layer's node features (as the second launch left them) at the second.
-/
import proofs.«427209_j57208964382753_2_alg».proof.Proof.Gen.KernelIdeal.Frame
import proofs.«427209_j57208964382753_2_alg».proof.Proof.HostMapsK
import proofs.«427209_j57208964382753_2_alg».proof.Proof.TakeK
import proofs.«427209_j57208964382753_2_alg».proof.Proof.FoldArgs
import Idealize.ShloMosaic.Lib.StableHlo.Run

set_option maxRecDepth 16384

noncomputable section

namespace Cert.KernelIdeal.FoldTake

open Cert.KernelIdeal Cert.KernelIdeal.Gen
open Idealize.ShloMosaic Idealize.ShloMosaic.TcCoe Idealize.SL.Sem

section AnyInstance

variable {F : FTy → Type} [FloatOps F]

/-- Contents carried to a buffer's own type and back are the contents. -/
private theorem ofBuf_toBuf {Val : EltTy → Type} {T : BufTy} (x : StableHlo.TRef sig T) (v : T.Contents Val) :
    x.ofBuf (x.toBuf v) = v := by
  obtain ⟨r, rfl, _, _⟩ := x
  rfl

/-- Contents of a buffer read at the value's type are the contents. -/
private theorem ofBuf_eq_of_heq {Val : EltTy → Type} {T : BufTy} (x : StableHlo.TRef sig T) (v : x.ref.ty.Contents Val)
    (w : T.Contents Val) (h : HEq v w) : x.ofBuf v = w := by
  obtain ⟨r, rfl, _, _⟩ := x
  exact eq_of_heq h

/-- Contents at the value's type written to the buffer are the contents. -/
private theorem toBuf_eq_of_heq {Val : EltTy → Type} {T : BufTy} (x : StableHlo.TRef sig T) (v : T.Contents Val)
    (w : x.ref.ty.Contents Val) (h : HEq v w) : x.toBuf v = w := by
  obtain ⟨r, rfl, _, _⟩ := x
  exact eq_of_heq h

/-- The take of the rows `x` at the sources `s`, for any float instance: the row gather at the wrapped sources where the
    wrapped source is in `0 … 49999`, the fill value elsewhere. -/
private def takeAt (s : (⟨S800000, .i32⟩ : BufTy).Contents (Elt F)) (x : (⟨S50000x101, .f32⟩ : BufTy).Contents (Elt F)) :
    (⟨S800000x101, .f32⟩ : BufTy).Contents (Elt F) :=
  select
    (broadcastInDim S800000x101 ![0] bcast_S800000_S800000x101_0
      (Host.reduce IntOp.andi
        (andi
          (cmpi .sge (broadcastInDim S800000x1 ![0] bcast_S800000_S800000x1_0 (HostMaps.wrapOf (F := F) s))
            (broadcastInDim S800000x1 ![] bcast_S_S800000x1 (constantI S_ 32 0#32)))
          (cmpi .sle (broadcastInDim S800000x1 ![0] bcast_S800000_S800000x1_0 (HostMaps.wrapOf (F := F) s))
            (broadcastInDim S800000x1 ![0, 1] bcast_S1x1_S800000x1_0_1 (broadcastInDim S1x1 ![1] bcast_S1_S1x1_1 (constantI S1 32 49999#32)))))
        (constantI S_ 1 1#1) reducesTo_S800000x1_S800000_d1 h_S_))
    (Host.gather gather_S50000x101_S800000x1_S800000x101_1_0_n_n_0_1_1101 x
      (broadcastInDim S800000x1 ![0] bcast_S800000_S800000x1_0 (HostMaps.wrapOf (F := F) s)))
    (broadcastInDim S800000x101 ![] bcast_S_S800000x101 (constant (F := F) S_ .f32 0x7FC00000#32))

/-- The first take stretch, run from any contents, leaves in `main_v4` the take of `main_arg0` at `main_v1`. -/
private theorem after_take0 (V : Valuation τ sig (Elt F)) :
    StableHlo.after hostOps0_1 V (Proc.devRef .tc main_v4) =
      takeAt (F := F) (V (Proc.devRef .tc main_v1)) (V (Proc.devRef .tc main_arg0)) := by
  after_results_simp
  simp only [ofBuf_toBuf]
  rw [ofBuf_eq_of_heq (.of main_v1 : StableHlo.TRef sig ⟨S800000, .i32⟩) (V (Proc.devRef .tc main_v1)) (V (Proc.devRef .tc main_v1)) HEq.rfl,
    ofBuf_eq_of_heq (.of main_arg0 : StableHlo.TRef sig ⟨S50000x101, .f32⟩) (V (Proc.devRef .tc main_arg0)) (V (Proc.devRef .tc main_arg0)) HEq.rfl]
  unfold takeAt HostMaps.wrapOf
  exact toBuf_eq_of_heq _ _ _ HEq.rfl

/-- The second take stretch, run from any contents, leaves in `main_v13` the take of `main_v12` at `main_v1`. -/
private theorem after_take2 (V : Valuation τ sig (Elt F)) :
    StableHlo.after hostOps2 V (Proc.devRef .tc main_v13) =
      takeAt (F := F) (V (Proc.devRef .tc main_v1)) (V (Proc.devRef .tc main_v12)) := by
  after_results_simp
  simp only [ofBuf_toBuf]
  rw [ofBuf_eq_of_heq (.of main_v1 : StableHlo.TRef sig ⟨S800000, .i32⟩) (V (Proc.devRef .tc main_v1)) (V (Proc.devRef .tc main_v1)) HEq.rfl,
    ofBuf_eq_of_heq (.of main_v12 : StableHlo.TRef sig ⟨S50000x101, .f32⟩) (V (Proc.devRef .tc main_v12)) (V (Proc.devRef .tc main_v12)) HEq.rfl]
  unfold takeAt HostMaps.wrapOf
  exact toBuf_eq_of_heq _ _ _ HEq.rfl

/-- At the ideal instance the take is `TakeK.takeSrc` of the edge list whose row 0 the sources are. -/
private theorem takeAt_srcOf (ei : (⟨S2x800000, .i32⟩ : BufTy).Contents (Elt Ideal))
    (x : (⟨S50000x101, .f32⟩ : BufTy).Contents (Elt Ideal)) :
    takeAt (F := Ideal) (HostMaps.srcOf (F := Ideal) ei) x = TakeK.takeSrc ei x := by
  unfold takeAt TakeK.takeSrc HostMaps.srcIdx
  rfl

end AnyInstance

variable (m : (ℓ : Loc nD τ sig) → Buf (Elt Ideal) ℓ) (ρ : Dev nD → PrngReg)

/-- After the first take stretch, `main_v4` holds the take of the launch's node features at the sources. -/
theorem W2_v4 (c : Dev nD) :
    W2 (F := Ideal) m ρ c (Proc.devRef .tc main_v4) =
      TakeK.takeSrc (m ((c.tc : Thread nD τ).loc main_arg1)) (m ((c.tc : Thread nD τ).loc main_arg0)) := by
  show StableHlo.after hostOps0_1 (W1 (F := Ideal) m ρ c) (Proc.devRef .tc main_v4) = _
  rw [after_take0, FoldArgs.W1_v1, FoldArgs.W1_arg0]
  exact takeAt_srcOf _ _

/-- After the second take stretch, `main_v13` holds the take of the first layer's node features at the sources. -/
theorem W7_v13 (c : Dev nD) :
    W7 (F := Ideal) m ρ c (Proc.devRef .tc main_v13) =
      TakeK.takeSrc (m ((c.tc : Thread nD τ).loc main_arg1)) (W6 (F := Ideal) m ρ c (Proc.devRef .tc main_v12)) := by
  show StableHlo.after hostOps2 (W6 (F := Ideal) m ρ c) (Proc.devRef .tc main_v13) = _
  rw [after_take2, FoldArgs.W6_v1]
  exact takeAt_srcOf _ _

end Cert.KernelIdeal.FoldTake

end
-- ==== Proof.FoldK1.lean ====
/-
  The first round of message passing, read off the buffer contents at the segment boundaries: at the exit of the
  second launch the buffer `main_v12` holds the node update of the launch arrays, the messages gathered at the
  sources, projected, rectified and summed into their destinations. Each boundary's contents are the previous
  boundary's with a host stretch applied or with a region's arrays replaced by what its grid leaves; an argument is
  written by nothing, so it reads back to the launch memory.
-/
import proofs.«427209_j57208964382753_2_alg».proof.Proof.Gen.KernelIdeal.Frame
import proofs.«427209_j57208964382753_2_alg».proof.Proof.Spec
import proofs.«427209_j57208964382753_2_alg».proof.Proof.HostMapsK
import proofs.«427209_j57208964382753_2_alg».proof.Proof.TakeK
import proofs.«427209_j57208964382753_2_alg».proof.Proof.EdgeK
import proofs.«427209_j57208964382753_2_alg».proof.Proof.NodeK1
import proofs.«427209_j57208964382753_2_alg».proof.Proof.FoldArgs
import proofs.«427209_j57208964382753_2_alg».proof.Proof.FoldTake
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.FoldK1

open Cert.KernelIdeal Cert.KernelIdeal.Gen
open Idealize.ShloMosaic Idealize.ShloMosaic.TcCoe Idealize.ShloMosaic.ValueIdx Idealize.SL.Sem

/-! ## A bias as a one-row matrix -/

/-- A bias reshaped to a one-row matrix and read back as a vector is the bias: entry `j` of the vector and entry
    `(0, j)` of the row sit at the same row-major position. -/
theorem row0_shapeCast (b : (⟨S101, .f32⟩ : BufTy).Contents (Elt Ideal)) :
    Cert.Spec.row0 (shapeCast S1x101 b shapeCasts_S101_S1x101) = b := by
  funext j
  unfold Cert.Spec.row0
  refine shapeCast_apply _ _ _ j ?_
  rw [Shape.rowMajor_val_one, Shape.rowMajor_val_two]
  show (j 0).val = 0 * 101 + (j 0).val
  omega

/-! ## What each host stretch leaves in the buffers it writes, from any contents -/

section Host

variable (V : Valuation τ sig (Elt Ideal))

/-- The third stretch leaves the edge bias as a one-row matrix. -/
theorem host02_v5 : StableHlo.after hostOps0_2 V (Proc.devRef .tc main_v5) =
    shapeCast S1x101 (V (Proc.devRef .tc main_arg6)) shapeCasts_S101_S1x101 := by
  after_results; rfl

/-- The stretch before the second launch leaves the first node bias as a one-row matrix, -/
theorem host1_v10 : StableHlo.after hostOps1 V (Proc.devRef .tc main_v10) =
    shapeCast S1x101 (V (Proc.devRef .tc main_arg8)) shapeCasts_S101_S1x101 := by
  after_results; rfl

/-- the second node bias likewise, -/
theorem host1_v11 : StableHlo.after hostOps1 V (Proc.devRef .tc main_v11) =
    shapeCast S1x101 (V (Proc.devRef .tc main_arg10)) shapeCasts_S101_S1x101 := by
  after_results; rfl

/-- and, where the destinations' buffer holds row 1 of an edge list, the messages summed into their destinations. -/
theorem host1_v9 (ei : (⟨S2x800000, .i32⟩ : BufTy).Contents (Elt Ideal))
    (h3 : V (Proc.devRef .tc main_v3) = HostMaps.dstOf (F := Ideal) ei) :
    StableHlo.after hostOps1 V (Proc.devRef .tc main_v9) =
      HostMaps.segDst (F := Ideal) ei (V (Proc.devRef .tc main_v6)) := by
  after_results
  rw [h3]
  rfl

end Host

variable (m : (ℓ : Loc nD τ sig) → Buf (Elt Ideal) ℓ) (ρ : Dev nD → PrngReg)

/-! ## The first launch's windows -/

/-- The third stretch writes only the bias row: the gathered rows are as the second stretch left them. -/
theorem W3_v4 (c : Dev nD) :
    W3 (F := Ideal) m ρ c (Proc.devRef .tc main_v4) = W2 (F := Ideal) m ρ c (Proc.devRef .tc main_v4) :=
  StableHlo.after_of_forall_not_mem (b := Proc.devRef .tc main_v4) _ _ (List.forall_iff_forall_mem.mp (by
    simp only [hostOps0_2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- With every source in range, the first launch's gathered rows are the row gather of the launch's node features. -/
theorem W3_v4_gather (c : Dev nD) (hok : TakeK.SrcOk (m ((c.tc : Thread nD τ).loc main_arg1))) :
    W3 (F := Ideal) m ρ c (Proc.devRef .tc main_v4) =
      HostMaps.gatherSrc (F := Ideal) (m ((c.tc : Thread nD τ).loc main_arg1)) (m ((c.tc : Thread nD τ).loc main_arg0)) :=
  (W3_v4 m ρ c).trans ((FoldTake.W2_v4 m ρ c).trans (TakeK.take_eq_gather _ hok _))

/-- The first launch's bias row is the edge bias of the launch memory, reshaped. -/
theorem W3_v5 (c : Dev nD) :
    W3 (F := Ideal) m ρ c (Proc.devRef .tc main_v5) =
      shapeCast S1x101 (m ((c.tc : Thread nD τ).loc main_arg6)) shapeCasts_S101_S1x101 := by
  show StableHlo.after hostOps0_2 (W2 (F := Ideal) m ρ c) (Proc.devRef .tc main_v5) = _
  rw [host02_v5, FoldArgs.W2_arg6]

/-- The first launch leaves the edge messages of the launch arrays in `main_v6`. -/
theorem W4_v6 (c : Dev nD) (hok : TakeK.SrcOk (m ((c.tc : Thread nD τ).loc main_arg1))) :
    W4 (F := Ideal) m ρ c (Proc.devRef .tc main_v6) =
      Cert.Spec.edgeMsg (m ((c.tc : Thread nD τ).loc main_arg3)) (m ((c.tc : Thread nD τ).loc main_arg5)) (m ((c.tc : Thread nD τ).loc main_arg6))
        (HostMaps.gatherSrc (F := Ideal) (m ((c.tc : Thread nD τ).loc main_arg1)) (m ((c.tc : Thread nD τ).loc main_arg0))) := by
  have h0 : V3 (F := Ideal) m ρ c (Pipeline.arrRef spec0 0) = (m ((c.tc : Thread nD τ).loc main_arg3)) := FoldArgs.W3_arg3 m ρ c
  have h1 : V3 (F := Ideal) m ρ c (Pipeline.arrRef spec0 1) = (m ((c.tc : Thread nD τ).loc main_arg5)) := FoldArgs.W3_arg5 m ρ c
  have h2 : Cert.Spec.row0 (V3 (F := Ideal) m ρ c (Pipeline.arrRef spec0 2)) = (m ((c.tc : Thread nD τ).loc main_arg6)) :=
    (congrArg Cert.Spec.row0 (W3_v5 m ρ c)).trans (row0_shapeCast _)
  have h3 : V3 (F := Ideal) m ρ c (Pipeline.arrRef spec0 3) =
      HostMaps.gatherSrc (F := Ideal) (m ((c.tc : Thread nD τ).loc main_arg1)) (m ((c.tc : Thread nD τ).loc main_arg0)) := W3_v4_gather m ρ c hok
  refine (W4_arr m ρ c 4).trans ((EdgeK.final0 (V3 (F := Ideal) m ρ) c).trans ?_)
  rw [h0, h1, h2, h3]

/-! ## The second launch's windows -/

/-- The aggregate the second launch reads: the edge messages summed into their destinations. -/
theorem W5_v9 (c : Dev nD) (hok : TakeK.SrcOk (m ((c.tc : Thread nD τ).loc main_arg1))) :
    W5 (F := Ideal) m ρ c (Proc.devRef .tc main_v9) =
      HostMaps.segDst (F := Ideal) (m ((c.tc : Thread nD τ).loc main_arg1))
        (Cert.Spec.edgeMsg (m ((c.tc : Thread nD τ).loc main_arg3)) (m ((c.tc : Thread nD τ).loc main_arg5)) (m ((c.tc : Thread nD τ).loc main_arg6))
          (HostMaps.gatherSrc (F := Ideal) (m ((c.tc : Thread nD τ).loc main_arg1)) (m ((c.tc : Thread nD τ).loc main_arg0)))) :=
  (host1_v9 (W4 (F := Ideal) m ρ c) (m ((c.tc : Thread nD τ).loc main_arg1)) (FoldArgs.W4_v3 m ρ c)).trans
    (congrArg (HostMaps.segDst (F := Ideal) (m ((c.tc : Thread nD τ).loc main_arg1))) (W4_v6 m ρ c hok))

/-- The second launch's first bias row is the launch memory's, reshaped, -/
theorem W5_v10 (c : Dev nD) :
    W5 (F := Ideal) m ρ c (Proc.devRef .tc main_v10) =
      shapeCast S1x101 (m ((c.tc : Thread nD τ).loc main_arg8)) shapeCasts_S101_S1x101 := by
  show StableHlo.after hostOps1 (W4 (F := Ideal) m ρ c) (Proc.devRef .tc main_v10) = _
  rw [host1_v10, FoldArgs.W4_arg8]

/-- and its second bias row likewise. -/
theorem W5_v11 (c : Dev nD) :
    W5 (F := Ideal) m ρ c (Proc.devRef .tc main_v11) =
      shapeCast S1x101 (m ((c.tc : Thread nD τ).loc main_arg10)) shapeCasts_S101_S1x101 := by
  show StableHlo.after hostOps1 (W4 (F := Ideal) m ρ c) (Proc.devRef .tc main_v11) = _
  rw [host1_v11, FoldArgs.W4_arg10]

/-- After the second launch, `main_v12` is the first layer's node features of the launch arrays. -/
theorem h1_value (c : Dev nD) (hok : TakeK.SrcOk (m ((c.tc : Thread nD τ).loc main_arg1))) :
    W6 (F := Ideal) m ρ c (Proc.devRef .tc main_v12) =
      Cert.Spec.nodeMlp (m ((c.tc : Thread nD τ).loc main_arg0))
        (HostMaps.segDst (F := Ideal) (m ((c.tc : Thread nD τ).loc main_arg1))
          (Cert.Spec.edgeMsg (m ((c.tc : Thread nD τ).loc main_arg3)) (m ((c.tc : Thread nD τ).loc main_arg5)) (m ((c.tc : Thread nD τ).loc main_arg6))
            (HostMaps.gatherSrc (F := Ideal) (m ((c.tc : Thread nD τ).loc main_arg1)) (m ((c.tc : Thread nD τ).loc main_arg0)))))
        (m ((c.tc : Thread nD τ).loc main_arg7)) (m ((c.tc : Thread nD τ).loc main_arg8)) (m ((c.tc : Thread nD τ).loc main_arg9)) (m ((c.tc : Thread nD τ).loc main_arg10)) := by
  have h0 : V5 (F := Ideal) m ρ c (Pipeline.arrRef spec1 0) = (m ((c.tc : Thread nD τ).loc main_arg0)) := FoldArgs.W5_arg0 m ρ c
  have h1 := W5_v9 m ρ c hok
  have h2 : V5 (F := Ideal) m ρ c (Pipeline.arrRef spec1 2) = (m ((c.tc : Thread nD τ).loc main_arg7)) := FoldArgs.W5_arg7 m ρ c
  have h3 : Cert.Spec.row0 (V5 (F := Ideal) m ρ c (Pipeline.arrRef spec1 3)) = (m ((c.tc : Thread nD τ).loc main_arg8)) :=
    (congrArg Cert.Spec.row0 (W5_v10 m ρ c)).trans (row0_shapeCast _)
  have h4 : V5 (F := Ideal) m ρ c (Pipeline.arrRef spec1 4) = (m ((c.tc : Thread nD τ).loc main_arg9)) := FoldArgs.W5_arg9 m ρ c
  have h5 : Cert.Spec.row0 (V5 (F := Ideal) m ρ c (Pipeline.arrRef spec1 5)) = (m ((c.tc : Thread nD τ).loc main_arg10)) :=
    (congrArg Cert.Spec.row0 (W5_v11 m ρ c)).trans (row0_shapeCast _)
  change V5 (F := Ideal) m ρ c (Pipeline.arrRef spec1 1) = _ at h1
  refine (W6_arr m ρ c 6).trans ((NodeK1.final1 (V5 (F := Ideal) m ρ) c).trans ?_)
  rw [h0, h1, h2, h3, h4, h5]

end Cert.KernelIdeal.FoldK1

end
-- ==== Proof.NodeK3.lean ====
/-
  The second node-update region (the fourth launch), hidden width 100 and output width 200: after the grid has run,
  the output array is the node update `Cert.Spec.nodeMlp` of the arrays the region was entered with. Point `t` of 25
  stages rows `2000 t … 2000 t + 1999` of the node features and of the aggregated messages, both weight matrices and
  both bias rows whole; the 25 row blocks tile the 50000 rows.

  The stored block at row `r`, column `j` is
  `max (∑ q, max (∑ p, (x[r, p] + agg[r, p]) · W_a[p, q] + b_a[q]) 0 · W_b[q, j] + b_b[j]) 0`, each matrix product into a
  zero accumulator being the plain sum over its one contracted axis, each bias row broadcast down the rows. Point `t`'s
  blocks of the row-blocked arrays are their rows `2000 t + r`, the weights and bias rows are read whole, so what
  point `t` writes back is rows `2000 t … 2000 t + 1999` of the node update of the whole arrays; row `i` lies in the
  block of point `i / 2000`.
-/
import proofs.«427209_j57208964382753_2_alg».proof.Proof.Gen.KernelIdeal.Frame
import proofs.«427209_j57208964382753_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.NodeK3

open Cert.KernelIdeal Cert.KernelIdeal.Gen
open Idealize.ShloMosaic Idealize.ShloMosaic.TcCoe Idealize.ShloMosaic.ValueIdx Idealize.SL.Sem
open Idealize.ShloMosaic.Pipeline (Dat)

/-! ## The two matrix products at an index -/

private theorem lhs_mmA_0 (i : S2000x100.Idx) (q : dot_S2000x101_S101x100_S2000x100_1_0_0_1_n_n.contr.Idx) :
    (dot_S2000x101_S101x100_S2000x100_1_0_0_1_n_n.lhsIdx i q 0).val = (i 0).val := by
  unfold DotDims.lhsIdx
  rw [dif_neg (show ¬(0 : Fin S2000x101.rank) ∈ dot_S2000x101_S101x100_S2000x100_1_0_0_1_n_n.lhsBatch by decide), dif_pos (show (0 : Fin S2000x101.rank) ∈ dot_S2000x101_S101x100_S2000x100_1_0_0_1_n_n.lhsNonContracting by decide)]
  rfl
private theorem lhs_mmA_1 (i : S2000x100.Idx) (q : dot_S2000x101_S101x100_S2000x100_1_0_0_1_n_n.contr.Idx) :
    (dot_S2000x101_S101x100_S2000x100_1_0_0_1_n_n.lhsIdx i q 1).val = (q ⟨0, by decide⟩).val :=
  dot_S2000x101_S101x100_S2000x100_1_0_0_1_n_n.lhsIdx_val_of_single rfl i q
private theorem rhs_mmA_0 (i : S2000x100.Idx) (q : dot_S2000x101_S101x100_S2000x100_1_0_0_1_n_n.contr.Idx) :
    (dot_S2000x101_S101x100_S2000x100_1_0_0_1_n_n.rhsIdx i q 0).val = (q ⟨0, by decide⟩).val :=
  dot_S2000x101_S101x100_S2000x100_1_0_0_1_n_n.rhsIdx_val_of_single rfl i q
private theorem rhs_mmA_1 (i : S2000x100.Idx) (q : dot_S2000x101_S101x100_S2000x100_1_0_0_1_n_n.contr.Idx) :
    (dot_S2000x101_S101x100_S2000x100_1_0_0_1_n_n.rhsIdx i q 1).val = (i 1).val := by
  unfold DotDims.rhsIdx
  rw [dif_neg (show ¬(1 : Fin S101x100.rank) ∈ dot_S2000x101_S101x100_S2000x100_1_0_0_1_n_n.rhsBatch by decide), dif_pos (show (1 : Fin S101x100.rank) ∈ dot_S2000x101_S101x100_S2000x100_1_0_0_1_n_n.rhsNonContracting by decide)]
  rfl

/-- The first product into the zero accumulator, at row `r` and column `q`: the plain sum over the 101 contracted columns. -/
private theorem mmA_apply {φ₁ φ₂ : FTy} (a : FVec Ideal S2000x101 φ₁) (b : FVec Ideal S101x100 φ₂) (r : Fin 2000) (q : Fin 100) :
    matmul dot_S2000x101_S101x100_S2000x100_1_0_0_1_n_n none a b (constant (F := Ideal) S2000x100 .f32 0x00000000#32) (ix2 r q)
      = ∑ p : Fin 101, a (ix2 r p) * b (ix2 p q) := by
  show FloatOps.matmul dot_S2000x101_S101x100_S2000x100_1_0_0_1_n_n none a b (constant (F := Ideal) S2000x100 .f32 0x00000000#32) (ix2 r q) = _
  rw [Ideal.matmul_constant_zero_apply, ← Equiv.sum_comp (ValueIdx.contrEquiv1 dot_S2000x101_S101x100_S2000x100_1_0_0_1_n_n 101 rfl rfl).symm]
  refine Finset.sum_congr rfl fun k _ => ?_
  have hk := ValueIdx.contrEquiv1_symm_val dot_S2000x101_S101x100_S2000x100_1_0_0_1_n_n 101 rfl rfl k
  have el : dot_S2000x101_S101x100_S2000x100_1_0_0_1_n_n.lhsIdx (ix2 r q) ((ValueIdx.contrEquiv1 dot_S2000x101_S101x100_S2000x100_1_0_0_1_n_n 101 rfl rfl).symm k) = ix2 r k := funext fun a => Fin.ext (by
    match a with
    | ⟨0, _⟩ => exact lhs_mmA_0 _ _
    | ⟨1, _⟩ => exact (lhs_mmA_1 _ _).trans hk)
  have er : dot_S2000x101_S101x100_S2000x100_1_0_0_1_n_n.rhsIdx (ix2 r q) ((ValueIdx.contrEquiv1 dot_S2000x101_S101x100_S2000x100_1_0_0_1_n_n 101 rfl rfl).symm k) = ix2 k q := funext fun a => Fin.ext (by
    match a with
    | ⟨0, _⟩ => exact (rhs_mmA_0 _ _).trans hk
    | ⟨1, _⟩ => exact rhs_mmA_1 _ _)
  rw [el, er]

private theorem lhs_mmB_0 (i : S2000x200.Idx) (q : dot_S2000x100_S100x200_S2000x200_1_0_0_1_n_n.contr.Idx) :
    (dot_S2000x100_S100x200_S2000x200_1_0_0_1_n_n.lhsIdx i q 0).val = (i 0).val := by
  unfold DotDims.lhsIdx
  rw [dif_neg (show ¬(0 : Fin S2000x100.rank) ∈ dot_S2000x100_S100x200_S2000x200_1_0_0_1_n_n.lhsBatch by decide), dif_pos (show (0 : Fin S2000x100.rank) ∈ dot_S2000x100_S100x200_S2000x200_1_0_0_1_n_n.lhsNonContracting by decide)]
  rfl
private theorem lhs_mmB_1 (i : S2000x200.Idx) (q : dot_S2000x100_S100x200_S2000x200_1_0_0_1_n_n.contr.Idx) :
    (dot_S2000x100_S100x200_S2000x200_1_0_0_1_n_n.lhsIdx i q 1).val = (q ⟨0, by decide⟩).val :=
  dot_S2000x100_S100x200_S2000x200_1_0_0_1_n_n.lhsIdx_val_of_single rfl i q
private theorem rhs_mmB_0 (i : S2000x200.Idx) (q : dot_S2000x100_S100x200_S2000x200_1_0_0_1_n_n.contr.Idx) :
    (dot_S2000x100_S100x200_S2000x200_1_0_0_1_n_n.rhsIdx i q 0).val = (q ⟨0, by decide⟩).val :=
  dot_S2000x100_S100x200_S2000x200_1_0_0_1_n_n.rhsIdx_val_of_single rfl i q
private theorem rhs_mmB_1 (i : S2000x200.Idx) (q : dot_S2000x100_S100x200_S2000x200_1_0_0_1_n_n.contr.Idx) :
    (dot_S2000x100_S100x200_S2000x200_1_0_0_1_n_n.rhsIdx i q 1).val = (i 1).val := by
  unfold DotDims.rhsIdx
  rw [dif_neg (show ¬(1 : Fin S100x200.rank) ∈ dot_S2000x100_S100x200_S2000x200_1_0_0_1_n_n.rhsBatch by decide), dif_pos (show (1 : Fin S100x200.rank) ∈ dot_S2000x100_S100x200_S2000x200_1_0_0_1_n_n.rhsNonContracting by decide)]
  rfl

/-- The second product into the zero accumulator, at row `r` and column `j`: the plain sum over the 100 hidden columns. -/
private theorem mmB_apply {φ₁ φ₂ : FTy} (a : FVec Ideal S2000x100 φ₁) (b : FVec Ideal S100x200 φ₂) (r : Fin 2000) (j : Fin 200) :
    matmul dot_S2000x100_S100x200_S2000x200_1_0_0_1_n_n none a b (constant (F := Ideal) S2000x200 .f32 0x00000000#32) (ix2 r j)
      = ∑ q : Fin 100, a (ix2 r q) * b (ix2 q j) := by
  show FloatOps.matmul dot_S2000x100_S100x200_S2000x200_1_0_0_1_n_n none a b (constant (F := Ideal) S2000x200 .f32 0x00000000#32) (ix2 r j) = _
  rw [Ideal.matmul_constant_zero_apply, ← Equiv.sum_comp (ValueIdx.contrEquiv1 dot_S2000x100_S100x200_S2000x200_1_0_0_1_n_n 100 rfl rfl).symm]
  refine Finset.sum_congr rfl fun k _ => ?_
  have hk := ValueIdx.contrEquiv1_symm_val dot_S2000x100_S100x200_S2000x200_1_0_0_1_n_n 100 rfl rfl k
  have el : dot_S2000x100_S100x200_S2000x200_1_0_0_1_n_n.lhsIdx (ix2 r j) ((ValueIdx.contrEquiv1 dot_S2000x100_S100x200_S2000x200_1_0_0_1_n_n 100 rfl rfl).symm k) = ix2 r k := funext fun a => Fin.ext (by
    match a with
    | ⟨0, _⟩ => exact lhs_mmB_0 _ _
    | ⟨1, _⟩ => exact (lhs_mmB_1 _ _).trans hk)
  have er : dot_S2000x100_S100x200_S2000x200_1_0_0_1_n_n.rhsIdx (ix2 r j) ((ValueIdx.contrEquiv1 dot_S2000x100_S100x200_S2000x200_1_0_0_1_n_n 100 rfl rfl).symm k) = ix2 k j := funext fun a => Fin.ext (by
    match a with
    | ⟨0, _⟩ => exact (rhs_mmB_0 _ _).trans hk
    | ⟨1, _⟩ => exact rhs_mmB_1 _ _)
  rw [el, er]

/-! ## The bias rows broadcast down the rows -/

/-- The hidden layer's bias row, broadcast over the 2000 rows, reads the row's entry in the column. -/
private theorem biasA_apply (b : FVec Ideal S1x100 .f32) (r : Fin 2000) (q : Fin 100) :
    broadcastTo S2000x100 b broadcasts_S1x100_S2000x100 (ix2 r q) = b (ix2 (0 : Fin 1) q) := by
  refine broadcastTo_apply b broadcasts_S1x100_S2000x100 (ix2 r q) (ix2 (0 : Fin 1) q) fun a => ?_
  match a with
  | ⟨0, _⟩ => rfl
  | ⟨1, _⟩ => rfl

/-- The output layer's bias row likewise. -/
private theorem biasB_apply (b : FVec Ideal S1x200 .f32) (r : Fin 2000) (j : Fin 200) :
    broadcastTo S2000x200 b broadcasts_S1x200_S2000x200 (ix2 r j) = b (ix2 (0 : Fin 1) j) := by
  refine broadcastTo_apply b broadcasts_S1x200_S2000x200 (ix2 r j) (ix2 (0 : Fin 1) j) fun a => ?_
  match a with
  | ⟨0, _⟩ => rfl
  | ⟨1, _⟩ => rfl

/-! ## The payload at an index -/

/-- The stored block at row `r`, column `j`: two rectified dense layers on the sum of the two row blocks. -/
private theorem pay_apply (x0 x1 : Vec Ideal S2000x101 .f32) (x2 : Vec Ideal S101x100 .f32) (x3 : Vec Ideal S1x100 .f32)
    (x4 : Vec Ideal S100x200 .f32) (x5 : Vec Ideal S1x200 .f32) (r : Fin 2000) (j : Fin 200) :
    k3_pay1 x0 x1 x2 x3 x4 x5 (ix2 r j)
      = max ((∑ q : Fin 100, max ((∑ p : Fin 101, (x0 (ix2 r p) + x1 (ix2 r p)) * x2 (ix2 p q)) + x3 (ix2 (0 : Fin 1) q)) 0
                * x4 (ix2 q j)) + x5 (ix2 (0 : Fin 1) j)) 0 := by
  unfold k3_pay1
  simp only [shapeCast_self]
  rw [maximumf_apply, addf_apply, mmB_apply, biasB_apply, broadcast_apply]
  show max (_ + _) (Ideal.ofBits .f32 0x00000000#32) = _
  rw [Ideal.ofBits_zero_f32]
  congr 2
  refine Finset.sum_congr rfl fun q _ => ?_
  rw [truncf_apply, truncf_apply, maximumf_apply, addf_apply, mmA_apply, biasA_apply, broadcast_apply]
  show max (_ + _) (Ideal.ofBits .f32 0x00000000#32) * _ = _
  rw [Ideal.ofBits_zero_f32]
  congr 3

/-! ## The specification at an index -/

/-- The node update at row `i`, column `j`, with the sums and the two rectifications written out. -/
private theorem spec_apply (X0 X1 : FVec Ideal ⟨2, ![50000, 101]⟩ .f32) (W2 : FVec Ideal ⟨2, ![101, 100]⟩ .f32)
    (B3 : FVec Ideal ⟨2, ![1, 100]⟩ .f32) (W4 : FVec Ideal ⟨2, ![100, 200]⟩ .f32) (B5 : FVec Ideal ⟨2, ![1, 200]⟩ .f32)
    (i : Fin 50000) (j : Fin 200) :
    Cert.Spec.nodeMlp X0 X1 W2 (Cert.Spec.row0 B3) W4 (Cert.Spec.row0 B5) (ix2 i j)
      = max ((∑ q : Fin 100, max ((∑ p : Fin 101, (X0 (ix2 i p) + X1 (ix2 i p)) * W2 (ix2 p q)) + B3 (ix2 (0 : Fin 1) q)) 0
                * W4 (ix2 q j)) + B5 (ix2 (0 : Fin 1) j)) 0 := rfl

/-! ## The blocks of the windows -/

-- the TensorCore's buffer contents when the region is entered: every statement below holds at any such contents
variable (V : (c : Dev nD) → (b : Ref sig .tc) → Buf (Elt Ideal) ((c : Thread nD τ).loc b))

private theorem zero_offsets : (![0, 0] : Fin 2 → Nat) = fun _ => 0 := funext fun a => by fin_cases a <;> rfl

/-- The index maps over the grid: the row-blocked windows (features, aggregate, output) are at block row `t`, block
    column 0; the weights and the bias rows are at block (0, 0) throughout. -/
private theorem index_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Every point writes its output block back: the block row changes at every step. -/
private theorem flush_out : ∀ t : Fin cfg3.N, (cfg3.win 6).flush t = true :=
  (by decide +kernel : ∀ t : Fin grid3.N, win3_6.flush t = true)

/-- Point `t`'s block of the node features is rows `2000 t + r` of the array. -/
private theorem feat_blk (c : Dev nD) (t : Fin cfg3.N) (r : Fin 2000) (p : Fin 101) (k : Fin 50000) (hk : k.val = 2000 * t.val + r.val) :
    iblk3 V c 0 t (ix2 r p) = (V c (Pipeline.arrRef spec3 0) : FVec Ideal ⟨2, ![50000, 101]⟩ .f32) (ix2 k p) := by
  obtain ⟨e0, e1, -⟩ := index_facts t
  unfold iblk3
  rw [View.read_apply]
  show V c (Pipeline.arrRef spec3 0) _ = V c (Pipeline.arrRef spec3 0) _
  congr 1
  funext a; apply Fin.ext
  match a with
  | ⟨0, _⟩ => show win3_0.index t (0 : Fin 2) * 2000 + 1 * r.val = k.val; omega
  | ⟨1, _⟩ => show win3_0.index t (1 : Fin 2) * 101 + 1 * p.val = p.val; omega

/-- Point `t`'s block of the aggregated messages is rows `2000 t + r` of the array. -/
private theorem agg_blk (c : Dev nD) (t : Fin cfg3.N) (r : Fin 2000) (p : Fin 101) (k : Fin 50000) (hk : k.val = 2000 * t.val + r.val) :
    iblk3 V c 1 t (ix2 r p) = (V c (Pipeline.arrRef spec3 1) : FVec Ideal ⟨2, ![50000, 101]⟩ .f32) (ix2 k p) := by
  obtain ⟨-, -, e0, e1, -⟩ := index_facts t
  unfold iblk3
  rw [View.read_apply]
  show V c (Pipeline.arrRef spec3 1) _ = V c (Pipeline.arrRef spec3 1) _
  congr 1
  funext a; apply Fin.ext
  match a with
  | ⟨0, _⟩ => show win3_1.index t (0 : Fin 2) * 2000 + 1 * r.val = k.val; omega
  | ⟨1, _⟩ => show win3_1.index t (1 : Fin 2) * 101 + 1 * p.val = p.val; omega

/-- The hidden layer's weights are staged whole at every point. -/
private theorem wa_blk (c : Dev nD) (t : Fin cfg3.N) (p : Fin 101) (q : Fin 100) :
    iblk3 V c 2 t (ix2 p q) = (V c (Pipeline.arrRef spec3 2) : FVec Ideal ⟨2, ![101, 100]⟩ .f32) (ix2 p q) := by
  obtain ⟨-, -, -, -, e0, e1, -⟩ := index_facts t
  unfold iblk3
  rw [View.read_apply]
  show V c (Pipeline.arrRef spec3 2) _ = V c (Pipeline.arrRef spec3 2) _
  congr 1
  funext a; apply Fin.ext
  match a with
  | ⟨0, _⟩ => show win3_2.index t (0 : Fin 2) * 101 + 1 * p.val = p.val; omega
  | ⟨1, _⟩ => show win3_2.index t (1 : Fin 2) * 100 + 1 * q.val = q.val; omega

/-- The hidden layer's bias row is staged whole at every point. -/
private theorem ba_blk (c : Dev nD) (t : Fin cfg3.N) (q : Fin 100) :
    iblk3 V c 3 t (ix2 (0 : Fin 1) q) = (V c (Pipeline.arrRef spec3 3) : FVec Ideal ⟨2, ![1, 100]⟩ .f32) (ix2 (0 : Fin 1) q) := by
  obtain ⟨-, -, -, -, -, -, e0, e1, -⟩ := index_facts t
  unfold iblk3
  rw [View.read_apply]
  show V c (Pipeline.arrRef spec3 3) _ = V c (Pipeline.arrRef spec3 3) _
  congr 1
  funext a; apply Fin.ext
  match a with
  | ⟨0, _⟩ => show win3_3.index t (0 : Fin 2) * 1 + 1 * 0 = 0; omega
  | ⟨1, _⟩ => show win3_3.index t (1 : Fin 2) * 100 + 1 * q.val = q.val; omega

/-- The output layer's weights are staged whole at every point. -/
private theorem wb_blk (c : Dev nD) (t : Fin cfg3.N) (q : Fin 100) (j : Fin 200) :
    iblk3 V c 4 t (ix2 q j) = (V c (Pipeline.arrRef spec3 4) : FVec Ideal ⟨2, ![100, 200]⟩ .f32) (ix2 q j) := by
  obtain ⟨-, -, -, -, -, -, -, -, e0, e1, -⟩ := index_facts t
  unfold iblk3
  rw [View.read_apply]
  show V c (Pipeline.arrRef spec3 4) _ = V c (Pipeline.arrRef spec3 4) _
  congr 1
  funext a; apply Fin.ext
  match a with
  | ⟨0, _⟩ => show win3_4.index t (0 : Fin 2) * 100 + 1 * q.val = q.val; omega
  | ⟨1, _⟩ => show win3_4.index t (1 : Fin 2) * 200 + 1 * j.val = j.val; omega

/-- The output layer's bias row is staged whole at every point. -/
private theorem bb_blk (c : Dev nD) (t : Fin cfg3.N) (j : Fin 200) :
    iblk3 V c 5 t (ix2 (0 : Fin 1) j) = (V c (Pipeline.arrRef spec3 5) : FVec Ideal ⟨2, ![1, 200]⟩ .f32) (ix2 (0 : Fin 1) j) := by
  obtain ⟨-, -, -, -, -, -, -, -, -, -, e0, e1, -⟩ := index_facts t
  unfold iblk3
  rw [View.read_apply]
  show V c (Pipeline.arrRef spec3 5) _ = V c (Pipeline.arrRef spec3 5) _
  congr 1
  funext a; apply Fin.ext
  match a with
  | ⟨0, _⟩ => show win3_5.index t (0 : Fin 2) * 1 + 1 * 0 = 0; omega
  | ⟨1, _⟩ => show win3_5.index t (1 : Fin 2) * 200 + 1 * j.val = j.val; omega

/-! ## What a point writes back -/

/-- The node update of the entry arrays: what the output array ends holding. -/
private abbrev upd (c : Dev nD) : FVec Ideal ⟨2, ![50000, 200]⟩ .f32 :=
  Cert.Spec.nodeMlp (V c (Pipeline.arrRef spec3 0)) (V c (Pipeline.arrRef spec3 1))
    (V c (Pipeline.arrRef spec3 2)) (Cert.Spec.row0 (V c (Pipeline.arrRef spec3 3)))
    (V c (Pipeline.arrRef spec3 4)) (Cert.Spec.row0 (V c (Pipeline.arrRef spec3 5)))

/-- Point `t`'s block of a whole output array `Y` is its rows `2000 t + r`. -/
private theorem out_blk (Y : FVec Ideal ⟨2, ![50000, 200]⟩ .f32) (t : Fin cfg3.N) (r : Fin 2000) (j : Fin 200) (k : Fin 50000)
    (hk : k.val = 2000 * t.val + r.val) :
    ((cfg3.win 6).blk t).view.read (Elt Ideal) Y (ix2 r j) = Y (ix2 k j) := by
  obtain ⟨-, -, -, -, -, -, -, -, -, -, -, -, e0, e1⟩ := index_facts t
  rw [View.read_apply]
  show Y _ = Y _
  congr 1
  funext a; apply Fin.ext
  match a with
  | ⟨0, _⟩ => show win3_6.index t (0 : Fin 2) * 2000 + 1 * r.val = k.val; omega
  | ⟨1, _⟩ => show win3_6.index t (1 : Fin 2) * 200 + 1 * j.val = j.val; omega

/-- What point `t` writes back is its block of the node update of the whole entry arrays. -/
private theorem flushed_eq (c : Dev nD) (t : Fin cfg3.N) :
    (dat3 (F := Ideal) V c).flushed 6 t = ((cfg3.win 6).blk t).view.read (Elt Ideal) (upd V c) := by
  show (cfg3.win 6).cut (grid3.coords t) ((dat3 V c).after 6 t) = _
  rw [after3_6]
  unfold out3_6
  rw [View.canon_unit_zero zero_offsets]
  simp only [View.ld_unit_zero (S := S2000x101) zero_offsets, View.ld_unit_zero (S := S101x100) zero_offsets,
    View.ld_unit_zero (S := S1x100) zero_offsets, View.ld_unit_zero (S := S100x200) zero_offsets,
    View.ld_unit_zero (S := S1x200) zero_offsets]
  funext j
  obtain ⟨r, q, rfl⟩ : ∃ (r : Fin 2000) (q : Fin 200), j = ix2 r q := ⟨j 0, j 1, eq_ix2 j⟩
  have hN : cfg3.N = 25 := N_3
  have ht : t.val < 25 := hN ▸ t.isLt
  obtain ⟨k, hk⟩ : ∃ k : Fin 50000, k.val = 2000 * t.val + r.val := ⟨⟨2000 * t.val + r.val, by have := r.isLt; omega⟩, rfl⟩
  refine Eq.trans ?_ (out_blk (upd V c) t r q k hk).symm
  refine Eq.trans ?_ (spec_apply _ _ _ _ _ _ k q).symm
  show k3_pay1 (iblk3 V c 0 t) (iblk3 V c 1 t) (iblk3 V c 2 t) (iblk3 V c 3 t) (iblk3 V c 4 t) (iblk3 V c 5 t) (ix2 r q) = _
  refine (pay_apply (iblk3 V c 0 t) (iblk3 V c 1 t) (iblk3 V c 2 t) (iblk3 V c 3 t) (iblk3 V c 4 t) (iblk3 V c 5 t) r q).trans ?_
  simp only [feat_blk V c t r _ k hk, agg_blk V c t r _ k hk, wa_blk V c t, ba_blk V c t, wb_blk V c t, bb_blk V c t]

/-! ## The cover, and the array -/

/-- An index of the output array is in point `t`'s block iff each coordinate is in the block's range on its axis. -/
private theorem mem_blk (t : Fin cfg3.N) (i : S50000x200.Idx) :
    i ∈ ((cfg3.win 6).blk t).view.set ↔ ∀ a : Fin 2, win3_6.index t a * S2000x200.size a ≤ (i a).val ∧ (i a).val < win3_6.index t a * S2000x200.size a + S2000x200.size a := by
  show i ∈ ((View.whole main_v21).slice (win3_6.rect t)).set ↔ _
  rw [View.set_slice_whole, Rect.mem_set_unit]
  exact Iff.rfl

/-- Row `i` lies in the block of point `i / 2000`: the 25 row blocks tile the 50000 rows. -/
private theorem cover (i : S50000x200.Idx) : ∃ t : Fin cfg3.N, (cfg3.win 6).flush t = true ∧ i ∈ ((cfg3.win 6).blk t).view.set := by
  have hi0 : (i 0).val < 50000 := idx2_lt0 i
  have hi1 : (i 1).val < 200 := idx2_lt1 i
  have hN : cfg3.N = 25 := N_3
  obtain ⟨t, ht⟩ : ∃ t : Fin cfg3.N, t.val = (i 0).val / 2000 := ⟨⟨(i 0).val / 2000, by rw [hN]; omega⟩, rfl⟩
  obtain ⟨-, -, -, -, -, -, -, -, -, -, -, -, e0, e1⟩ := index_facts t
  refine ⟨t, flush_out t, ?_⟩
  rw [mem_blk]
  intro a
  match a with
  | ⟨0, _⟩ => show win3_6.index t (0 : Fin 2) * 2000 ≤ (i 0).val ∧ (i 0).val < win3_6.index t (0 : Fin 2) * 2000 + 2000; omega
  | ⟨1, _⟩ => show win3_6.index t (1 : Fin 2) * 200 ≤ (i 1).val ∧ (i 1).val < win3_6.index t (1 : Fin 2) * 200 + 200; omega

/-- Launch 3: the output array is the node update of the entry arrays (features, aggregate, W_a, b_a row, W_b, b_b row). -/
theorem final3 (c : Dev nD) :
    (dat3 (F := Ideal) V c).arrAt 6 cfg3.N =
      Cert.Spec.nodeMlp (V c (Pipeline.arrRef spec3 0)) (V c (Pipeline.arrRef spec3 1))
        (V c (Pipeline.arrRef spec3 2)) (Cert.Spec.row0 (V c (Pipeline.arrRef spec3 3)))
        (V c (Pipeline.arrRef spec3 4)) (Cert.Spec.row0 (V c (Pipeline.arrRef spec3 5))) :=
  (dat3 (F := Ideal) V c).arrAt_eq_of_cover 6 (upd V c) (fun t _ => flushed_eq V c t) cover

end Cert.KernelIdeal.NodeK3

end
-- ==== Proof.HeadK.lean ====
/-
  The head region (the fifth launch), one grid point holding every array whole: after it has run, the output array
  is the graph head `Cert.Spec.headMlp` of the arrays the region was entered with.
-/
import proofs.«427209_j57208964382753_2_alg».proof.Proof.Gen.KernelIdeal.Frame
import proofs.«427209_j57208964382753_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HeadK

open Cert.KernelIdeal Cert.KernelIdeal.Gen
open Idealize.ShloMosaic Idealize.ShloMosaic.TcCoe Idealize.ShloMosaic.ValueIdx Idealize.SL.Sem
open Idealize.ShloMosaic.Pipeline (Dat)

/-! ## The two products at an index

A product into the zero accumulator, read at row r and column j, is the plain sum over the contracted axis of
the left operand's row r times the right operand's column j. -/

private theorem lhs_mm1_0 (i : S512x50.Idx) (q : dot_S512x200_S200x50_S512x50_1_0_0_1_n_n.contr.Idx) :
    (dot_S512x200_S200x50_S512x50_1_0_0_1_n_n.lhsIdx i q 0).val = (i 0).val := by
  unfold DotDims.lhsIdx
  rw [dif_neg (show ¬(0 : Fin S512x200.rank) ∈ dot_S512x200_S200x50_S512x50_1_0_0_1_n_n.lhsBatch by decide), dif_pos (show (0 : Fin S512x200.rank) ∈ dot_S512x200_S200x50_S512x50_1_0_0_1_n_n.lhsNonContracting by decide)]
  rfl
private theorem lhs_mm1_1 (i : S512x50.Idx) (q : dot_S512x200_S200x50_S512x50_1_0_0_1_n_n.contr.Idx) :
    (dot_S512x200_S200x50_S512x50_1_0_0_1_n_n.lhsIdx i q 1).val = (q ⟨0, by decide⟩).val :=
  dot_S512x200_S200x50_S512x50_1_0_0_1_n_n.lhsIdx_val_of_single rfl i q
private theorem rhs_mm1_0 (i : S512x50.Idx) (q : dot_S512x200_S200x50_S512x50_1_0_0_1_n_n.contr.Idx) :
    (dot_S512x200_S200x50_S512x50_1_0_0_1_n_n.rhsIdx i q 0).val = (q ⟨0, by decide⟩).val :=
  dot_S512x200_S200x50_S512x50_1_0_0_1_n_n.rhsIdx_val_of_single rfl i q
private theorem rhs_mm1_1 (i : S512x50.Idx) (q : dot_S512x200_S200x50_S512x50_1_0_0_1_n_n.contr.Idx) :
    (dot_S512x200_S200x50_S512x50_1_0_0_1_n_n.rhsIdx i q 1).val = (i 1).val := by
  unfold DotDims.rhsIdx
  rw [dif_neg (show ¬(1 : Fin S200x50.rank) ∈ dot_S512x200_S200x50_S512x50_1_0_0_1_n_n.rhsBatch by decide), dif_pos (show (1 : Fin S200x50.rank) ∈ dot_S512x200_S200x50_S512x50_1_0_0_1_n_n.rhsNonContracting by decide)]
  rfl

/-- The first product: entry (r, j) is the sum over the 200 features of row r of the left operand times column j of the right. -/
private theorem mm1_apply (lhs : FVec Ideal S512x200 .bf16) (rhs : FVec Ideal S200x50 .bf16) (r : Fin 512) (j : Fin 50) :
    FloatOps.matmul dot_S512x200_S200x50_S512x50_1_0_0_1_n_n none lhs rhs (constant S512x50 .f32 0x00000000#32) (ix2 r j)
      = ∑ k : Fin 200, lhs (ix2 r k) * rhs (ix2 k j) := by
  rw [Ideal.matmul_constant_zero_apply, ← Equiv.sum_comp (contrEquiv1 dot_S512x200_S200x50_S512x50_1_0_0_1_n_n 200 rfl rfl).symm]
  refine Finset.sum_congr rfl fun k _ => ?_
  have hk := contrEquiv1_symm_val dot_S512x200_S200x50_S512x50_1_0_0_1_n_n 200 rfl rfl k
  have el : dot_S512x200_S200x50_S512x50_1_0_0_1_n_n.lhsIdx (ix2 r j) ((contrEquiv1 dot_S512x200_S200x50_S512x50_1_0_0_1_n_n 200 rfl rfl).symm k) = ix2 r k := funext fun a => Fin.ext (by
    match a with
    | ⟨0, _⟩ => exact lhs_mm1_0 _ _
    | ⟨1, _⟩ => exact (lhs_mm1_1 _ _).trans hk)
  have er : dot_S512x200_S200x50_S512x50_1_0_0_1_n_n.rhsIdx (ix2 r j) ((contrEquiv1 dot_S512x200_S200x50_S512x50_1_0_0_1_n_n 200 rfl rfl).symm k) = ix2 k j := funext fun a => Fin.ext (by
    match a with
    | ⟨0, _⟩ => exact (rhs_mm1_0 _ _).trans hk
    | ⟨1, _⟩ => exact rhs_mm1_1 _ _)
  rw [el, er]

private theorem lhs_mm2_0 (i : S512x1.Idx) (q : dot_S512x50_S50x1_S512x1_1_0_0_1_n_n.contr.Idx) :
    (dot_S512x50_S50x1_S512x1_1_0_0_1_n_n.lhsIdx i q 0).val = (i 0).val := by
  unfold DotDims.lhsIdx
  rw [dif_neg (show ¬(0 : Fin S512x50.rank) ∈ dot_S512x50_S50x1_S512x1_1_0_0_1_n_n.lhsBatch by decide), dif_pos (show (0 : Fin S512x50.rank) ∈ dot_S512x50_S50x1_S512x1_1_0_0_1_n_n.lhsNonContracting by decide)]
  rfl
private theorem lhs_mm2_1 (i : S512x1.Idx) (q : dot_S512x50_S50x1_S512x1_1_0_0_1_n_n.contr.Idx) :
    (dot_S512x50_S50x1_S512x1_1_0_0_1_n_n.lhsIdx i q 1).val = (q ⟨0, by decide⟩).val :=
  dot_S512x50_S50x1_S512x1_1_0_0_1_n_n.lhsIdx_val_of_single rfl i q
private theorem rhs_mm2_0 (i : S512x1.Idx) (q : dot_S512x50_S50x1_S512x1_1_0_0_1_n_n.contr.Idx) :
    (dot_S512x50_S50x1_S512x1_1_0_0_1_n_n.rhsIdx i q 0).val = (q ⟨0, by decide⟩).val :=
  dot_S512x50_S50x1_S512x1_1_0_0_1_n_n.rhsIdx_val_of_single rfl i q
private theorem rhs_mm2_1 (i : S512x1.Idx) (q : dot_S512x50_S50x1_S512x1_1_0_0_1_n_n.contr.Idx) :
    (dot_S512x50_S50x1_S512x1_1_0_0_1_n_n.rhsIdx i q 1).val = (i 1).val := by
  unfold DotDims.rhsIdx
  rw [dif_neg (show ¬(1 : Fin S50x1.rank) ∈ dot_S512x50_S50x1_S512x1_1_0_0_1_n_n.rhsBatch by decide), dif_pos (show (1 : Fin S50x1.rank) ∈ dot_S512x50_S50x1_S512x1_1_0_0_1_n_n.rhsNonContracting by decide)]
  rfl

/-- The second product: entry (r, j) is the sum over the 50 hidden units of row r of the left operand times column j of the right. -/
private theorem mm2_apply (lhs : FVec Ideal S512x50 .bf16) (rhs : FVec Ideal S50x1 .bf16) (r : Fin 512) (j : Fin 1) :
    FloatOps.matmul dot_S512x50_S50x1_S512x1_1_0_0_1_n_n none lhs rhs (constant S512x1 .f32 0x00000000#32) (ix2 r j)
      = ∑ k : Fin 50, lhs (ix2 r k) * rhs (ix2 k j) := by
  rw [Ideal.matmul_constant_zero_apply, ← Equiv.sum_comp (contrEquiv1 dot_S512x50_S50x1_S512x1_1_0_0_1_n_n 50 rfl rfl).symm]
  refine Finset.sum_congr rfl fun k _ => ?_
  have hk := contrEquiv1_symm_val dot_S512x50_S50x1_S512x1_1_0_0_1_n_n 50 rfl rfl k
  have el : dot_S512x50_S50x1_S512x1_1_0_0_1_n_n.lhsIdx (ix2 r j) ((contrEquiv1 dot_S512x50_S50x1_S512x1_1_0_0_1_n_n 50 rfl rfl).symm k) = ix2 r k := funext fun a => Fin.ext (by
    match a with
    | ⟨0, _⟩ => exact lhs_mm2_0 _ _
    | ⟨1, _⟩ => exact (lhs_mm2_1 _ _).trans hk)
  have er : dot_S512x50_S50x1_S512x1_1_0_0_1_n_n.rhsIdx (ix2 r j) ((contrEquiv1 dot_S512x50_S50x1_S512x1_1_0_0_1_n_n 50 rfl rfl).symm k) = ix2 k j := funext fun a => Fin.ext (by
    match a with
    | ⟨0, _⟩ => exact (rhs_mm2_0 _ _).trans hk
    | ⟨1, _⟩ => exact rhs_mm2_1 _ _)
  rw [el, er]

/-! ## The bias rows, broadcast down the rows -/

/-- The first bias row broadcast to every row reads its entry j. -/
private theorem bias1_apply (b : FVec Ideal S1x50 .f32) (r : Fin 512) (j : Fin 50) :
    broadcastTo S512x50 b broadcasts_S1x50_S512x50 (ix2 r j) = b (ix2 (0 : Fin 1) j) :=
  broadcastTo_apply b broadcasts_S1x50_S512x50 (ix2 r j) (ix2 (0 : Fin 1) j) (fun a => match a with
    | ⟨0, _⟩ => by show 0 = if (1 : Nat) = 1 then 0 else r.val; rw [if_pos rfl]
    | ⟨1, _⟩ => by show j.val = if (50 : Nat) = 1 then 0 else j.val; rw [if_neg (by decide)])

/-- The second bias row, one entry, broadcast to every row reads that entry. -/
private theorem bias2_apply (b : FVec Ideal S1x1 .f32) (r : Fin 512) (j : Fin 1) :
    broadcastTo S512x1 b broadcasts_S1x1_S512x1 (ix2 r j) = b (ix2 (0 : Fin 1) j) :=
  broadcastTo_apply b broadcasts_S1x1_S512x1 (ix2 r j) (ix2 (0 : Fin 1) j) (fun a => match a with
    | ⟨0, _⟩ => by show 0 = if (1 : Nat) = 1 then 0 else r.val; rw [if_pos rfl]
    | ⟨1, _⟩ => by show j.val = if (1 : Nat) = 1 then 0 else j.val; rw [if_pos rfl]; exact Nat.lt_one_iff.mp j.isLt)

/-! ## The two layers as whole arrays -/

/-- The hidden layer: the first product plus the broadcast bias row, rectified, is the rectified dense layer. -/
private theorem hidden_eq (g : FVec Ideal S512x200 .f32) (Wl : FVec Ideal S200x50 .f32) (bl : FVec Ideal S1x50 .f32) :
    maximumf (addf (matmul dot_S512x200_S200x50_S512x50_1_0_0_1_n_n none (truncf .bf16 g bitsLt_bf16_f32) (truncf .bf16 Wl bitsLt_bf16_f32) (constant S512x50 .f32 0x00000000#32))
        (broadcastTo S512x50 bl broadcasts_S1x50_S512x50)) (broadcast S512x50 (Scalar.ofBits (F := Ideal) .f32 0x00000000#32))
      = Cert.Spec.relu (Cert.Spec.dense g Wl (Cert.Spec.row0 bl)) := by
  funext i
  obtain ⟨r, q, rfl⟩ : ∃ (r : Fin 512) (q : Fin 50), i = ix2 r q := ⟨i 0, i 1, eq_ix2 i⟩
  rw [maximumf_apply, addf_apply, broadcast_apply]
  simp only [matmul]
  rw [mm1_apply, bias1_apply]
  show max _ (Ideal.ofBits .f32 0x00000000#32) = _
  rw [Ideal.ofBits_zero_f32]
  rfl

/-- The output layer: the second product plus the broadcast bias entry, in absolute value, is the head's second dense
    layer followed by the absolute value. -/
private theorem out_eq (h : FVec Ideal S512x50 .f32) (Wl2 : FVec Ideal S50x1 .f32) (bl2 : FVec Ideal S1x1 .f32) :
    absf (addf (matmul dot_S512x50_S50x1_S512x1_1_0_0_1_n_n none (truncf .bf16 h bitsLt_bf16_f32) (truncf .bf16 Wl2 bitsLt_bf16_f32) (constant S512x1 .f32 0x00000000#32))
        (broadcastTo S512x1 bl2 broadcasts_S1x1_S512x1))
      = fun i => max (Cert.Spec.dense h Wl2 (Cert.Spec.row0 bl2) i) (-(Cert.Spec.dense h Wl2 (Cert.Spec.row0 bl2) i)) := by
  funext i
  obtain ⟨r, q, rfl⟩ : ∃ (r : Fin 512) (q : Fin 1), i = ix2 r q := ⟨i 0, i 1, eq_ix2 i⟩
  show FloatOps.absf (addf _ _ (ix2 r q)) = _
  rw [Ideal.absf_def, addf_apply]
  simp only [matmul]
  rw [mm2_apply, bias2_apply]
  rfl

/-- The body's arithmetic: the graph head of the five loaded arrays. -/
private theorem pay_eq (g : Vec Ideal S512x200 .f32) (Wl : Vec Ideal S200x50 .f32) (bl : Vec Ideal S1x50 .f32)
    (Wl2 : Vec Ideal S50x1 .f32) (bl2 : Vec Ideal S1x1 .f32) :
    k4_pay1 (F := Ideal) g Wl bl Wl2 bl2 = Cert.Spec.headMlp g Wl (Cert.Spec.row0 bl) Wl2 (Cert.Spec.row0 bl2) := by
  unfold k4_pay1
  simp only [shapeCast_self]
  rw [hidden_eq, out_eq]
  rfl

-- the TensorCore's buffer contents when the region is entered: every statement below holds at any such contents
variable (V : (c : Dev nD) → (b : Ref sig .tc) → Buf (Elt Ideal) ((c : Thread nD τ).loc b))

/-! ## From the one block to the array

The grid has one point and every window's block is its whole array: each block index is zero on both axes, so a block
read is the array itself, and the one flushed block covers the output. -/

private theorem zeros2 : (![0, 0] : Fin 2 → Nat) = fun _ => 0 := funext fun a => by fin_cases a <;> rfl

/-- The index maps over the grid: every window's block index is zero on both axes. -/
private theorem index_zero : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

/-- The pooled features' block is the whole array. -/
private theorem blk0_eq (c : Dev nD) (t : Fin cfg4.N) : iblk4 (F := Ideal) V c 0 t = V c (Pipeline.arrRef spec4 0) := by
  obtain ⟨e0, e1, -⟩ := index_zero t
  funext y
  show V c (Pipeline.arrRef spec4 0) (((cfg4.win 0).blk t).view.emb y) = V c (Pipeline.arrRef spec4 0) y
  have h : ((cfg4.win 0).blk t).view.emb y = y := by
    funext a; apply Fin.ext
    match a with
    | ⟨0, _⟩ => show win4_0.index t (0 : Fin 2) * 512 + 1 * (y 0).val = (y 0).val; omega
    | ⟨1, _⟩ => show win4_0.index t (1 : Fin 2) * 200 + 1 * (y 1).val = (y 1).val; omega
  rw [h]

/-- The first weight's block is the whole array. -/
private theorem blk1_eq (c : Dev nD) (t : Fin cfg4.N) : iblk4 (F := Ideal) V c 1 t = V c (Pipeline.arrRef spec4 1) := by
  obtain ⟨-, -, e0, e1, -⟩ := index_zero t
  funext y
  show V c (Pipeline.arrRef spec4 1) (((cfg4.win 1).blk t).view.emb y) = V c (Pipeline.arrRef spec4 1) y
  have h : ((cfg4.win 1).blk t).view.emb y = y := by
    funext a; apply Fin.ext
    match a with
    | ⟨0, _⟩ => show win4_1.index t (0 : Fin 2) * 200 + 1 * (y 0).val = (y 0).val; omega
    | ⟨1, _⟩ => show win4_1.index t (1 : Fin 2) * 50 + 1 * (y 1).val = (y 1).val; omega
  rw [h]

/-- The first bias row's block is the whole array. -/
private theorem blk2_eq (c : Dev nD) (t : Fin cfg4.N) : iblk4 (F := Ideal) V c 2 t = V c (Pipeline.arrRef spec4 2) := by
  obtain ⟨-, -, -, -, e0, e1, -⟩ := index_zero t
  funext y
  show V c (Pipeline.arrRef spec4 2) (((cfg4.win 2).blk t).view.emb y) = V c (Pipeline.arrRef spec4 2) y
  have h : ((cfg4.win 2).blk t).view.emb y = y := by
    funext a; apply Fin.ext
    match a with
    | ⟨0, _⟩ => show win4_2.index t (0 : Fin 2) * 1 + 1 * (y 0).val = (y 0).val; omega
    | ⟨1, _⟩ => show win4_2.index t (1 : Fin 2) * 50 + 1 * (y 1).val = (y 1).val; omega
  rw [h]

/-- The second weight's block is the whole array. -/
private theorem blk3_eq (c : Dev nD) (t : Fin cfg4.N) : iblk4 (F := Ideal) V c 3 t = V c (Pipeline.arrRef spec4 3) := by
  obtain ⟨-, -, -, -, -, -, e0, e1, -⟩ := index_zero t
  funext y
  show V c (Pipeline.arrRef spec4 3) (((cfg4.win 3).blk t).view.emb y) = V c (Pipeline.arrRef spec4 3) y
  have h : ((cfg4.win 3).blk t).view.emb y = y := by
    funext a; apply Fin.ext
    match a with
    | ⟨0, _⟩ => show win4_3.index t (0 : Fin 2) * 50 + 1 * (y 0).val = (y 0).val; omega
    | ⟨1, _⟩ => show win4_3.index t (1 : Fin 2) * 1 + 1 * (y 1).val = (y 1).val; omega
  rw [h]

/-- The second bias row's block is the whole array. -/
private theorem blk4_eq (c : Dev nD) (t : Fin cfg4.N) : iblk4 (F := Ideal) V c 4 t = V c (Pipeline.arrRef spec4 4) := by
  obtain ⟨-, -, -, -, -, -, -, -, e0, e1, -⟩ := index_zero t
  funext y
  show V c (Pipeline.arrRef spec4 4) (((cfg4.win 4).blk t).view.emb y) = V c (Pipeline.arrRef spec4 4) y
  have h : ((cfg4.win 4).blk t).view.emb y = y := by
    funext a; apply Fin.ext
    match a with
    | ⟨0, _⟩ => show win4_4.index t (0 : Fin 2) * 1 + 1 * (y 0).val = (y 0).val; omega
    | ⟨1, _⟩ => show win4_4.index t (1 : Fin 2) * 1 + 1 * (y 1).val = (y 1).val; omega
  rw [h]

/-- The output's buffer after the body, from whole arrays: the one store through the whole-shape rectangle leaves the
    body's arithmetic of the five arrays loaded through theirs, which is the head. -/
private theorem out_eq_head (x0 : Vec Ideal S512x200 .f32) (x1 : Vec Ideal S200x50 .f32) (x2 : Vec Ideal S1x50 .f32)
    (x3 : Vec Ideal S50x1 .f32) (x4 : Vec Ideal S1x1 .f32) :
    out4_5 (F := Ideal) x0 x1 x2 x3 x4 = Cert.Spec.headMlp x0 x1 (Cert.Spec.row0 x2) x3 (Cert.Spec.row0 x4) := by
  unfold out4_5
  rw [View.canon_unit_zero zeros2]
  simp only [View.ld_unit_zero (S := S512x200) zeros2, View.ld_unit_zero (S := S200x50) zeros2,
    View.ld_unit_zero (S := S1x50) zeros2, View.ld_unit_zero (S := S50x1) zeros2, View.ld_unit_zero (S := S1x1) zeros2]
  exact pay_eq x0 x1 x2 x3 x4

set_option maxHeartbeats 800000 in
/-- What the body leaves in the output's buffer at the one point is the head of the entry arrays. -/
private theorem after_eq (c : Dev nD) (t : Fin cfg4.N) :
    (dat4 (F := Ideal) V c).after 5 t
      = Cert.Spec.headMlp (V c (Pipeline.arrRef spec4 0)) (V c (Pipeline.arrRef spec4 1))
        (Cert.Spec.row0 (V c (Pipeline.arrRef spec4 2))) (V c (Pipeline.arrRef spec4 3))
        (Cert.Spec.row0 (V c (Pipeline.arrRef spec4 4))) := by
  refine (after4_5 V c t).trans ((out_eq_head _ _ _ _ _).trans ?_)
  rw [blk0_eq V c t, blk1_eq V c t, blk2_eq V c t, blk3_eq V c t, blk4_eq V c t]

set_option maxHeartbeats 800000 in
/-- What the one point writes back is its block of the head of the entry arrays. -/
private theorem flushed_eq (c : Dev nD) (t : Fin cfg4.N) :
    (dat4 (F := Ideal) V c).flushed 5 t = ((cfg4.win 5).blk t).view.read (Elt Ideal)
      (Cert.Spec.headMlp (V c (Pipeline.arrRef spec4 0)) (V c (Pipeline.arrRef spec4 1))
        (Cert.Spec.row0 (V c (Pipeline.arrRef spec4 2))) (V c (Pipeline.arrRef spec4 3))
        (Cert.Spec.row0 (V c (Pipeline.arrRef spec4 4)))) := by
  show (cfg4.win 5).cut (grid4.coords t) ((dat4 (F := Ideal) V c).after 5 t) = _
  rw [after_eq V c t]
  obtain ⟨-, -, -, -, -, -, -, -, -, -, e0, e1⟩ := index_zero t
  funext y
  show Cert.Spec.headMlp (V c (Pipeline.arrRef spec4 0)) (V c (Pipeline.arrRef spec4 1))
        (Cert.Spec.row0 (V c (Pipeline.arrRef spec4 2))) (V c (Pipeline.arrRef spec4 3))
        (Cert.Spec.row0 (V c (Pipeline.arrRef spec4 4))) y
      = Cert.Spec.headMlp (V c (Pipeline.arrRef spec4 0)) (V c (Pipeline.arrRef spec4 1))
        (Cert.Spec.row0 (V c (Pipeline.arrRef spec4 2))) (V c (Pipeline.arrRef spec4 3))
        (Cert.Spec.row0 (V c (Pipeline.arrRef spec4 4))) (((cfg4.win 5).blk t).view.emb y)
  have h : ((cfg4.win 5).blk t).view.emb y = y := by
    funext a; apply Fin.ext
    match a with
    | ⟨0, _⟩ => show win4_5.index t (0 : Fin 2) * 512 + 1 * (y 0).val = (y 0).val; omega
    | ⟨1, _⟩ => show win4_5.index t (1 : Fin 2) * 1 + 1 * (y 1).val = (y 1).val; omega
  rw [h]

/-- An index of the output array is in point t's block iff each coordinate is in the block's range on its axis. -/
private theorem mem_blk (t : Fin cfg4.N) (i : S512x1.Idx) :
    i ∈ ((cfg4.win 5).blk t).view.set ↔ ∀ a : Fin 2, win4_5.index t a * S512x1.size a ≤ (i a).val ∧ (i a).val < win4_5.index t a * S512x1.size a + S512x1.size a := by
  show i ∈ ((View.whole main_v27).slice (win4_5.rect t)).set ↔ _
  rw [View.set_slice_whole, Rect.mem_set_unit]
  exact Iff.rfl

/-- Every index of the output array is in the one point's block. -/
private theorem cover (i : S512x1.Idx) :
    ∃ t : Fin cfg4.N, (cfg4.win 5).flush t = true ∧ i ∈ ((cfg4.win 5).blk t).view.set := by
  refine ⟨t4_0, flush4_5 t4_0, ?_⟩
  rw [mem_blk]
  obtain ⟨-, -, -, -, -, -, -, -, -, -, e0, e1⟩ := index_zero t4_0
  have hi0 : (i 0).val < 512 := (i 0).isLt
  have hi1 : (i 1).val < 1 := (i 1).isLt
  intro a
  match a with
  | ⟨0, _⟩ => show win4_5.index t4_0 (0 : Fin 2) * 512 ≤ (i 0).val ∧ (i 0).val < win4_5.index t4_0 (0 : Fin 2) * 512 + 512; omega
  | ⟨1, _⟩ => show win4_5.index t4_0 (1 : Fin 2) * 1 ≤ (i 1).val ∧ (i 1).val < win4_5.index t4_0 (1 : Fin 2) * 1 + 1; omega

/-- Launch 4: the output array is the head of the entry arrays (pooled features, W_l, b_l row, W_l2, b_l2 row). -/
theorem final4 (c : Dev nD) :
    (dat4 (F := Ideal) V c).arrAt 5 cfg4.N =
      Cert.Spec.headMlp (V c (Pipeline.arrRef spec4 0)) (V c (Pipeline.arrRef spec4 1))
        (Cert.Spec.row0 (V c (Pipeline.arrRef spec4 2))) (V c (Pipeline.arrRef spec4 3))
        (Cert.Spec.row0 (V c (Pipeline.arrRef spec4 4))) :=
  (dat4 (F := Ideal) V c).arrAt_eq_of_cover 5 _ (fun t _ => flushed_eq V c t) cover

end Cert.KernelIdeal.HeadK

end
-- ==== Proof.FoldK2.lean ====
/-
  The second round of message passing, the pooling and the head, read off the buffer contents at the segment
  boundaries from the exit of the second launch on: with `H` the first layer's node features (`main_v12` at that
  boundary), the result buffer `main_v27` at the last boundary is the head of the pooled second-layer features.
  Each boundary's contents are the previous boundary's with a host stretch applied or with a region's arrays replaced
  by what its grid leaves; an argument, the sources and the destinations are written once or never, so they read
  back to where they were made.
-/
import proofs.«427209_j57208964382753_2_alg».proof.Proof.Gen.KernelIdeal.Frame
import proofs.«427209_j57208964382753_2_alg».proof.Proof.Spec
import proofs.«427209_j57208964382753_2_alg».proof.Proof.HostMapsK
import proofs.«427209_j57208964382753_2_alg».proof.Proof.TakeK
import proofs.«427209_j57208964382753_2_alg».proof.Proof.EdgeK
import proofs.«427209_j57208964382753_2_alg».proof.Proof.NodeK3
import proofs.«427209_j57208964382753_2_alg».proof.Proof.HeadK
import proofs.«427209_j57208964382753_2_alg».proof.Proof.FoldArgs
import proofs.«427209_j57208964382753_2_alg».proof.Proof.FoldTake
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.FoldK2

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## A bias kept as a one-row matrix -/

/-- A vector reshaped to a one-row matrix and read back along that row is the vector. -/
theorem row0_cast {p : Nat} (b : FVec Ideal ⟨1, ![p]⟩ .f32) (h : (⟨1, ![p]⟩ : Shape).ShapeCasts ⟨2, ![1, p]⟩) :
    Cert.Spec.row0 (shapeCast ⟨2, ![1, p]⟩ b h) = b := by
  funext j
  unfold Cert.Spec.row0
  refine shapeCast_apply b h (ix2 (0 : Fin 1) (j 0 : Fin p)) j ?_
  rw [Shape.rowMajor_val_one, Shape.rowMajor_val_two]
  show (j 0).val = (0 : Nat) * p + (j 0).val
  omega

/-! ## The buffers a host stretch writes, each at the boundary after its stretch -/

/-- The second edge bias as the one-row matrix the third launch reads. -/
theorem W8_v14 (c : Dev nD) :
    W8 (F := Ideal) m ρ c (Proc.devRef .tc main_v14) =
      shapeCast S1x101 (m ((c.tc : Thread nD τ).loc main_arg12) : (⟨S101, .f32⟩ : BufTy).Contents (Elt Ideal)) shapeCasts_S101_S1x101 := by
  show StableHlo.after hostOps2_1 (W7 (F := Ideal) m ρ c) (Proc.devRef .tc main_v14) = _
  generalize hV : W7 (F := Ideal) m ρ c = V7
  after_results
  subst hV
  rw [FoldArgs.W7_arg12]
  rfl

/-- The reshape after the second take writes the bias row only: the take's result stands. -/
theorem W8_v13 (c : Dev nD) :
    W8 (F := Ideal) m ρ c (Proc.devRef .tc main_v13) = W7 (F := Ideal) m ρ c (Proc.devRef .tc main_v13) :=
  StableHlo.after_of_forall_not_mem (b := Proc.devRef .tc main_v13) _ _ (List.forall_iff_forall_mem.mp (by
    simp only [hostOps2_1, List.Forall, StableHlo.reshape_writes, Finset.mem_singleton]
    exact StableHlo.devRef_ne_of_ne (by decide)))

/-- The second round's messages summed into their destination nodes. -/
theorem W10_v18 (c : Dev nD) :
    W10 (F := Ideal) m ρ c (Proc.devRef .tc main_v18) =
      HostMaps.segDst (F := Ideal) (m ((c.tc : Thread nD τ).loc main_arg1)) (W9 (F := Ideal) m ρ c (Proc.devRef .tc main_v15)) := by
  show StableHlo.after hostOps3 (W9 (F := Ideal) m ρ c) (Proc.devRef .tc main_v18) = _
  after_results
  rw [FoldArgs.W9_v3]
  generalize W9 (F := Ideal) m ρ c (Proc.devRef .tc main_v15) = u
  rfl

/-- The second node layer's two biases as one-row matrices. -/
theorem W10_v19 (c : Dev nD) :
    W10 (F := Ideal) m ρ c (Proc.devRef .tc main_v19) =
      shapeCast S1x100 (m ((c.tc : Thread nD τ).loc main_arg14) : (⟨S100, .f32⟩ : BufTy).Contents (Elt Ideal)) shapeCasts_S100_S1x100 := by
  show StableHlo.after hostOps3 (W9 (F := Ideal) m ρ c) (Proc.devRef .tc main_v19) = _
  after_results
  rw [FoldArgs.W9_arg14]
  rfl
theorem W10_v20 (c : Dev nD) :
    W10 (F := Ideal) m ρ c (Proc.devRef .tc main_v20) =
      shapeCast S1x200 (m ((c.tc : Thread nD τ).loc main_arg16) : (⟨S200, .f32⟩ : BufTy).Contents (Elt Ideal)) shapeCasts_S200_S1x200 := by
  show StableHlo.after hostOps3 (W9 (F := Ideal) m ρ c) (Proc.devRef .tc main_v20) = _
  after_results
  rw [FoldArgs.W9_arg16]
  rfl

/-- The second layer's node features summed into their graphs. -/
theorem W12_v24 (c : Dev nD) :
    W12 (F := Ideal) m ρ c (Proc.devRef .tc main_v24) =
      HostMaps.pool (F := Ideal) (m ((c.tc : Thread nD τ).loc main_arg4)) (W11 (F := Ideal) m ρ c (Proc.devRef .tc main_v21)) := by
  show StableHlo.after hostOps4 (W11 (F := Ideal) m ρ c) (Proc.devRef .tc main_v24) = _
  after_results
  rw [FoldArgs.W11_arg4]
  generalize W11 (F := Ideal) m ρ c (Proc.devRef .tc main_v21) = u
  rfl

/-- The head's two biases as one-row matrices. -/
theorem W12_v25 (c : Dev nD) :
    W12 (F := Ideal) m ρ c (Proc.devRef .tc main_v25) =
      shapeCast S1x50 (m ((c.tc : Thread nD τ).loc main_arg18) : (⟨S50, .f32⟩ : BufTy).Contents (Elt Ideal)) shapeCasts_S50_S1x50 := by
  show StableHlo.after hostOps4 (W11 (F := Ideal) m ρ c) (Proc.devRef .tc main_v25) = _
  after_results
  rw [FoldArgs.W11_arg18]
  rfl
theorem W12_v26 (c : Dev nD) :
    W12 (F := Ideal) m ρ c (Proc.devRef .tc main_v26) =
      shapeCast S1x1 (m ((c.tc : Thread nD τ).loc main_arg20) : (⟨S1, .f32⟩ : BufTy).Contents (Elt Ideal)) shapeCasts_S1_S1x1 := by
  show StableHlo.after hostOps4 (W11 (F := Ideal) m ρ c) (Proc.devRef .tc main_v26) = _
  after_results
  rw [FoldArgs.W11_arg20]
  rfl

/-! ## The three launches' outputs, each at its launch's exit -/

/-- The third launch leaves the second round's edge messages, at the first layer's features gathered at the sources. -/
theorem W9_v15 (c : Dev nD) (hok : TakeK.SrcOk (m ((c.tc : Thread nD τ).loc main_arg1))) :
    W9 (F := Ideal) m ρ c (Proc.devRef .tc main_v15) =
      (Cert.Spec.edgeMsg (m ((c.tc : Thread nD τ).loc main_arg3)) (m ((c.tc : Thread nD τ).loc main_arg11)) (m ((c.tc : Thread nD τ).loc main_arg12))
          (HostMaps.gatherSrc (F := Ideal) (m ((c.tc : Thread nD τ).loc main_arg1)) (W6 (F := Ideal) m ρ c (Proc.devRef .tc main_v12)))) := by
  refine ((W9_arr m ρ c 4).trans (EdgeK.final2 (V8 (F := Ideal) m ρ) c)).trans ?_
  have e0 : V8 (F := Ideal) m ρ c (Pipeline.arrRef spec2 0) = _ := FoldArgs.W8_arg3 m ρ c
  have e1 : V8 (F := Ideal) m ρ c (Pipeline.arrRef spec2 1) = _ := FoldArgs.W8_arg11 m ρ c
  have e2 : Cert.Spec.row0 (p := 101) (V8 (F := Ideal) m ρ c (Pipeline.arrRef spec2 2)) = _ :=
    (congrArg (Cert.Spec.row0 (p := 101)) (W8_v14 m ρ c)).trans (row0_cast _ _)
  have e3 : V8 (F := Ideal) m ρ c (Pipeline.arrRef spec2 3) = _ :=
    (W8_v13 m ρ c).trans ((FoldTake.W7_v13 m ρ c).trans (TakeK.take_eq_gather _ hok _))
  rw [e0, e1, e2, e3]

/-- The fourth launch leaves the second layer's node features. -/
theorem W11_v21 (c : Dev nD) (hok : TakeK.SrcOk (m ((c.tc : Thread nD τ).loc main_arg1))) :
    W11 (F := Ideal) m ρ c (Proc.devRef .tc main_v21) =
      (Cert.Spec.nodeMlp (W6 (F := Ideal) m ρ c (Proc.devRef .tc main_v12))
          (HostMaps.segDst (F := Ideal) (m ((c.tc : Thread nD τ).loc main_arg1)) (Cert.Spec.edgeMsg (m ((c.tc : Thread nD τ).loc main_arg3)) (m ((c.tc : Thread nD τ).loc main_arg11)) (m ((c.tc : Thread nD τ).loc main_arg12))
          (HostMaps.gatherSrc (F := Ideal) (m ((c.tc : Thread nD τ).loc main_arg1)) (W6 (F := Ideal) m ρ c (Proc.devRef .tc main_v12)))))
          (m ((c.tc : Thread nD τ).loc main_arg13)) (m ((c.tc : Thread nD τ).loc main_arg14)) (m ((c.tc : Thread nD τ).loc main_arg15)) (m ((c.tc : Thread nD τ).loc main_arg16))) := by
  refine ((W11_arr m ρ c 6).trans (NodeK3.final3 (V10 (F := Ideal) m ρ) c)).trans ?_
  have e0 : V10 (F := Ideal) m ρ c (Pipeline.arrRef spec3 0) = _ := FoldArgs.W10_v12 m ρ c
  have e1 : V10 (F := Ideal) m ρ c (Pipeline.arrRef spec3 1) = _ :=
    (W10_v18 m ρ c).trans (congrArg (HostMaps.segDst (F := Ideal) _) (W9_v15 m ρ c hok))
  have e2 : V10 (F := Ideal) m ρ c (Pipeline.arrRef spec3 2) = _ := FoldArgs.W10_arg13 m ρ c
  have e3 : Cert.Spec.row0 (p := 100) (V10 (F := Ideal) m ρ c (Pipeline.arrRef spec3 3)) = _ :=
    (congrArg (Cert.Spec.row0 (p := 100)) (W10_v19 m ρ c)).trans (row0_cast _ _)
  have e4 : V10 (F := Ideal) m ρ c (Pipeline.arrRef spec3 4) = _ := FoldArgs.W10_arg15 m ρ c
  have e5 : Cert.Spec.row0 (p := 200) (V10 (F := Ideal) m ρ c (Pipeline.arrRef spec3 5)) = _ :=
    (congrArg (Cert.Spec.row0 (p := 200)) (W10_v20 m ρ c)).trans (row0_cast _ _)
  rw [e0, e1, e2, e3, e4, e5]

/-- At the last boundary the result buffer is the head of the pooled second-layer node features, the second layer
    taken at the first layer's features `H` as the exit of the second launch holds them. -/
theorem out_value (c : Dev nD) (hok : TakeK.SrcOk (m ((c.tc : Thread nD τ).loc main_arg1))) :
    W13 (F := Ideal) m ρ c (Proc.devRef .tc main_v27) =
      Cert.Spec.headMlp
        (HostMaps.pool (F := Ideal) (m ((c.tc : Thread nD τ).loc main_arg4))
          (Cert.Spec.nodeMlp (W6 (F := Ideal) m ρ c (Proc.devRef .tc main_v12))
            (HostMaps.segDst (F := Ideal) (m ((c.tc : Thread nD τ).loc main_arg1))
              (Cert.Spec.edgeMsg (m ((c.tc : Thread nD τ).loc main_arg3)) (m ((c.tc : Thread nD τ).loc main_arg11)) (m ((c.tc : Thread nD τ).loc main_arg12))
                (HostMaps.gatherSrc (F := Ideal) (m ((c.tc : Thread nD τ).loc main_arg1)) (W6 (F := Ideal) m ρ c (Proc.devRef .tc main_v12)))))
            (m ((c.tc : Thread nD τ).loc main_arg13)) (m ((c.tc : Thread nD τ).loc main_arg14)) (m ((c.tc : Thread nD τ).loc main_arg15)) (m ((c.tc : Thread nD τ).loc main_arg16))))
        (m ((c.tc : Thread nD τ).loc main_arg17)) (m ((c.tc : Thread nD τ).loc main_arg18)) (m ((c.tc : Thread nD τ).loc main_arg19)) (m ((c.tc : Thread nD τ).loc main_arg20)) := by
  refine ((W13_arr m ρ c 5).trans (HeadK.final4 (V12 (F := Ideal) m ρ) c)).trans ?_
  have e0 : V12 (F := Ideal) m ρ c (Pipeline.arrRef spec4 0) = _ :=
    (W12_v24 m ρ c).trans (congrArg (HostMaps.pool (F := Ideal) _) (W11_v21 m ρ c hok))
  have e1 : V12 (F := Ideal) m ρ c (Pipeline.arrRef spec4 1) = _ := FoldArgs.W12_arg17 m ρ c
  have e2 : Cert.Spec.row0 (p := 50) (V12 (F := Ideal) m ρ c (Pipeline.arrRef spec4 2)) = _ :=
    (congrArg (Cert.Spec.row0 (p := 50)) (W12_v25 m ρ c)).trans (row0_cast _ _)
  have e3 : V12 (F := Ideal) m ρ c (Pipeline.arrRef spec4 3) = _ := FoldArgs.W12_arg19 m ρ c
  have e4 : Cert.Spec.row0 (p := 1) (V12 (F := Ideal) m ρ c (Pipeline.arrRef spec4 4)) = _ :=
    (congrArg (Cert.Spec.row0 (p := 1)) (W12_v26 m ρ c)).trans (row0_cast _ _)
  rw [e0, e1, e2, e3, e4]

end Cert.KernelIdeal.FoldK2

end
-- ==== Proof.KernelValue.lean ====
/-
  The kernel program's result, as the network `Cert.Spec.model` of its argument arrays over its own three host maps:
  the two rounds of message passing read off the segment boundaries, put together.
-/
import proofs.«427209_j57208964382753_2_alg».proof.Proof.FoldK1
import proofs.«427209_j57208964382753_2_alg».proof.Proof.FoldK2

noncomputable section

namespace Cert.KernelIdeal.KernelValue

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- With every source in range, the result buffer at the last boundary is the network of the launch arrays. -/
theorem kernel_value (c : Dev nD) (hok : TakeK.SrcOk (m ((c.tc : Thread nD τ).loc main_arg1))) :
    W13 (F := Ideal) m ρ c (Proc.devRef .tc main_v27) =
      Cert.Spec.model (HostMaps.gatherSrc (F := Ideal) (m ((c.tc : Thread nD τ).loc main_arg1))) (HostMaps.segDst (F := Ideal) (m ((c.tc : Thread nD τ).loc main_arg1)))
        (HostMaps.pool (F := Ideal) (m ((c.tc : Thread nD τ).loc main_arg4)))
        (m ((c.tc : Thread nD τ).loc main_arg0)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
        (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
        (m ((c.tc : Thread nD τ).loc main_arg17)) (m ((c.tc : Thread nD τ).loc main_arg18)) (m ((c.tc : Thread nD τ).loc main_arg19)) (m ((c.tc : Thread nD τ).loc main_arg20)) := by
  rw [FoldK2.out_value m ρ c hok, FoldK1.h1_value m ρ c hok]
  rfl

end Cert.KernelIdeal.KernelValue

end
-- ==== Proof.HostMapsR.lean ====
/-
  The three host maps of the network, as this program's own host operations spell them, each a function of the raw
  integer inputs: the row gather at the edges' sources (a negative source counts from the end: `s + 50000`), the sum of
  edge rows into their destination nodes, and the sum of node rows into their graphs. They are carried whole: nothing
  here or downstream looks inside a gather or a scatter.
-/
import proofs.«427209_j57208964382753_2_alg».proof.Proof.Gen.ReferenceIdeal

noncomputable section

namespace Cert.ReferenceIdeal.HostMaps

open Cert.ReferenceIdeal Cert.ReferenceIdeal.Gen Idealize.ShloMosaic

variable {F : FTy → Type} [FloatOps F]

/-- Row 0 of the edge list: the edges' sources. -/
def srcOf (ei : (⟨S2x800000, .i32⟩ : BufTy).Contents (Elt F)) : (⟨S800000, .i32⟩ : BufTy).Contents (Elt F) :=
  shapeCast S800000 (extractStridedSlice S1x800000 ![0, 0] ei slices_S2x800000_S1x800000_0_0) shapeCasts_S1x800000_S800000

/-- Row 1 of the edge list: the edges' destinations. -/
def dstOf (ei : (⟨S2x800000, .i32⟩ : BufTy).Contents (Elt F)) : (⟨S800000, .i32⟩ : BufTy).Contents (Elt F) :=
  shapeCast S800000 (extractStridedSlice S1x800000 ![1, 0] ei slices_S2x800000_S1x800000_1_0) shapeCasts_S1x800000_S800000

/-- A negative index counts from the end of the 50000 rows. -/
def wrapOf (s : (⟨S800000, .i32⟩ : BufTy).Contents (Elt F)) : (⟨S800000, .i32⟩ : BufTy).Contents (Elt F) :=
  select (cmpi .slt s (broadcastInDim S800000 ![] bcast_S_S800000 (constantI S_ 32 0#32)))
    (addi s (broadcastInDim S800000 ![] bcast_S_S800000 (constantI S_ 32 50000#32))) s

/-- The wrapped sources as a column of row indices. -/
def srcIdx (ei : (⟨S2x800000, .i32⟩ : BufTy).Contents (Elt F)) : (⟨S800000x1, .i32⟩ : BufTy).Contents (Elt F) :=
  broadcastInDim S800000x1 ![0] bcast_S800000_S800000x1_0 (wrapOf (srcOf ei))

/-- The row gather at the edges' sources. -/
def gatherSrc (ei : (⟨S2x800000, .i32⟩ : BufTy).Contents (Elt F))
    (h : (⟨S50000x101, .f32⟩ : BufTy).Contents (Elt F)) : (⟨S800000x101, .f32⟩ : BufTy).Contents (Elt F) :=
  Host.gather gather_S50000x101_S800000x1_S800000x101_1_0_n_n_0_1_1101 h (srcIdx ei)

/-- The sum of edge rows into their destination nodes, from zero. -/
def segDst (ei : (⟨S2x800000, .i32⟩ : BufTy).Contents (Elt F))
    (u : (⟨S800000x101, .f32⟩ : BufTy).Contents (Elt F)) : (⟨S50000x101, .f32⟩ : BufTy).Contents (Elt F) :=
  Host.scatterAdd scatter_S50000x101_S800000x1_S800000x101_1_0_0_1
    (broadcastInDim S50000x101 ![] bcast_S_S50000x101 (constant S_ .f32 0x00000000#32))
    (broadcastInDim S800000x1 ![0] bcast_S800000_S800000x1_0 (dstOf ei)) u

/-- The sum of node rows into their graphs, from zero. -/
def pool (batch : (⟨S50000, .i32⟩ : BufTy).Contents (Elt F))
    (u : (⟨S50000x200, .f32⟩ : BufTy).Contents (Elt F)) : (⟨S512x200, .f32⟩ : BufTy).Contents (Elt F) :=
  Host.scatterAdd scatter_S512x200_S50000x1_S50000x200_1_0_0_1
    (broadcastInDim S512x200 ![] bcast_S_S512x200 (constant S_ .f32 0x00000000#32))
    (broadcastInDim S50000x1 ![0] bcast_S50000_S50000x1_0 batch) u

end Cert.ReferenceIdeal.HostMaps

end
-- ==== Proof.RefLayersA.lean ====
/-
  The reference's edge message and graph head, as its host operations spell them over whole arrays, are the
  functions `Cert.Spec.edgeMsg` and `Cert.Spec.headMlp`: a `dot_general` contracting the one shared axis is the plain
  sum over that axis, a bias broadcast along the rows reads its entry `j`, and the rectifier is the maximum with a
  broadcast zero.

  The layer facts are stated once, for every `n × k` by `k × p` product with these dimension numbers. A broadcast
  reads coordinate `0` on an operand axis of size one; a bias of length one has no other coordinate, so the same
  fact covers the head's last layer (`p = 1`) and the wider ones alike.
-/
import proofs.«427209_j57208964382753_2_alg».proof.Proof.Gen.ReferenceIdeal
import proofs.«427209_j57208964382753_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefLayersA

open Cert.ReferenceIdeal Cert.ReferenceIdeal.Gen
open Idealize.ShloMosaic Idealize.ShloMosaic.TcCoe Idealize.ShloMosaic.ValueIdx

/-- A `dot_general` of an `n × k` array with a `k × p` array that contracts the left operand's axis 1 with the right
    operand's axis 0 and has no batch axis reads, at `(a, c)`, the plain sum over `q` of `x[a, q] * W[q, c]`. -/
private theorem dot_apply {n k p : Nat} (D : DotDims ⟨2, ![n, k]⟩ ⟨2, ![k, p]⟩ ⟨2, ![n, p]⟩)
    (hlc : D.lhsContracting = [1]) (hrc : D.rhsContracting = [0])
    (hln : D.lhsNonContracting = [0]) (hrn : D.rhsNonContracting = [1])
    (hlb : D.lhsBatch = []) (hrb : D.rhsBatch = [])
    (hr : D.contr.rank = 1) (hs : D.contr.size ⟨0, by omega⟩ = k)
    (x : FVec Ideal ⟨2, ![n, k]⟩ .f32) (W : FVec Ideal ⟨2, ![k, p]⟩ .f32) (a : Fin n) (c : Fin p) :
    Host.dotGeneral D none x W (ix2 a c) = ∑ q : Fin k, x (ix2 a q) * W (ix2 q c) := by
  simp only [Host.dotGeneral]
  rw [Ideal.dotGeneral_apply, ← Equiv.sum_comp (contrEquiv1 D k hr hs).symm]
  refine Finset.sum_congr rfl fun q _ => ?_
  have hq := contrEquiv1_symm_val D k hr hs q
  have key : ∀ (j : (⟨2, ![n, p]⟩ : Shape).Idx) (u v : Nat) (hu : u < 2) (hv : v < 2), u = v →
      (j ⟨u, hu⟩).val = (j ⟨v, hv⟩).val := fun j u v hu hv h => by subst h; rfl
  have l0 : ∀ qq, (D.lhsIdx (ix2 a c) qq 0).val = a.val := fun qq => by
    unfold DotDims.lhsIdx
    rw [dif_neg (show ¬(0 : Fin (⟨2, ![n, k]⟩ : Shape).rank) ∈ D.lhsBatch by rw [hlb]; exact List.not_mem_nil),
      dif_pos (show (0 : Fin (⟨2, ![n, k]⟩ : Shape).rank) ∈ D.lhsNonContracting by rw [hln]; exact List.mem_singleton.mpr rfl)]
    simp only [Fin.val_cast]
    exact key (ix2 a c) _ 0 _ (by decide) (by simp [hlb, hln])
  have r1 : ∀ qq, (D.rhsIdx (ix2 a c) qq 1).val = c.val := fun qq => by
    unfold DotDims.rhsIdx
    rw [dif_neg (show ¬(1 : Fin (⟨2, ![k, p]⟩ : Shape).rank) ∈ D.rhsBatch by rw [hrb]; exact List.not_mem_nil),
      dif_pos (show (1 : Fin (⟨2, ![k, p]⟩ : Shape).rank) ∈ D.rhsNonContracting by rw [hrn]; exact List.mem_singleton.mpr rfl)]
    simp only [Fin.val_cast]
    exact key (ix2 a c) _ 1 _ (by decide) (by simp [hlb, hln, hrn])
  have el : D.lhsIdx (ix2 a c) ((contrEquiv1 D k hr hs).symm q) = ix2 a q := funext fun t => Fin.ext (by
    match t with
    | ⟨0, _⟩ => exact l0 _
    | ⟨1, _⟩ => exact (D.lhsIdx_val_of_single hlc _ _).trans hq)
  have er : D.rhsIdx (ix2 a c) ((contrEquiv1 D k hr hs).symm q) = ix2 q c := funext fun t => Fin.ext (by
    match t with
    | ⟨0, _⟩ => exact (D.rhsIdx_val_of_single hrc _ _).trans hq
    | ⟨1, _⟩ => exact r1 _)
  rw [el, er]

/-- A bias `b` of length `p`, made a one-row matrix and then repeated along `n` rows, reads `b[c]` at `(a, c)`. -/
private theorem bias_apply {n p : Nat} (h1 : (⟨1, ![p]⟩ : Shape).BroadcastsInDim ⟨2, ![1, p]⟩ ![1])
    (h2 : (⟨2, ![1, p]⟩ : Shape).BroadcastsInDim ⟨2, ![n, p]⟩ ![0, 1])
    (b : FVec Ideal ⟨1, ![p]⟩ .f32) (a : Fin n) (c : Fin p) :
    broadcastInDim ⟨2, ![n, p]⟩ ![0, 1] h2 (broadcastInDim ⟨2, ![1, p]⟩ ![1] h1 b) (ix2 a c) = b (ix1 c) := by
  rw [broadcastInDim_apply _ h2 _ (ix2 a c) (ix2 (0 : Fin 1) c) (fun t => match t with
      | ⟨0, _⟩ => by show (0 : Nat) = if (1 : Nat) = 1 then 0 else a.val; rw [if_pos rfl]
      | ⟨1, _⟩ => by
        show c.val = if p = 1 then 0 else c.val
        split
        · have := c.isLt; omega
        · rfl),
    broadcastInDim_apply _ h1 b (ix2 (0 : Fin 1) c) (ix1 c) (fun t => match t with
      | ⟨0, _⟩ => by
        show c.val = if p = 1 then 0 else c.val
        split
        · have := c.isLt; omega
        · rfl)]

/-- The scalar constant `0.0` repeated over any shape reads the extended real `0` everywhere. -/
private theorem zero_apply {s : Shape} (h : (⟨0, ![]⟩ : Shape).BroadcastsInDim s ![]) (i : s.Idx) :
    broadcastInDim s ![] h (constant (F := Ideal) ⟨0, ![]⟩ .f32 0x00000000#32) i = 0 := by
  rw [broadcastInDim_apply _ h _ i ix0 (fun t => t.elim0), constant_apply, Ideal.ofBits_zero_f32]

/-- A dense layer as the reference spells it, the product plus the bias repeated along the rows, is `Cert.Spec.dense`. -/
private theorem dense_eq {n k p : Nat} (D : DotDims ⟨2, ![n, k]⟩ ⟨2, ![k, p]⟩ ⟨2, ![n, p]⟩)
    (hlc : D.lhsContracting = [1]) (hrc : D.rhsContracting = [0])
    (hln : D.lhsNonContracting = [0]) (hrn : D.rhsNonContracting = [1])
    (hlb : D.lhsBatch = []) (hrb : D.rhsBatch = [])
    (hr : D.contr.rank = 1) (hs : D.contr.size ⟨0, by omega⟩ = k)
    (h1 : (⟨1, ![p]⟩ : Shape).BroadcastsInDim ⟨2, ![1, p]⟩ ![1])
    (h2 : (⟨2, ![1, p]⟩ : Shape).BroadcastsInDim ⟨2, ![n, p]⟩ ![0, 1])
    (x : FVec Ideal ⟨2, ![n, k]⟩ .f32) (W : FVec Ideal ⟨2, ![k, p]⟩ .f32) (b : FVec Ideal ⟨1, ![p]⟩ .f32) :
    addf (Host.dotGeneral D none x W)
      (broadcastInDim ⟨2, ![n, p]⟩ ![0, 1] h2 (broadcastInDim ⟨2, ![1, p]⟩ ![1] h1 b))
    = Cert.Spec.dense x W b := by
  funext i
  obtain ⟨a, c, rfl⟩ : ∃ (a : Fin n) (c : Fin p), i = ix2 a c := ⟨i 0, i 1, eq_ix2 i⟩
  rw [addf_apply, bias_apply, dot_apply D hlc hrc hln hrn hlb hrb hr hs]
  rfl

/-- The maximum with a broadcast zero is the rectifier `Cert.Spec.relu`. -/
private theorem relu_eq {s : Shape} (h : (⟨0, ![]⟩ : Shape).BroadcastsInDim s ![]) (y : FVec Ideal s .f32) :
    maximumf y (broadcastInDim s ![] h (constant (F := Ideal) ⟨0, ![]⟩ .f32 0x00000000#32)) = Cert.Spec.relu y := by
  funext i
  rw [maximumf_apply, zero_apply]
  rfl

/-- The edge message: `max (xg + (ea · We + be)) 0` as the reference spells it. -/
theorem edge_eq (ea : FVec Ideal S800000x101 .f32) (We : FVec Ideal S101x101 .f32) (be : FVec Ideal S101 .f32)
    (xg : FVec Ideal S800000x101 .f32) :
    maximumf (addf xg (addf (Host.dotGeneral dot_S800000x101_S101x101_S800000x101_1_0_0_1_n_n none ea We)
        (broadcastInDim S800000x101 ![0, 1] bcast_S1x101_S800000x101_0_1 (broadcastInDim S1x101 ![1] bcast_S101_S1x101_1 be))))
      (broadcastInDim S800000x101 ![] bcast_S_S800000x101 (constant (F := Ideal) S_ .f32 0x00000000#32))
    = Cert.Spec.edgeMsg ea We be xg := by
  rw [dense_eq dot_S800000x101_S101x101_S800000x101_1_0_0_1_n_n rfl rfl rfl rfl rfl rfl rfl rfl
      bcast_S101_S1x101_1 bcast_S1x101_S800000x101_0_1, relu_eq]
  rfl

/-- The head: `|max (g · Wl + bl) 0 · Wl2 + bl2|` as the reference spells it. -/
theorem head_eq (g : FVec Ideal S512x200 .f32) (Wl : FVec Ideal S200x50 .f32) (bl : FVec Ideal S50 .f32)
    (Wl2 : FVec Ideal S50x1 .f32) (bl2 : FVec Ideal S1 .f32) :
    Host.absf (addf (Host.dotGeneral dot_S512x50_S50x1_S512x1_1_0_0_1_n_n none
        (maximumf (addf (Host.dotGeneral dot_S512x200_S200x50_S512x50_1_0_0_1_n_n none g Wl)
            (broadcastInDim S512x50 ![0, 1] bcast_S1x50_S512x50_0_1 (broadcastInDim S1x50 ![1] bcast_S50_S1x50_1 bl)))
          (broadcastInDim S512x50 ![] bcast_S_S512x50 (constant (F := Ideal) S_ .f32 0x00000000#32))) Wl2)
      (broadcastInDim S512x1 ![0, 1] bcast_S1x1_S512x1_0_1 (broadcastInDim S1x1 ![1] bcast_S1_S1x1_1 bl2)))
    = Cert.Spec.headMlp g Wl bl Wl2 bl2 := by
  rw [dense_eq dot_S512x200_S200x50_S512x50_1_0_0_1_n_n rfl rfl rfl rfl rfl rfl rfl rfl
      bcast_S50_S1x50_1 bcast_S1x50_S512x50_0_1, relu_eq,
    dense_eq dot_S512x50_S50x1_S512x1_1_0_0_1_n_n rfl rfl rfl rfl rfl rfl rfl rfl
      bcast_S1_S1x1_1 bcast_S1x1_S512x1_0_1]
  rfl

end Cert.ReferenceIdeal.RefLayersA

end
-- ==== Proof.RefLayersB.lean ====
/-
  The reference's node update, as its host operations spell it over whole arrays at the two layers' widths, is the
  function `Cert.Spec.nodeMlp`: two `dot_general`s contracting the one shared axis, each with its bias broadcast
  along the rows and rectified by the maximum with a broadcast zero, on `x + agg`.

  One layer is proved once, for every height and width: read at `(a, c)`, the `dot_general` is `∑ q, y[a, q] · W[q, c]`
  (its contraction index has one axis, carried to `Fin k` by a bijection), the twice-broadcast bias is `b[c]`, and the
  broadcast constant is `0`; so the layer is `max (∑ q, y[a, q] · W[q, c] + b[c]) 0`, the rectified dense layer. The
  node update is two such layers, the inner one rewritten as a whole array before the outer one reads it; the two
  statements are that fact at widths (101, 101, 101) and (101, 100, 200).
-/
import proofs.«427209_j57208964382753_2_alg».proof.Proof.Gen.ReferenceIdeal
import proofs.«427209_j57208964382753_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefLayersB

open Cert.ReferenceIdeal Cert.ReferenceIdeal.Gen
open Idealize.ShloMosaic Idealize.ShloMosaic.TcCoe Idealize.ShloMosaic.ValueIdx

/-- A `dot_general` that contracts the left operand's second axis with the right operand's first, with no batch
    axis, read at `(a, b)`, is `∑ q, l[a, q] · r[q, b]`: the sum over the one-axis contraction index is carried to a sum
    over `Fin k` along the bijection between the two, and the operand indices are identified coordinate by coordinate. -/
private theorem dot_apply {n k p : Nat} (D : DotDims ⟨2, ![n, k]⟩ ⟨2, ![k, p]⟩ ⟨2, ![n, p]⟩)
    (hlc : D.lhsContracting = [1]) (hrc : D.rhsContracting = [0]) (hln : D.lhsNonContracting = [0])
    (hrn : D.rhsNonContracting = [1]) (hlb : D.lhsBatch = []) (hrb : D.rhsBatch = [])
    (l : FVec Ideal ⟨2, ![n, k]⟩ .f32) (r : FVec Ideal ⟨2, ![k, p]⟩ .f32) (a : Fin n) (b : Fin p) :
    Host.dotGeneral D none l r (ix2 a b) = ∑ q : Fin k, l (ix2 a q) * r (ix2 q b) := by
  obtain ⟨lc, rc, ln, rn, lb, rb, wf⟩ := D
  simp only at hlc hrc hln hrn hlb hrb
  subst hlc hrc hln hrn hlb hrb
  simp only [Host.dotGeneral]
  rw [Ideal.dotGeneral_apply, ← Equiv.sum_comp (contrEquiv1 _ k rfl rfl).symm]
  refine Finset.sum_congr rfl fun q _ => ?_
  have hk := contrEquiv1_symm_val (DotDims.mk [1] [0] [0] [1] [] [] wf) k rfl rfl q
  generalize (contrEquiv1 (DotDims.mk [1] [0] [0] [1] [] [] wf) k rfl rfl).symm q = q' at hk
  have l0 : ((DotDims.mk [1] [0] [0] [1] [] [] wf).lhsIdx (ix2 a b) q' 0).val = a.val := by
    unfold DotDims.lhsIdx
    rw [dif_neg (show ¬(0 : Fin 2) ∈ ([] : List (Fin 2)) by decide), dif_pos (show (0 : Fin 2) ∈ ([0] : List (Fin 2)) by decide)]
    rfl
  have r1 : ((DotDims.mk [1] [0] [0] [1] [] [] wf).rhsIdx (ix2 a b) q' 1).val = b.val := by
    unfold DotDims.rhsIdx
    rw [dif_neg (show ¬(1 : Fin 2) ∈ ([] : List (Fin 2)) by decide), dif_pos (show (1 : Fin 2) ∈ ([1] : List (Fin 2)) by decide)]
    rfl
  have l1 := (DotDims.mk [1] [0] [0] [1] [] [] wf).lhsIdx_val_of_single rfl (ix2 a b) q'
  have r0 := (DotDims.mk [1] [0] [0] [1] [] [] wf).rhsIdx_val_of_single rfl (ix2 a b) q'
  have el : (DotDims.mk [1] [0] [0] [1] [] [] wf).lhsIdx (ix2 a b) q' = ix2 a q := funext fun c => Fin.ext (by
    match c with
    | ⟨0, _⟩ => exact l0
    | ⟨1, _⟩ => exact l1.trans hk)
  have er : (DotDims.mk [1] [0] [0] [1] [] [] wf).rhsIdx (ix2 a b) q' = ix2 q b := funext fun c => Fin.ext (by
    match c with
    | ⟨0, _⟩ => exact r0.trans hk
    | ⟨1, _⟩ => exact r1)
  rw [el, er]

/-- A bias vector broadcast to one row and then along the rows, read at `(a, c)`, is its entry `c` (when the width is
    one, the only column is column zero). -/
private theorem bias_apply {n p : Nat} (h1 : (⟨1, ![p]⟩ : Shape).BroadcastsInDim ⟨2, ![1, p]⟩ ![1])
    (h2 : (⟨2, ![1, p]⟩ : Shape).BroadcastsInDim ⟨2, ![n, p]⟩ ![0, 1])
    (b : FVec Ideal ⟨1, ![p]⟩ .f32) (a : Fin n) (c : Fin p) :
    broadcastInDim ⟨2, ![n, p]⟩ ![0, 1] h2 (broadcastInDim ⟨2, ![1, p]⟩ ![1] h1 b) (ix2 a c) = b (ix1 c) := by
  rw [broadcastInDim_apply _ h2 _ (ix2 a c) (ix2 (0 : Fin 1) c) (fun d => match d with
      | ⟨0, _⟩ => by show 0 = if (1 : Nat) = 1 then 0 else a.val; rw [if_pos rfl]
      | ⟨1, _⟩ => by
          show c.val = if p = 1 then 0 else c.val
          split
          · have := c.isLt; omega
          · rfl),
    broadcastInDim_apply _ h1 b (ix2 (0 : Fin 1) c) (ix1 c) (fun d => match d with
      | ⟨0, _⟩ => by
          show c.val = if p = 1 then 0 else c.val
          split
          · have := c.isLt; omega
          · rfl)]

/-- The scalar constant of all-zero bits, broadcast to any shape, reads `0` everywhere. -/
private theorem zero_apply {t : Shape} (h : (⟨0, ![]⟩ : Shape).BroadcastsInDim t ![]) (j : t.Idx) :
    broadcastInDim t ![] h (constant (F := Ideal) ⟨0, ![]⟩ .f32 0x00000000#32) j = 0 := by
  rw [broadcastInDim_apply _ h _ j ix0 (fun d => d.elim0), constant_apply, Ideal.ofBits_zero_f32]

/-- One layer: `max (y · W + b) 0` as the host operations spell it is the rectified dense layer of the specification. -/
private theorem layer_eq {n k p : Nat} (D : DotDims ⟨2, ![n, k]⟩ ⟨2, ![k, p]⟩ ⟨2, ![n, p]⟩)
    (hlc : D.lhsContracting = [1]) (hrc : D.rhsContracting = [0]) (hln : D.lhsNonContracting = [0])
    (hrn : D.rhsNonContracting = [1]) (hlb : D.lhsBatch = []) (hrb : D.rhsBatch = [])
    (h1 : (⟨1, ![p]⟩ : Shape).BroadcastsInDim ⟨2, ![1, p]⟩ ![1])
    (h2 : (⟨2, ![1, p]⟩ : Shape).BroadcastsInDim ⟨2, ![n, p]⟩ ![0, 1])
    (h0 : (⟨0, ![]⟩ : Shape).BroadcastsInDim ⟨2, ![n, p]⟩ ![])
    (y : FVec Ideal ⟨2, ![n, k]⟩ .f32) (W : FVec Ideal ⟨2, ![k, p]⟩ .f32) (b : FVec Ideal ⟨1, ![p]⟩ .f32) :
    maximumf (addf (Host.dotGeneral D none y W)
        (broadcastInDim ⟨2, ![n, p]⟩ ![0, 1] h2 (broadcastInDim ⟨2, ![1, p]⟩ ![1] h1 b)))
      (broadcastInDim ⟨2, ![n, p]⟩ ![] h0 (constant (F := Ideal) ⟨0, ![]⟩ .f32 0x00000000#32))
    = Cert.Spec.relu (Cert.Spec.dense y W b) := by
  funext i
  obtain ⟨a, c, rfl⟩ : ∃ (a : Fin n) (c : Fin p), i = ix2 a c := ⟨i 0, i 1, eq_ix2 i⟩
  rw [maximumf_apply, addf_apply, zero_apply, bias_apply, dot_apply D hlc hrc hln hrn hlb hrb]
  rfl

/-- Two layers on `x + agg`, at any widths: the inner layer is rewritten as a whole array, then the outer one, and
    `x + agg` entry by entry is the specification's own sum. -/
private theorem node_eq {n k h p : Nat}
    (D1 : DotDims ⟨2, ![n, k]⟩ ⟨2, ![k, h]⟩ ⟨2, ![n, h]⟩)
    (h1lc : D1.lhsContracting = [1]) (h1rc : D1.rhsContracting = [0]) (h1ln : D1.lhsNonContracting = [0])
    (h1rn : D1.rhsNonContracting = [1]) (h1lb : D1.lhsBatch = []) (h1rb : D1.rhsBatch = [])
    (D2 : DotDims ⟨2, ![n, h]⟩ ⟨2, ![h, p]⟩ ⟨2, ![n, p]⟩)
    (h2lc : D2.lhsContracting = [1]) (h2rc : D2.rhsContracting = [0]) (h2ln : D2.lhsNonContracting = [0])
    (h2rn : D2.rhsNonContracting = [1]) (h2lb : D2.lhsBatch = []) (h2rb : D2.rhsBatch = [])
    (ha1 : (⟨1, ![h]⟩ : Shape).BroadcastsInDim ⟨2, ![1, h]⟩ ![1])
    (ha2 : (⟨2, ![1, h]⟩ : Shape).BroadcastsInDim ⟨2, ![n, h]⟩ ![0, 1])
    (ha0 : (⟨0, ![]⟩ : Shape).BroadcastsInDim ⟨2, ![n, h]⟩ ![])
    (hb1 : (⟨1, ![p]⟩ : Shape).BroadcastsInDim ⟨2, ![1, p]⟩ ![1])
    (hb2 : (⟨2, ![1, p]⟩ : Shape).BroadcastsInDim ⟨2, ![n, p]⟩ ![0, 1])
    (hb0 : (⟨0, ![]⟩ : Shape).BroadcastsInDim ⟨2, ![n, p]⟩ ![])
    (x agg : FVec Ideal ⟨2, ![n, k]⟩ .f32) (Wa : FVec Ideal ⟨2, ![k, h]⟩ .f32) (ba : FVec Ideal ⟨1, ![h]⟩ .f32)
    (Wb : FVec Ideal ⟨2, ![h, p]⟩ .f32) (bb : FVec Ideal ⟨1, ![p]⟩ .f32) :
    maximumf (addf (Host.dotGeneral D2 none
        (maximumf (addf (Host.dotGeneral D1 none (addf x agg) Wa)
            (broadcastInDim ⟨2, ![n, h]⟩ ![0, 1] ha2 (broadcastInDim ⟨2, ![1, h]⟩ ![1] ha1 ba)))
          (broadcastInDim ⟨2, ![n, h]⟩ ![] ha0 (constant (F := Ideal) ⟨0, ![]⟩ .f32 0x00000000#32))) Wb)
        (broadcastInDim ⟨2, ![n, p]⟩ ![0, 1] hb2 (broadcastInDim ⟨2, ![1, p]⟩ ![1] hb1 bb)))
      (broadcastInDim ⟨2, ![n, p]⟩ ![] hb0 (constant (F := Ideal) ⟨0, ![]⟩ .f32 0x00000000#32))
    = Cert.Spec.nodeMlp x agg Wa ba Wb bb := by
  rw [layer_eq D1 h1lc h1rc h1ln h1rn h1lb h1rb ha1 ha2 ha0, layer_eq D2 h2lc h2rc h2ln h2rn h2lb h2rb hb1 hb2 hb0]
  rfl

/-- The first layer's node update, widths 101, 101, 101. -/
theorem node1_eq (x agg : FVec Ideal S50000x101 .f32) (Wa : FVec Ideal S101x101 .f32) (ba : FVec Ideal S101 .f32)
    (Wb : FVec Ideal S101x101 .f32) (bb : FVec Ideal S101 .f32) :
    maximumf (addf (Host.dotGeneral dot_S50000x101_S101x101_S50000x101_1_0_0_1_n_n none
        (maximumf (addf (Host.dotGeneral dot_S50000x101_S101x101_S50000x101_1_0_0_1_n_n none (addf x agg) Wa)
            (broadcastInDim S50000x101 ![0, 1] bcast_S1x101_S50000x101_0_1 (broadcastInDim S1x101 ![1] bcast_S101_S1x101_1 ba)))
          (broadcastInDim S50000x101 ![] bcast_S_S50000x101 (constant (F := Ideal) S_ .f32 0x00000000#32))) Wb)
        (broadcastInDim S50000x101 ![0, 1] bcast_S1x101_S50000x101_0_1 (broadcastInDim S1x101 ![1] bcast_S101_S1x101_1 bb)))
      (broadcastInDim S50000x101 ![] bcast_S_S50000x101 (constant (F := Ideal) S_ .f32 0x00000000#32))
    = Cert.Spec.nodeMlp x agg Wa ba Wb bb := by
  exact node_eq dot_S50000x101_S101x101_S50000x101_1_0_0_1_n_n rfl rfl rfl rfl rfl rfl
    dot_S50000x101_S101x101_S50000x101_1_0_0_1_n_n rfl rfl rfl rfl rfl rfl
    bcast_S101_S1x101_1 bcast_S1x101_S50000x101_0_1 bcast_S_S50000x101
    bcast_S101_S1x101_1 bcast_S1x101_S50000x101_0_1 bcast_S_S50000x101 x agg Wa ba Wb bb

/-- The second layer's node update, widths 101, 100, 200. -/
theorem node3_eq (x agg : FVec Ideal S50000x101 .f32) (Wa : FVec Ideal S101x100 .f32) (ba : FVec Ideal S100 .f32)
    (Wb : FVec Ideal S100x200 .f32) (bb : FVec Ideal S200 .f32) :
    maximumf (addf (Host.dotGeneral dot_S50000x100_S100x200_S50000x200_1_0_0_1_n_n none
        (maximumf (addf (Host.dotGeneral dot_S50000x101_S101x100_S50000x100_1_0_0_1_n_n none (addf x agg) Wa)
            (broadcastInDim S50000x100 ![0, 1] bcast_S1x100_S50000x100_0_1 (broadcastInDim S1x100 ![1] bcast_S100_S1x100_1 ba)))
          (broadcastInDim S50000x100 ![] bcast_S_S50000x100 (constant (F := Ideal) S_ .f32 0x00000000#32))) Wb)
        (broadcastInDim S50000x200 ![0, 1] bcast_S1x200_S50000x200_0_1 (broadcastInDim S1x200 ![1] bcast_S200_S1x200_1 bb)))
      (broadcastInDim S50000x200 ![] bcast_S_S50000x200 (constant (F := Ideal) S_ .f32 0x00000000#32))
    = Cert.Spec.nodeMlp x agg Wa ba Wb bb := by
  exact node_eq dot_S50000x101_S101x100_S50000x100_1_0_0_1_n_n rfl rfl rfl rfl rfl rfl
    dot_S50000x100_S100x200_S50000x200_1_0_0_1_n_n rfl rfl rfl rfl rfl rfl
    bcast_S100_S1x100_1 bcast_S1x100_S50000x100_0_1 bcast_S_S50000x100
    bcast_S200_S1x200_1 bcast_S1x200_S50000x200_0_1 bcast_S_S50000x200 x agg Wa ba Wb bb

end Cert.ReferenceIdeal.RefLayersB

end
-- ==== Proof.RefValue.lean ====
/-
  The reference's run, read back: the composed term its run ends at is the network `Cert.Spec.model` of its argument
  arrays over its own three host maps. The term is layered exactly as the network is: the edge message, the node
  update at each layer's widths and the head are rewritten by their whole-array lemmas, innermost first; the gathers
  and scatters between them are the host maps and are never opened.
-/
import proofs.«427209_j57208964382753_2_alg».proof.Defs
import proofs.«427209_j57208964382753_2_alg».proof.Proof.Gen.ReferenceIdeal.Run
import proofs.«427209_j57208964382753_2_alg».proof.Proof.Gen.ReferenceIdeal.Read
import proofs.«427209_j57208964382753_2_alg».proof.Proof.Spec
import proofs.«427209_j57208964382753_2_alg».proof.Proof.HostMapsR
import proofs.«427209_j57208964382753_2_alg».proof.Proof.RefLayersA
import proofs.«427209_j57208964382753_2_alg».proof.Proof.RefLayersB

noncomputable section

namespace Cert.ReferenceIdeal.RefValue

open Cert.ReferenceIdeal Cert.ReferenceIdeal.Gen
open Idealize.ShloMosaic Idealize.ShloMosaic.TcCoe Idealize.SL.Sem

set_option maxRecDepth 200000 in
/-- The reference's result is the network of its arguments. -/
theorem res_eq_model (m : (ℓ : Loc nD τ sig) → Buf (Elt Ideal) ℓ) (c : Dev nD) :
    Cert.ReferenceIdeal.Value.res_out0 (F := Ideal) m c =
      Cert.Spec.model (HostMaps.gatherSrc (F := Ideal) (m ((c.tc : Thread nD τ).loc main_arg1))) (HostMaps.segDst (F := Ideal) (m ((c.tc : Thread nD τ).loc main_arg1)))
        (HostMaps.pool (F := Ideal) (m ((c.tc : Thread nD τ).loc main_arg4)))
        (m ((c.tc : Thread nD τ).loc main_arg0)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
        (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
        (m ((c.tc : Thread nD τ).loc main_arg17)) (m ((c.tc : Thread nD τ).loc main_arg18)) (m ((c.tc : Thread nD τ).loc main_arg19)) (m ((c.tc : Thread nD τ).loc main_arg20)) := by
  unfold Cert.ReferenceIdeal.Value.res_out0 Cert.ReferenceIdeal.Value.res_main_v70
  rw [RefLayersA.head_eq, RefLayersB.node3_eq, RefLayersA.edge_eq, RefLayersB.node1_eq, RefLayersA.edge_eq]
  rfl

end Cert.ReferenceIdeal.RefValue

end
-- ==== Proof.lean ====
/-
  The certificate of a two-round message-passing graph network written as five TensorCore kernels (an edge-message
  kernel and a node-update kernel per round, and a graph head) with the gathers and segment sums between them on the
  host, against its plain reference.

  Over the extended reals both programs compute ONE function of the inputs, `Cert.Spec.model`: an edge's message is
  `max (x[src] + (ea · We + be)) 0`, a node's update is two rectified dense layers on `x + (the sum of its incoming
  messages)`, and the head is `|max (g · Wl + bl) 0 · Wl2 + bl2|` of the features summed per graph. A change of float
  format is the identity there, a matrix product into a zero accumulator and a `dot_general` are the same plain sum
  over the contracted axis, and the tiling of rows into blocks changes nothing, since each output row depends on its
  own input row only. The segment sums and the row gather are the same host operations of the same operands in both
  programs and are carried whole.

  The one place the programs differ is the row gather: the kernel's side takes rows with a fill value outside
  `0 … 49999` (after a negative source has been counted from the end) where the reference's indexing clamps. Under
  the precondition's range `-50000 ≤ src < 50000` the fill is never taken and the two gathers are one.

  The frames of the two kernel programs are the generated ones; the reference's frame is its generated run with the
  result dropped; the idealization's ledger is empty.
-/
import proofs.«427209_j57208964382753_2_alg».proof.Defs
import proofs.«427209_j57208964382753_2_alg».proof.Proof.Gen.Kernel
import proofs.«427209_j57208964382753_2_alg».proof.Proof.Gen.Kernel.Skeleton
import proofs.«427209_j57208964382753_2_alg».proof.Proof.Gen.Kernel.Launch
import proofs.«427209_j57208964382753_2_alg».proof.Proof.Gen.Kernel.Points
import proofs.«427209_j57208964382753_2_alg».proof.Proof.Gen.Kernel.Frame
import proofs.«427209_j57208964382753_2_alg».proof.Proof.Gen.KernelIdeal
import proofs.«427209_j57208964382753_2_alg».proof.Proof.Gen.KernelIdeal.Skeleton
import proofs.«427209_j57208964382753_2_alg».proof.Proof.Gen.KernelIdeal.Launch
import proofs.«427209_j57208964382753_2_alg».proof.Proof.Gen.KernelIdeal.Points
import proofs.«427209_j57208964382753_2_alg».proof.Proof.Gen.KernelIdeal.Frame
import proofs.«427209_j57208964382753_2_alg».proof.Proof.Gen.ReferenceIdeal
import proofs.«427209_j57208964382753_2_alg».proof.Proof.Gen.ReferenceIdeal.Run
import proofs.«427209_j57208964382753_2_alg».proof.Proof.Gen.Pre_finite_inputs
import proofs.«427209_j57208964382753_2_alg».proof.Proof.ValueRun
import proofs.«427209_j57208964382753_2_alg».proof.Proof.TakeK
import proofs.«427209_j57208964382753_2_alg».proof.Proof.KernelValue
import proofs.«427209_j57208964382753_2_alg».proof.Proof.RefValue
import Idealize.ShloMosaic.Adequacy
import Idealize.ShloMosaic.Init

noncomputable section

namespace Cert.Proof

open Idealize.ShloMosaic Idealize.SL.Sem

/-- The two programs' host maps are one: the same operations of the same integer inputs. -/
theorem gatherSrc_eq (ei : (⟨Cert.KernelIdeal.S2x800000, .i32⟩ : BufTy).Contents (Elt Ideal)) :
    Cert.ReferenceIdeal.HostMaps.gatherSrc (F := Ideal) ei = Cert.KernelIdeal.HostMaps.gatherSrc (F := Ideal) ei := rfl
theorem segDst_eq (ei : (⟨Cert.KernelIdeal.S2x800000, .i32⟩ : BufTy).Contents (Elt Ideal)) :
    Cert.ReferenceIdeal.HostMaps.segDst (F := Ideal) ei = Cert.KernelIdeal.HostMaps.segDst (F := Ideal) ei := rfl
theorem pool_eq (b : (⟨Cert.KernelIdeal.S50000, .i32⟩ : BufTy).Contents (Elt Ideal)) :
    Cert.ReferenceIdeal.HostMaps.pool (F := Ideal) b = Cert.KernelIdeal.HostMaps.pool (F := Ideal) b := rfl

/-- The value both runs end at: the network of the launch arrays. -/
def out (m : (ℓ : Loc Cert.KernelIdeal.nD Cert.KernelIdeal.τ Cert.KernelIdeal.sig) → Buf (Elt Ideal) ℓ)
    (c : Dev Cert.KernelIdeal.nD) : Buf (Elt Ideal) ((c.tc : Thread Cert.KernelIdeal.nD Cert.KernelIdeal.τ).loc Cert.KernelIdeal.main_v27) :=
  Cert.Spec.model (Cert.KernelIdeal.HostMaps.gatherSrc (F := Ideal) (m ((c.tc : Thread Cert.KernelIdeal.nD Cert.KernelIdeal.τ).loc Cert.KernelIdeal.main_arg1))) (Cert.KernelIdeal.HostMaps.segDst (F := Ideal) (m ((c.tc : Thread Cert.KernelIdeal.nD Cert.KernelIdeal.τ).loc Cert.KernelIdeal.main_arg1)))
        (Cert.KernelIdeal.HostMaps.pool (F := Ideal) (m ((c.tc : Thread Cert.KernelIdeal.nD Cert.KernelIdeal.τ).loc Cert.KernelIdeal.main_arg4)))
        (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
        (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))
        (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))

/-- From memories agreeing on the inputs both programs end at the network of the inputs: the kernel program by its
    named run and the value read off its boundaries (the precondition gives the sources' range), the reference by its
    run read back, the agreement of the arguments, and the two programs' host maps being one. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨out m, ?_, ?_⟩
  · exact (θ_run Cert.KernelIdeal.defs _ _).mono
      (fun r h c => ⟨(h c).1.trans (Cert.KernelIdeal.KernelValue.kernel_value m ρ c (Cert.KernelIdeal.TakeK.srcOk_of_pre m hpre c)), (h c).2⟩)
      (Cert.KernelIdeal.ValueRun.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, -, h3, h4, h5, h6, h7, h8, h9, h10, h11, h12, h13, h14, h15, h16, h17, h18, h19, h20⟩ := hagree c
    refine (Cert.ReferenceIdeal.RefValue.res_eq_model m' c).trans ?_
    rw [h0, h1, h3, h4, h5, h6, h7, h8, h9, h10, h11, h12, h13, h14, h15, h16, h17, h18, h19, h20,
      gatherSrc_eq, segDst_eq, pool_eq]
    rfl

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
